-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v0_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v0_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_v30) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x2 : Shape := ⟨2, ![262144, 2]⟩
abbrev S262144x128 : Shape := ⟨2, ![262144, 128]⟩
abbrev S512x2 : Shape := ⟨2, ![512, 2]⟩
abbrev S512x128 : Shape := ⟨2, ![512, 128]⟩
abbrev S512 : Shape := ⟨1, ![512]⟩
abbrev S_ : Shape := ⟨0, ![]⟩

class Facts : Prop where
  bcast_S_S262144x2 : S_.BroadcastsInDim S262144x2 (![] : Fin 0 → Fin S262144x2.rank)
  reducesTo_S262144x2_S_d0_1 : S262144x2.ReducesTo [0, 1] S_
  h_S_ : 0 < S_.numel
  bcast_S_S262144x128 : S_.BroadcastsInDim S262144x128 (![] : Fin 0 → Fin S262144x128.rank)
  reducesTo_S262144x128_S_d0_1 : S262144x128.ReducesTo [0, 1] S_
  bcast_S_S512x2 : S_.BroadcastsInDim S512x2 (![] : Fin 0 → Fin S512x2.rank)
  reducesTo_S512x2_S_d0_1 : S512x2.ReducesTo [0, 1] S_
  bcast_S_S512x128 : S_.BroadcastsInDim S512x128 (![] : Fin 0 → Fin S512x128.rank)
  reducesTo_S512x128_S_d0_1 : S512x128.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x128 .f32) (main_arg5 : FVec F S512 .f32) (main_arg6 : FVec F S512 .f32) (main_v13 : IVec S_ 1) (main_v16 : IVec S512x2 1) : IVec S_ 1 :=
  let main_c_5 : IVec S_ 1 := constantI S_ 1 1#1
  let main_v17 : IVec S_ 1 := (fun x v => Host.reduce IntOp.andi x v reducesTo_S512x2_S_d0_1 h_S_) main_v16 main_c_5
  let main_v18 : IVec S_ 1 := andi main_v13 main_v17
  let main_v19 : FVec F S512x128 .f32 := Host.absf main_arg4
  let main_cst_6 : FVec F S_ .f32 := constant S_ .f32 0x7F800000#32
  let main_v20 : FVec F S512x128 .f32 := broadcastInDim S512x128 ![] bcast_S_S512x128 main_cst_6
  let main_v21 : IVec S512x128 1 := cmpf .olt main_v19 main_v20
  let main_c_7 : IVec S_ 1 := constantI S_ 1 1#1
  let main_v22 : IVec S_ 1 := (fun x v => Host.reduce IntOp.andi x v reducesTo_S512x128_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S262144x2 .f32) (main_arg1 : FVec F S262144x128 .f32) (main_arg2 : FVec F S262144x128 .f32) (main_arg3 : FVec F S512x2 .f32) (main_arg4 : FVec F S512x128 .f32) (main_arg5 : FVec F S512 .f32) (main_arg6 : FVec F S512 .f32) : IVec S_ 1 :=
  let main_v0 : FVec F S262144x2 .f32 := Host.absf main_arg0
  let main_cst : FVec F S_ .f32 := constant S_ .f32 0x7F800000#32
  let main_v1 : FVec F S262144x2 .f32 := broadcastInDim S262144x2 ![] bcast_S_S262144x2 main_cst
  let main_v2 : IVec S262144x2 1 := cmpf .olt main_v0 main_v1
  let main_c : IVec S_ 1 := constantI S_ 1 1#1
  let main_v3 : IVec S_ 1 := (fun x v => Host.reduce IntOp.andi x v reducesTo_S262144x2_S_d0_1 h_S_) main_v2 main_c
  let main_v4 : FVec F S262144x128 .f32 := Host.absf main_arg1
  let main_cst_0 : FVec F S_ .f32 := constant S_ .f32 0x7F800000#32
  let main_v5 : FVec F S262144x128 .f32 := broadcastInDim S262144x128 ![] bcast_S_S262144x128 main_cst_0
  let main_v6 : IVec S262144x128 1 := cmpf .olt main_v4 main_v5
  let main_c_1 : IVec S_ 1 := constantI S_ 1 1#1
  let main_v7 : IVec S_ 1 := (fun x v => Host.reduce IntOp.andi x v reducesTo_S262144x128_S_d0_1 h_S_) main_v6 main_c_1
  let main_v8 : IVec S_ 1 := andi main_v3 main_v7
  let main_v9 : FVec F S262144x128 .f32 := Host.absf main_arg2
  let main_cst_2 : FVec F S_ .f32 := constant S_ .f32 0x7F800000#32
  let main_v10 : FVec F S262144x128 .f32 := broadcastInDim S262144x128 ![] bcast_S_S262144x128 main_cst_2
  let main_v11 : IVec S262144x128 1 := cmpf .olt main_v9 main_v10
  let main_c_3 : IVec S_ 1 := constantI S_ 1 1#1
  let main_v12 : IVec S_ 1 := (fun x v => Host.reduce IntOp.andi x v reducesTo_S262144x128_S_d0_1 h_S_) main_v11 main_c_3
  let main_v13 : IVec S_ 1 := andi main_v8 main_v12
  let main_v14 : FVec F S512x2 .f32 := Host.absf main_arg3
  let main_cst_4 : FVec F S_ .f32 := constant S_ .f32 0x7F800000#32
  let main_v15 : FVec F S512x2 .f32 := broadcastInDim S512x2 ![] bcast_S_S512x2 main_cst_4
  let main_v16 : IVec S512x2 1 := cmpf .olt main_v14 main_v15
  fn_part1 (F := F) main_arg4 main_arg5 main_arg6 main_v13 main_v16
-- ==== Kernel.lean ====
abbrev S262144x2 : Shape := ⟨2, ![262144, 2]⟩
abbrev S262144x128 : Shape := ⟨2, ![262144, 128]⟩
abbrev S512x2 : Shape := ⟨2, ![512, 2]⟩
abbrev S512x128 : Shape := ⟨2, ![512, 128]⟩
abbrev S512 : Shape := ⟨1, ![512]⟩
abbrev S256x128 : Shape := ⟨2, ![256, 128]⟩
abbrev S2048x2 : Shape := ⟨2, ![2048, 2]⟩
abbrev S2048x128 : Shape := ⟨2, ![2048, 128]⟩
abbrev S2x512 : Shape := ⟨2, ![2, 512]⟩
abbrev S2048x512 : Shape := ⟨2, ![2048, 512]⟩
abbrev S128x512 : Shape := ⟨2, ![128, 512]⟩
abbrev S1x512 : Shape := ⟨2, ![1, 512]⟩
abbrev S2048x1 : Shape := ⟨2, ![2048, 1]⟩
abbrev S2048 : Shape := ⟨1, ![2048]⟩
abbrev S2048x256 : Shape := ⟨2, ![2048, 256]⟩

abbrev nBuf : Space → Nat
  | .hbm => 10
  | .vmem => 19
  | .smem => 0
  | _ => 0

abbrev bufTy : (tb : Table) → Fin (tcTables nBuf tb) → BufTy
  | .hbm, ⟨0, _⟩ => ⟨S262144x2, .f32⟩
  | .hbm, ⟨1, _⟩ => ⟨S262144x128, .f32⟩
  | .hbm, ⟨2, _⟩ => ⟨S262144x128, .f32⟩
  | .hbm, ⟨3, _⟩ => ⟨S512x2, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S262144x128, .f32⟩
  | .hbm, ⟨8, _⟩ => ⟨S256x128, .f32⟩
  | .hbm, ⟨9, _⟩ => ⟨S262144x128, .f32⟩
  | .local _ .vmem, ⟨0, _⟩ => ⟨S2048x2, .f32⟩
  | .local _ .vmem, ⟨1, _⟩ => ⟨S2048x2, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S512x2, .f32⟩
  | .local _ .vmem, ⟨7, _⟩ => ⟨S512x128, .f32⟩
  | .local _ .vmem, ⟨8, _⟩ => ⟨S512, .f32⟩
  | .local _ .vmem, ⟨9, _⟩ => ⟨S512, .f32⟩
  | .local _ .vmem, ⟨10, _⟩ => ⟨S2048x128, .f32⟩
  | .local _ .vmem, ⟨11, _⟩ => ⟨S2048x128, .f32⟩
  | .local _ .vmem, ⟨12, _⟩ => ⟨S256x128, .f32⟩
  | .local _ .vmem, ⟨13, _⟩ => ⟨S256x128, .f32⟩
  | .local _ .vmem, ⟨14, _⟩ => ⟨S2048x2, .f32⟩
  | .local _ .vmem, ⟨15, _⟩ => ⟨S2048x2, .f32⟩
  | .local _ .vmem, ⟨16, _⟩ => ⟨S256x128, .f32⟩
  | .local _ .vmem, ⟨17, _⟩ => ⟨S2048x128, .f32⟩
  | .local _ .vmem, ⟨18, _⟩ => ⟨S2048x128, .f32⟩
  | _, _ => ⟨S262144x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_scratch0 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg2_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![128], ![false]⟩

def k0_cond2 (i : grid0.Coords) : BitVec 1 :=
  let arg0 : BitVec 32 := BitVec.ofNat 32 (i 0).val
  let c127_i32 : BitVec 32 := 127#32
  let v90 : BitVec 1 := Scalar.cmpi .eq arg0 c127_i32
  let v91 : BitVec 32 := Scalar.extui v90
  let c0_i32_33 : BitVec 32 := 0#32
  let v92 : BitVec 1 := Scalar.cmpi .ne v91 c0_i32_33
  v92

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x2 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S256x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev grid1 : Pipeline.Grid := ⟨1, ![128], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2048x2 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2048x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S2048x2_S2048x2_0_0 : ∀ a, (![0, 0] : Fin 2 → Nat) a + S2048x2.size a ≤ S2048x2.size a
  h_S2048x2 : 0 < S2048x2.numel
  inb_S2048x128_S2048x128_0_0 : ∀ a, (![0, 0] : Fin 2 → Nat) a + S2048x128.size a ≤ S2048x128.size a
  h_S2048x128 : 0 < S2048x128.numel
  inb_S512x2_S512x2_0_0 : ∀ a, (![0, 0] : Fin 2 → Nat) a + S512x2.size a ≤ S512x2.size a
  h_S512x2 : 0 < S512x2.numel
  inb_S512x128_S512x128_0_0 : ∀ a, (![0, 0] : Fin 2 → Nat) a + S512x128.size a ≤ S512x128.size a
  h_S512x128 : 0 < S512x128.numel
  inb_S512_S512_0 : ∀ a, (![0] : Fin 1 → Nat) a + S512.size a ≤ S512.size a
  h_S512 : 0 < S512.numel
  bitsLt_bf16_f32 : FTy.bits .bf16 < FTy.bits .f32
  transposes_S512x2_p1_0_S2x512 : S512x2.Transposes [1, 0] S2x512
  transposes_S512x128_p1_0_S128x512 : S512x128.Transposes [1, 0] S128x512
  shapeCasts_S512_S1x512 : S512.ShapeCasts S1x512
  broadcasts_S1x512_S2048x512 : S1x512.Broadcasts S2048x512
  slices_S2048x512_o0_0_S2048x128 : S2048x512.Slices ![0, 0] S2048x128
  slices_S2048x512_o0_128_S2048x128 : S2048x512.Slices ![0, 128] S2048x128
  slices_S2048x512_o0_256_S2048x128 : S2048x512.Slices ![0, 256] S2048x128
  slices_S2048x512_o0_384_S2048x128 : S2048x512.Slices ![0, 384] S2048x128
  slices_S2048x2_o0_0_S2048x1 : S2048x2.Slices ![0, 0] S2048x1
  shapeCasts_S2048x1_S2048 : S2048x1.ShapeCasts S2048
  slices_S2048x2_o0_1_S2048x1 : S2048x2.Slices ![0, 1] S2048x1
  iota_S2048x256_d1_w32 : S2048x256.Iotas .tc 32 [1]
  shapeCasts_S2048_S2048x1 : S2048.ShapeCasts S2048x1
  broadcasts_S2048x1_S2048x256 : S2048x1.Broadcasts S2048x256
  natLt_1_32 : 1 < 32
  dot_S2048x2_S2x512_S2048x512_1_0_0_1_n_n_wf : DotDims.WF S2048x2 S2x512 S2048x512 [1] [0] [0] [1] [] []
  dot_S2048x128_S128x512_S2048x512_1_0_0_1_n_n_wf : DotDims.WF S2048x128 S128x512 S2048x512 [1] [0] [0] [1] [] []
  dot_S2048x256_S2048x128_S256x128_0_0_1_1_n_n_wf : DotDims.WF S2048x256 S2048x128 S256x128 [0] [0] [1] [1] [] []
  dot_S2048x256_S256x128_S2048x128_1_0_0_1_n_n_wf : DotDims.WF S2048x256 S256x128 S2048x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2.size a ≤ S262144x2.size a
  hwx0_0 : ∀ i : grid0.Coords, EltTy.bits .f32 = 32 ∨ (Rect.block (s := S262144x2) S2048x2.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x128.size a ≤ S262144x128.size a
  hwx0_1 : ∀ i : grid0.Coords, EltTy.bits .f32 = 32 ∨ (Rect.block (s := S262144x128) S2048x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x128.size a ≤ S262144x128.size a
  hwx0_2 : ∀ i : grid0.Coords, EltTy.bits .f32 = 32 ∨ (Rect.block (s := S262144x128) S2048x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2.size a ≤ S512x2.size a
  hwx0_3 : ∀ i : grid0.Coords, EltTy.bits .f32 = 32 ∨ (Rect.block (s := S512x2) S512x2.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x128.size a ≤ S512x128.size a
  hwx0_4 : ∀ i : grid0.Coords, EltTy.bits .f32 = 32 ∨ (Rect.block (s := S512x128) S512x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S512.size a
  hwx0_5 : ∀ i : grid0.Coords, EltTy.bits .f32 = 32 ∨ (Rect.block (s := S512) S512.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S512.size a
  hwx0_6 : ∀ i : grid0.Coords, EltTy.bits .f32 = 32 ∨ (Rect.block (s := S512) S512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x128.size a ≤ S262144x128.size a
  hwx0_7 : ∀ i : grid0.Coords, EltTy.bits .f32 = 32 ∨ (Rect.block (s := S262144x128) S2048x128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x128.size a ≤ S256x128.size a
  hwx0_8 : ∀ i : grid0.Coords, EltTy.bits .f32 = 32 ∨ (Rect.block (s := S256x128) S256x128.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2048x2.size a ≤ S262144x2.size a
  hwx1_0 : ∀ i : grid1.Coords, EltTy.bits .f32 = 32 ∨ (Rect.block (s := S262144x2) S2048x2.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x128.size a ≤ S256x128.size a
  hwx1_1 : ∀ i : grid1.Coords, EltTy.bits .f32 = 32 ∨ (Rect.block (s := S256x128) S256x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2048x128.size a ≤ S262144x128.size a
  hwx1_2 : ∀ i : grid1.Coords, EltTy.bits .f32 = 32 ∨ (Rect.block (s := S262144x128) S2048x128.size (cc1_transform_2 i) (hinb1_2 i)).WholeWords (EltTy.packing .f32)

variable [Facts₀]

def dot_S2048x2_S2x512_S2048x512_1_0_0_1_n_n : DotDims S2048x2 S2x512 S2048x512 where
  lhsContracting := [1]
  rhsContracting := [0]
  lhsNonContracting := [0]
  rhsNonContracting := [1]
  lhsBatch := []
  rhsBatch := []
  wf := dot_S2048x2_S2x512_S2048x512_1_0_0_1_n_n_wf
def dot_S2048x128_S128x512_S2048x512_1_0_0_1_n_n : DotDims S2048x128 S128x512 S2048x512 where
  lhsContracting := [1]
  rhsContracting := [0]
  lhsNonContracting := [0]
  rhsNonContracting := [1]
  lhsBatch := []
  rhsBatch := []
  wf := dot_S2048x128_S128x512_S2048x512_1_0_0_1_n_n_wf
def dot_S2048x256_S2048x128_S256x128_0_0_1_1_n_n : DotDims S2048x256 S2048x128 S256x128 where
  lhsContracting := [0]
  rhsContracting := [0]
  lhsNonContracting := [1]
  rhsNonContracting := [1]
  lhsBatch := []
  rhsBatch := []
  wf := dot_S2048x256_S2048x128_S256x128_0_0_1_1_n_n_wf
def dot_S2048x256_S256x128_S2048x128_1_0_0_1_n_n : DotDims S2048x256 S256x128 S2048x128 where
  lhsContracting := [1]
  rhsContracting := [0]
  lhsNonContracting := [0]
  rhsNonContracting := [1]
  lhsBatch := []
  rhsBatch := []
  wf := dot_S2048x256_S256x128_S2048x128_1_0_0_1_n_n_wf

abbrev win0_0 : Pipeline.Window sig grid0 :=
  Pipeline.Window.ofSpec (Memref.whole main_arg0) S2048x2.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S2048x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S512x2.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0_0) S2048x128.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0_1) S256x128.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

abbrev win1_0 : Pipeline.Window sig grid1 :=
  Pipeline.Window.ofSpec (Memref.whole main_arg0) S2048x2.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0_1) S256x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S2048x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S262144x2 : Shape := ⟨2, ![262144, 2]⟩
abbrev S262144x128 : Shape := ⟨2, ![262144, 128]⟩
abbrev S512x2 : Shape := ⟨2, ![512, 2]⟩
abbrev S512x128 : Shape := ⟨2, ![512, 128]⟩
abbrev S512 : Shape := ⟨1, ![512]⟩
abbrev S2x512 : Shape := ⟨2, ![2, 512]⟩
abbrev S262144x512 : Shape := ⟨2, ![262144, 512]⟩
abbrev S1x512 : Shape := ⟨2, ![1, 512]⟩
abbrev S128x512 : Shape := ⟨2, ![128, 512]⟩
abbrev S_ : Shape := ⟨0, ![]⟩
abbrev S262144x1 : Shape := ⟨2, ![262144, 1]⟩
abbrev S262144 : Shape := ⟨1, ![262144]⟩
abbrev S256x128 : Shape := ⟨2, ![256, 128]⟩

abbrev nBuf : Space → Nat
  | .hbm => 127
  | .vmem => 0
  | .smem => 0
  | _ => 0

abbrev bufTy : (tb : Table) → Fin (tcTables nBuf tb) → BufTy
  | .hbm, ⟨0, _⟩ => ⟨S262144x2, .f32⟩
  | .hbm, ⟨1, _⟩ => ⟨S262144x128, .f32⟩
  | .hbm, ⟨2, _⟩ => ⟨S262144x128, .f32⟩
  | .hbm, ⟨3, _⟩ => ⟨S512x2, .f32⟩
  | .hbm, ⟨4, _⟩ => ⟨S512x128, .f32⟩
  | .hbm, ⟨5, _⟩ => ⟨S512, .f32⟩
  | .hbm, ⟨6, _⟩ => ⟨S512, .f32⟩
  | .hbm, ⟨7, _⟩ => ⟨S2x512, .f32⟩
  | .hbm, ⟨8, _⟩ => ⟨S262144x512, .f32⟩
  | .hbm, ⟨9, _⟩ => ⟨S1x512, .f32⟩
  | .hbm, ⟨10, _⟩ => ⟨S262144x512, .f32⟩
  | .hbm, ⟨11, _⟩ => ⟨S262144x512, .f32⟩
  | .hbm, ⟨12, _⟩ => ⟨S128x512, .f32⟩
  | .hbm, ⟨13, _⟩ => ⟨S262144x512, .f32⟩
  | .hbm, ⟨14, _⟩ => ⟨S262144x512, .f32⟩
  | .hbm, ⟨15, _⟩ => ⟨S1x512, .f32⟩
  | .hbm, ⟨16, _⟩ => ⟨S262144x512, .f32⟩
  | .hbm, ⟨17, _⟩ => ⟨S262144x512, .f32⟩
  | .hbm, ⟨18, _⟩ => ⟨S262144x128, .f32⟩
  | .hbm, ⟨19, _⟩ => ⟨S262144x128, .f32⟩
  | .hbm, ⟨20, _⟩ => ⟨S262144x128, .f32⟩
  | .hbm, ⟨21, _⟩ => ⟨S262144x128, .f32⟩
  | .hbm, ⟨22, _⟩ => ⟨S262144x128, .f32⟩
  | .hbm, ⟨23, _⟩ => ⟨S262144x128, .f32⟩
  | .hbm, ⟨24, _⟩ => ⟨S_, .f32⟩
  | .hbm, ⟨25, _⟩ => ⟨S262144x128, .f32⟩
  | .hbm, ⟨26, _⟩ => ⟨S262144x128, .f32⟩
  | .hbm, ⟨27, _⟩ => ⟨S_, .f32⟩
  | .hbm, ⟨28, _⟩ => ⟨S262144x128, .f32⟩
  | .hbm, ⟨29, _⟩ => ⟨S262144x128, .f32⟩
  | .hbm, ⟨30, _⟩ => ⟨S262144x128, .f32⟩
  | .hbm, ⟨31, _⟩ => ⟨S262144x128, .f32⟩
  | .hbm, ⟨32, _⟩ => ⟨S262144x128, .f32⟩
  | .hbm, ⟨33, _⟩ => ⟨S_, .f32⟩
  | .hbm, ⟨34, _⟩ => ⟨S262144x128, .f32⟩
  | .hbm, ⟨35, _⟩ => ⟨S262144x128, .f32⟩
  | .hbm, ⟨36, _⟩ => ⟨S_, .f32⟩
  | .hbm, ⟨37, _⟩ => ⟨S262144x128, .f32⟩
  | .hbm, ⟨38, _⟩ => ⟨S262144x128, .f32⟩
  | .hbm, ⟨39, _⟩ => ⟨S262144x128, .f32⟩
  | .hbm, ⟨40, _⟩ => ⟨S262144x128, .f32⟩
  | .hbm, ⟨41, _⟩ => ⟨S262144x128, .f32⟩
  | .hbm, ⟨42, _⟩ => ⟨S262144x128, .f32⟩
  | .hbm, ⟨43, _⟩ => ⟨S262144x128, .f32⟩
  | .hbm, ⟨44, _⟩ => ⟨S_, .f32⟩
  | .hbm, ⟨45, _⟩ => ⟨S262144x128, .f32⟩
  | .hbm, ⟨46, _⟩ => ⟨S262144x128, .f32⟩
  | .hbm, ⟨47, _⟩ => ⟨S_, .f32⟩
  | .hbm, ⟨48, _⟩ => ⟨S262144x128, .f32⟩
  | .hbm, ⟨49, _⟩ => ⟨S262144x128, .f32⟩
  | .hbm, ⟨50, _⟩ => ⟨S262144x128, .f32⟩
  | .hbm, ⟨51, _⟩ => ⟨S262144x128, .f32⟩
  | .hbm, ⟨52, _⟩ => ⟨S262144x1, .f32⟩
  | .hbm, ⟨53, _⟩ => ⟨S262144, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S262144, .f32⟩
  | .hbm, ⟨58, _⟩ => ⟨S262144, .f32⟩
  | .hbm, ⟨59, _⟩ => ⟨S_, .f32⟩
  | .hbm, ⟨60, _⟩ => ⟨S262144, .f32⟩
  | .hbm, ⟨61, _⟩ => ⟨S262144, .f32⟩
  | .hbm, ⟨62, _⟩ => ⟨S262144x1, .f32⟩
  | .hbm, ⟨63, _⟩ => ⟨S262144, .f32⟩
  | .hbm, ⟨64, _⟩ => ⟨S_, .f32⟩
  | .hbm, ⟨65, _⟩ => ⟨S_, .f32⟩
  | .hbm, ⟨66, _⟩ => ⟨S_, .f32⟩
  | .hbm, ⟨67, _⟩ => ⟨S262144, .f32⟩
  | .hbm, ⟨68, _⟩ => ⟨S262144, .f32⟩
  | .hbm, ⟨69, _⟩ => ⟨S_, .f32⟩
  | .hbm, ⟨70, _⟩ => ⟨S262144, .f32⟩
  | .hbm, ⟨71, _⟩ => ⟨S262144, .f32⟩
  | .hbm, ⟨72, _⟩ => ⟨S_, .f32⟩
  | .hbm, ⟨73, _⟩ => ⟨S262144, .f32⟩
  | .hbm, ⟨74, _⟩ => ⟨S262144, .f32⟩
  | .hbm, ⟨75, _⟩ => ⟨S_, .f32⟩
  | .hbm, ⟨76, _⟩ => ⟨S262144, .f32⟩
  | .hbm, ⟨77, _⟩ => ⟨S262144, .f32⟩
  | .hbm, ⟨78, _⟩ => ⟨S_, .f32⟩
  | .hbm, ⟨79, _⟩ => ⟨S262144, .f32⟩
  | .hbm, ⟨80, _⟩ => ⟨S262144, .f32⟩
  | .hbm, ⟨81, _⟩ => ⟨S262144, .f32⟩
  | .hbm, ⟨82, _⟩ => ⟨S262144, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S262144, .i32⟩
  | .hbm, ⟨87, _⟩ => ⟨S262144, .i32⟩
  | .hbm, ⟨88, _⟩ => ⟨S_, .i32⟩
  | .hbm, ⟨89, _⟩ => ⟨S262144, .i32⟩
  | .hbm, ⟨90, _⟩ => ⟨S262144, .i32⟩
  | .hbm, ⟨91, _⟩ => ⟨S_, .f32⟩
  | .hbm, ⟨92, _⟩ => ⟨S262144, .f32⟩
  | .hbm, ⟨93, _⟩ => ⟨S262144, .f32⟩
  | .hbm, ⟨94, _⟩ => ⟨S_, .f32⟩
  | .hbm, ⟨95, _⟩ => ⟨S262144, .f32⟩
  | .hbm, ⟨96, _⟩ => ⟨S262144, .f32⟩
  | .hbm, ⟨97, _⟩ => ⟨S_, .f32⟩
  | .hbm, ⟨98, _⟩ => ⟨S262144, .f32⟩
  | .hbm, ⟨99, _⟩ => ⟨S262144, .f32⟩
  | .hbm, ⟨100, _⟩ => ⟨S262144, .f32⟩
  | .hbm, ⟨101, _⟩ => ⟨S262144, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S262144, .i32⟩
  | .hbm, ⟨106, _⟩ => ⟨S262144, .i32⟩
  | .hbm, ⟨107, _⟩ => ⟨S_, .i32⟩
  | .hbm, ⟨108, _⟩ => ⟨S262144, .i32⟩
  | .hbm, ⟨109, _⟩ => ⟨S262144, .i32⟩
  | .hbm, ⟨110, _⟩ => ⟨S_, .i32⟩
  | .hbm, ⟨111, _⟩ => ⟨S262144, .i32⟩
  | .hbm, ⟨112, _⟩ => ⟨S262144, .i32⟩
  | .hbm, ⟨113, _⟩ => ⟨S262144, .i32⟩
  | .hbm, ⟨114, _⟩ => ⟨S_, .f32⟩
  | .hbm, ⟨115, _⟩ => ⟨S256x128, .f32⟩
  | .hbm, ⟨116, _⟩ => ⟨S262144x1, .i32⟩
  | .hbm, ⟨117, _⟩ => ⟨S256x128, .f32⟩
  | .hbm, ⟨118, _⟩ => ⟨S_, .i32⟩
  | .hbm, ⟨119, _⟩ => ⟨S262144, .i32⟩
  | .hbm, ⟨120, _⟩ => ⟨S262144, .i1⟩
  | .hbm, ⟨121, _⟩ => ⟨S_, .i32⟩
  | .hbm, ⟨122, _⟩ => ⟨S262144, .i32⟩
  | .hbm, ⟨123, _⟩ => ⟨S262144, .i32⟩
  | .hbm, ⟨124, _⟩ => ⟨S262144, .i32⟩
  | .hbm, ⟨125, _⟩ => ⟨S262144x1, .i32⟩
  | .hbm, ⟨126, _⟩ => ⟨S262144x128, .f32⟩
  | _, _ => ⟨S262144x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_5 : Ref sig .tc := ⟨.hbm, 54, rfl⟩
abbrev main_cst_6 : Ref sig .tc := ⟨.hbm, 55, rfl⟩
abbrev main_call0_v0 : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_7 : Ref sig .tc := ⟨.hbm, 64, rfl⟩
abbrev main_cst_8 : Ref sig .tc := ⟨.hbm, 65, rfl⟩
abbrev main_call1_v0 : Ref sig .tc := ⟨.hbm, 66, rfl⟩
abbrev main_call1_v1 : Ref sig .tc := ⟨.hbm, 67, rfl⟩
abbrev main_call1_v2 : Ref sig .tc := ⟨.hbm, 68, rfl⟩
abbrev main_call1_v3 : Ref sig .tc := ⟨.hbm, 69, rfl⟩
abbrev main_call1_v4 : Ref sig .tc := ⟨.hbm, 70, rfl⟩
abbrev main_v44 : Ref sig .tc := ⟨.hbm, 71, rfl⟩
abbrev main_cst_9 : Ref sig .tc := ⟨.hbm, 72, rfl⟩
abbrev main_v45 : Ref sig .tc := ⟨.hbm, 73, rfl⟩
abbrev main_v46 : Ref sig .tc := ⟨.hbm, 74, rfl⟩
abbrev main_cst_10 : Ref sig .tc := ⟨.hbm, 75, rfl⟩
abbrev main_v47 : Ref sig .tc := ⟨.hbm, 76, rfl⟩
abbrev main_v48 : Ref sig .tc := ⟨.hbm, 77, rfl⟩
abbrev main_cst_11 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_c : Ref sig .tc := ⟨.hbm, 83, rfl⟩
abbrev main_c_12 : Ref sig .tc := ⟨.hbm, 84, rfl⟩
abbrev main_call2_v0 : Ref sig .tc := ⟨.hbm, 85, rfl⟩
abbrev main_call2_v1 : Ref sig .tc := ⟨.hbm, 86, rfl⟩
abbrev main_call2_v2 : Ref sig .tc := ⟨.hbm, 87, rfl⟩
abbrev main_call2_v3 : Ref sig .tc := ⟨.hbm, 88, rfl⟩
abbrev main_call2_v4 : Ref sig .tc := ⟨.hbm, 89, rfl⟩
abbrev main_v53 : Ref sig .tc := ⟨.hbm, 90, rfl⟩
abbrev main_cst_13 : Ref sig .tc := ⟨.hbm, 91, rfl⟩
abbrev main_v54 : Ref sig .tc := ⟨.hbm, 92, rfl⟩
abbrev main_v55 : Ref sig .tc := ⟨.hbm, 93, rfl⟩
abbrev main_cst_14 : Ref sig .tc := ⟨.hbm, 94, rfl⟩
abbrev main_v56 : Ref sig .tc := ⟨.hbm, 95, rfl⟩
abbrev main_v57 : Ref sig .tc := ⟨.hbm, 96, rfl⟩
abbrev main_cst_15 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_c_16 : Ref sig .tc := ⟨.hbm, 102, rfl⟩
abbrev main_c_17 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_call3_v4 : Ref sig .tc := ⟨.hbm, 108, rfl⟩
abbrev main_v62 : Ref sig .tc := ⟨.hbm, 109, rfl⟩
abbrev main_c_18 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩
abbrev main_cst_19 : Ref sig .tc := ⟨.hbm, 114, rfl⟩
abbrev main_v66 : Ref sig .tc := ⟨.hbm, 115, rfl⟩
abbrev main_v67 : Ref sig .tc := ⟨.hbm, 116, rfl⟩
abbrev main_v68 : Ref sig .tc := ⟨.hbm, 117, rfl⟩
abbrev main_c_20 : Ref sig .tc := ⟨.hbm, 118, rfl⟩
abbrev main_v69 : Ref sig .tc := ⟨.hbm, 119, rfl⟩
abbrev main_v70 : Ref sig .tc := ⟨.hbm, 120, rfl⟩
abbrev main_c_21 : Ref sig .tc := ⟨.hbm, 121, rfl⟩
abbrev main_v71 : Ref sig .tc := ⟨.hbm, 122, rfl⟩
abbrev main_v72 : Ref sig .tc := ⟨.hbm, 123, rfl⟩
abbrev main_v73 : Ref sig .tc := ⟨.hbm, 124, rfl⟩
abbrev main_v74 : Ref sig .tc := ⟨.hbm, 125, rfl⟩
abbrev main_v75 : Ref sig .tc := ⟨.hbm, 126, rfl⟩

abbrev nD : Nat := 1
abbrev τ : Topo := Topo.v7x

variable {F : FTy → Type} [FloatOps F]

class Facts₀ : Prop where
  transposes_S512x2_S2x512_1_0 : S512x2.Transposes [1, 0] S2x512
  bcast_S512_S1x512_1 : S512.BroadcastsInDim S1x512 (![1] : Fin 1 → Fin S1x512.rank)
  bcast_S1x512_S262144x512_0_1 : S1x512.BroadcastsInDim S262144x512 (![0, 1] : Fin 2 → Fin S262144x512.rank)
  transposes_S512x128_S128x512_1_0 : S512x128.Transposes [1, 0] S128x512
  slices_S262144x512_S262144x128_0_0 : S262144x512.Slices ![0, 0] S262144x128
  slices_S262144x512_S262144x128_0_128 : S262144x512.Slices ![0, 128] S262144x128
  slices_S262144x512_S262144x128_0_256 : S262144x512.Slices ![0, 256] S262144x128
  slices_S262144x512_S262144x128_0_384 : S262144x512.Slices ![0, 384] S262144x128
  bcast_S_S262144x128 : S_.BroadcastsInDim S262144x128 (![] : Fin 0 → Fin S262144x128.rank)
  slices_S262144x2_S262144x1_0_0 : S262144x2.Slices ![0, 0] S262144x1
  shapeCasts_S262144x1_S262144 : S262144x1.ShapeCasts S262144
  bcast_S_S262144 : S_.BroadcastsInDim S262144 (![] : Fin 0 → Fin S262144.rank)
  slices_S262144x2_S262144x1_0_1 : S262144x2.Slices ![0, 1] S262144x1
  bcast_S_S256x128 : S_.BroadcastsInDim S256x128 (![] : Fin 0 → Fin S256x128.rank)
  bcast_S262144_S262144x1_0 : S262144.BroadcastsInDim S262144x1 (![0] : Fin 1 → Fin S262144x1.rank)
  dot_S262144x2_S2x512_S262144x512_1_0_0_1_n_n_wf : DotDims.WF S262144x2 S2x512 S262144x512 [1] [0] [0] [1] [] []
  dot_S262144x128_S128x512_S262144x512_1_0_0_1_n_n_wf : DotDims.WF S262144x128 S128x512 S262144x512 [1] [0] [0] [1] [] []
  scatter_S256x128_S262144x1_S262144x128_1_0_0_1_wf : ScatterDims.WF S256x128 S262144x1 S262144x128 [1] [0] [0] 1
  gather_S256x128_S262144x1_S262144x128_1_0_n_n_0_1_1128_wf : GatherDims.WF S256x128 S262144x1 S262144x128 [1] [0] [] [0] [] 1 ![1, 128]

variable [Facts₀]

def dot_S262144x2_S2x512_S262144x512_1_0_0_1_n_n : DotDims S262144x2 S2x512 S262144x512 where
  lhsContracting := [1]
  rhsContracting := [0]
  lhsNonContracting := [0]
  rhsNonContracting := [1]
  lhsBatch := []
  rhsBatch := []
  wf := dot_S262144x2_S2x512_S262144x512_1_0_0_1_n_n_wf
def dot_S262144x128_S128x512_S262144x512_1_0_0_1_n_n : DotDims S262144x128 S128x512 S262144x512 where
  lhsContracting := [1]
  rhsContracting := [0]
  lhsNonContracting := [0]
  rhsNonContracting := [1]
  lhsBatch := []
  rhsBatch := []
  wf := dot_S262144x128_S128x512_S262144x512_1_0_0_1_n_n_wf
def scatter_S256x128_S262144x1_S262144x128_1_0_0_1 : ScatterDims S256x128 S262144x1 S262144x128 where
  updateWindowDims := [1]
  insertedWindowDims := [0]
  scatterDimsToOperandDims := [0]
  indexVectorDim := 1
  wf := scatter_S256x128_S262144x1_S262144x128_1_0_0_1_wf
def gather_S256x128_S262144x1_S262144x128_1_0_n_n_0_1_1128 : GatherDims S256x128 S262144x1 S262144x128 where
  offsetDims := [1]
  collapsedSliceDims := [0]
  operandBatchingDims := []
  startIndicesBatchingDims := []
  startIndexMap := [0]
  indexVectorDim := 1
  sliceSizes := ![1, 128]
  wf := gather_S256x128_S262144x1_S262144x128_1_0_n_n_0_1_1128_wf

class Facts : Prop extends Facts₀ where

variable [Facts]
-- ==== Proof.K.Body.lean ====
/-
  The two kernel bodies as separation-logic triples over their staging memrefs, at any float instance.

  The first kernel (one block of 2048 rows per grid point) writes the new cell state of its rows into its
  first output block, and adds to a scratch table of 256 bins × 128 lanes the one-hot-weighted sum of its rows'
  new hidden states: at the first grid point the table is first reset to zero, at the last the table is also
  copied to the second output block. Three control cases: first point, middle points, last point.
  The second kernel selects, for each of its 2048 rows, the row's bin of the table, again as a one-hot product.
-/
import proofs.«155315_j68058051772553_1_alg».proof.Proof.Gen.Kernel.Launch
import proofs.«155315_j68058051772553_1_alg».proof.Proof.Gen.Kernel.Skeleton
import proofs.«155315_j68058051772553_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first kernel's branch "this is grid point 0", as its scalar chain computes it. -/
abbrev condFirst (i : grid0.Coords) : Prop :=
  (Scalar.cmpi .ne (Scalar.extui (Scalar.cmpi .eq (BitVec.ofNat 32 (i 0).val) 0#32)) 0#32) = 1#1
/-- The first kernel's branch "this is the last grid point". -/
abbrev condLast (i : grid0.Coords) : Prop := k0_cond2 i = 1#1

/-- The new cell state of a block of rows, from the block's inputs and the weights. -/
abbrev cnewB (x0 : Vec F S2048x2 .f32) (x1 x2 : Vec F S2048x128 .f32) (x3 : Vec F S512x2 .f32) (x4 : Vec F S512x128 .f32) (x5 x6 : Vec F S512 .f32) : Vec F S2048x128 .f32 :=
  k0_pay4 x0 x1 x2 x3 x4 x5 x6
/-- The bin table after a block: the table before plus the block's one-hot-weighted new hidden states. -/
abbrev accB (a : Vec F S256x128 .f32) (x0 : Vec F S2048x2 .f32) (x1 x2 : Vec F S2048x128 .f32) (x3 : Vec F S512x2 .f32) (x4 : Vec F S512x128 .f32) (x5 x6 : Vec F S512 .f32) : Vec F S256x128 .f32 :=
  k0_pay1 (k0_pay5 x0 x1 x2 x3 x4 x5 x6) (k0_pay6 x0) a
/-- The zero table the first point starts from. -/
abbrev zeroB : Vec F S256x128 .f32 := k0_pay2 (F := F)
/-- The second kernel's output block: each row's own bin of the table. -/
abbrev gatherB (x0 : Vec F S2048x2 .f32) (b : Vec F S256x128 .f32) : Vec F S2048x128 .f32 :=
  k1_pay1 (iota .tc S2048x256 32 [1] iota_S2048x256_d1_w32) (k1_pay2 x0) b

/-- The zero offset of a rank-1 whole-buffer access, as the constant function. -/
private theorem hz1 : (![0] : Fin 1 → Nat) = fun _ => 0 := funext fun a => by fin_cases a; rfl

/-- The same at rank 2. -/
private theorem hz2 : (![0, 0] : Fin 2 → Nat) = fun _ => 0 := funext fun a => by fin_cases a <;> rfl

set_option maxHeartbeats 4000000 in
/-- First grid point: the table is reset, then the block is added; the second output block is untouched. -/
theorem sound_kernel0_A (c : Dev nD) (E : Set ℕ) (i : grid0.Coords) (arg1 : Memref sig .tc .vmem S2048x2 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S512x2 .f32) (harg4 : arg4.IsWhole) (arg5 : Memref sig .tc .vmem S512x128 .f32) (harg5 : arg5.IsWhole) (arg6 : Memref sig .tc .vmem S512 .f32) (harg6 : arg6.IsWhole) (arg7 : Memref sig .tc .vmem S512 .f32) (harg7 : arg7.IsWhole) (arg8 : Memref sig .tc .vmem S2048x128 .f32) (harg8 : arg8.IsWhole) (arg9 : Memref sig .tc .vmem S256x128 .f32) (harg9 : arg9.IsWhole) (arg10 : Memref sig .tc .vmem S256x128 .f32) (harg10 : arg10.IsWhole)
    (hc1 : condFirst i) (hc2 : ¬condLast i) (x0 : Vec F S2048x2 .f32) (x1 x2 : Vec F S2048x128 .f32) (x3 : Vec F S512x2 .f32) (x4 : Vec F S512x128 .f32) (x5 x6 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (cnewB x0 x1 x2 x3 x4 x5 x6) ∗ owns (c : Thread nD τ) arg10 fullShare (accB (zeroB (F := F)) x0 x1 x2 x3 x4 x5 x6)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d10, %f10, -, H10⟩, Hk⟩
  subst hf1; subst hf2; subst hf3; subst hf4; subst hf5; subst hf6; subst hf7
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (fun y => ⟨_, List.mem_singleton_self _, View.mem_set_unit_zero hz2 inb_S2048x128_S2048x128_0_0 y⟩), View.canon_unit_zero hz2]
    simp only [View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]
  iexists _; isplitr
  swap; · iexact H10
  ipureintro
  sl_unfold_words
  rw [View.read_writes_eq_canon _ _ _ (fun y => ⟨_, List.Mem.head _, View.mem_set_unit_zero hz2 inb_S256x128_S256x128_0_0 y⟩), View.canon_cons_unit_zero (S := S256x128) hz2]
  simp only [View.readCov_unit_zero (S := S256x128) _ hz2, View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]

set_option maxHeartbeats 4000000 in
/-- A middle grid point: the block is added to the table the point before left. -/
theorem sound_kernel0_B (c : Dev nD) (E : Set ℕ) (i : grid0.Coords) (arg1 : Memref sig .tc .vmem S2048x2 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S512x2 .f32) (harg4 : arg4.IsWhole) (arg5 : Memref sig .tc .vmem S512x128 .f32) (harg5 : arg5.IsWhole) (arg6 : Memref sig .tc .vmem S512 .f32) (harg6 : arg6.IsWhole) (arg7 : Memref sig .tc .vmem S512 .f32) (harg7 : arg7.IsWhole) (arg8 : Memref sig .tc .vmem S2048x128 .f32) (harg8 : arg8.IsWhole) (arg9 : Memref sig .tc .vmem S256x128 .f32) (harg9 : arg9.IsWhole) (arg10 : Memref sig .tc .vmem S256x128 .f32) (harg10 : arg10.IsWhole)
    (hc1 : ¬condFirst i) (hc2 : ¬condLast i) (x0 : Vec F S2048x2 .f32) (x1 x2 : Vec F S2048x128 .f32) (x3 : Vec F S512x2 .f32) (x4 : Vec F S512x128 .f32) (x5 x6 : Vec F S512 .f32) (a : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg10 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (cnewB x0 x1 x2 x3 x4 x5 x6) ∗ owns (c : Thread nD τ) arg10 fullShare (accB a x0 x1 x2 x3 x4 x5 x6)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f10, %hf10, H10⟩, Hk⟩
  subst hf1; subst hf2; subst hf3; subst hf4; subst hf5; subst hf6; subst hf7; subst hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (fun y => ⟨_, List.mem_singleton_self _, View.mem_set_unit_zero hz2 inb_S2048x128_S2048x128_0_0 y⟩), View.canon_unit_zero hz2]
    simp only [View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]
  iexists _; isplitr
  swap; · iexact H10
  ipureintro
  rw [View.read_writes_eq_canon _ _ _ (fun y => ⟨_, List.mem_singleton_self _, View.mem_set_unit_zero hz2 inb_S256x128_S256x128_0_0 y⟩), View.canon_unit_zero hz2]
  sl_unfold_words
  simp only [View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]

set_option maxHeartbeats 4000000 in
/-- The last grid point: the block is added, and the finished table is copied to the second output block. -/
theorem sound_kernel0_C (c : Dev nD) (E : Set ℕ) (i : grid0.Coords) (arg1 : Memref sig .tc .vmem S2048x2 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S512x2 .f32) (harg4 : arg4.IsWhole) (arg5 : Memref sig .tc .vmem S512x128 .f32) (harg5 : arg5.IsWhole) (arg6 : Memref sig .tc .vmem S512 .f32) (harg6 : arg6.IsWhole) (arg7 : Memref sig .tc .vmem S512 .f32) (harg7 : arg7.IsWhole) (arg8 : Memref sig .tc .vmem S2048x128 .f32) (harg8 : arg8.IsWhole) (arg9 : Memref sig .tc .vmem S256x128 .f32) (harg9 : arg9.IsWhole) (arg10 : Memref sig .tc .vmem S256x128 .f32) (harg10 : arg10.IsWhole)
    (hc1 : ¬condFirst i) (hc2 : condLast i) (x0 : Vec F S2048x2 .f32) (x1 x2 : Vec F S2048x128 .f32) (x3 : Vec F S512x2 .f32) (x4 : Vec F S512x128 .f32) (x5 x6 : Vec F S512 .f32) (a : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (cnewB x0 x1 x2 x3 x4 x5 x6) ∗ owns (c : Thread nD τ) arg9 fullShare (accB a x0 x1 x2 x3 x4 x5 x6) ∗ owns (c : Thread nD τ) arg10 fullShare (accB a x0 x1 x2 x3 x4 x5 x6)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
  subst hf1; subst hf2; subst hf3; subst hf4; subst hf5; subst hf6; subst hf7; subst hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (fun y => ⟨_, List.mem_singleton_self _, View.mem_set_unit_zero hz2 inb_S2048x128_S2048x128_0_0 y⟩), View.canon_unit_zero hz2]
    simp only [View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]
  isplitl [H9]
  · iexists _; isplitr
    swap; · iexact H9
    ipureintro
    sl_unfold_words
    rw [View.read_writes_eq_canon _ _ _ (fun y => ⟨_, List.mem_singleton_self _, View.mem_set_unit_zero hz2 inb_S256x128_S256x128_0_0 y⟩), View.canon_unit_zero hz2]
    simp only [View.readCov_unit_zero (S := S256x128) _ hz2, View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]
  iexists _; isplitr
  swap; · iexact H10
  ipureintro
  sl_unfold_words
  rw [View.read_writes_eq_canon _ _ _ (fun y => ⟨_, List.mem_singleton_self _, View.mem_set_unit_zero hz2 inb_S256x128_S256x128_0_0 y⟩), View.canon_unit_zero hz2]
  simp only [View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]

set_option maxHeartbeats 4000000 in
/-- The second kernel at any grid point. -/
theorem sound_kernel1 (c : Dev nD) (E : Set ℕ) (i : grid1.Coords) (arg1 : Memref sig .tc .vmem S2048x2 .f32) (harg1 : arg1.IsWhole) (arg2 : Memref sig .tc .vmem S256x128 .f32) (harg2 : arg2.IsWhole) (arg3 : Memref sig .tc .vmem S2048x128 .f32) (harg3 : arg3.IsWhole)
    (x0 : Vec F S2048x2 .f32) (b : Vec F S256x128 .f32) (K : PUnit → sProp 𝕄) :
    iprop(owns (c : Thread nD τ) arg1 fullShare x0 ∗ owns (c : Thread nD τ) arg2 fullShare b ∗ (∃ d, owns (c : Thread nD τ) arg3 fullShare d)
        ∗ (iprop(owns (c : Thread nD τ) arg1 fullShare x0 ∗ owns (c : Thread nD τ) arg2 fullShare b ∗ owns (c : Thread nD τ) arg3 fullShare (gatherB x0 b)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2 inb_S2048x128_S2048x128_0_0 y⟩),
    View.canon_unit_zero hz2]
  sl_unfold_words
  simp only [View.readAt_eq_ld, View.ld_unit_zero (S := S256x128) hz2, View.ld_unit_zero (S := S2048x2) hz2]

end Cert.Kernel.Hand

end
-- ==== Proof.K.Data.lean ====
/-
  The proof data of the two kernel regions, at any float instance, over the buffer contents V a region is entered from.

  Region 0 (one block of 2048 rows per grid point, 128 points): the seven inputs keep their blocks; the first output's
  staging buffer holds the block's new cell state; the scratch table holds, after point n, the running bin table
  accAt n (the zero table plus the blocks 0 … n added one after the other); the second output's buffer, written back
  after the last point only, holds the table then. The region's invariant names the scratch table from the first
  point on. Region 1 (the same grid): the output block is each row's own bin of the table it is handed.
-/
import proofs.«155315_j68058051772553_1_alg».proof.Proof.K.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # Region 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The inputs' blocks at their literal types. -/
abbrev xb0 (c : Dev nD) (t : Fin cfg0.N) : Vec F S2048x2 .f32 := iblk0 V c 0 t
abbrev xb1 (c : Dev nD) (t : Fin cfg0.N) : Vec F S2048x128 .f32 := iblk0 V c 1 t
abbrev xb2 (c : Dev nD) (t : Fin cfg0.N) : Vec F S2048x128 .f32 := iblk0 V c 2 t
abbrev xb3 (c : Dev nD) (t : Fin cfg0.N) : Vec F S512x2 .f32 := iblk0 V c 3 t
abbrev xb4 (c : Dev nD) (t : Fin cfg0.N) : Vec F S512x128 .f32 := iblk0 V c 4 t
abbrev xb5 (c : Dev nD) (t : Fin cfg0.N) : Vec F S512 .f32 := iblk0 V c 5 t
abbrev xb6 (c : Dev nD) (t : Fin cfg0.N) : Vec F S512 .f32 := iblk0 V c 6 t

/-- The running bin table after point n: the zero table plus blocks 0 … n, added in point order. -/
def accAt (c : Dev nD) : (n : ℕ) → n < cfg0.N → Vec F S256x128 .f32
  | 0, h => accB (zeroB (F := F)) (xb0 V c ⟨0, h⟩) (xb1 V c ⟨0, h⟩) (xb2 V c ⟨0, h⟩) (xb3 V c ⟨0, h⟩) (xb4 V c ⟨0, h⟩) (xb5 V c ⟨0, h⟩) (xb6 V c ⟨0, h⟩)
  | n + 1, h => accB (accAt c n (Nat.lt_of_succ_lt h)) (xb0 V c ⟨n + 1, h⟩) (xb1 V c ⟨n + 1, h⟩) (xb2 V c ⟨n + 1, h⟩) (xb3 V c ⟨n + 1, h⟩) (xb4 V c ⟨n + 1, h⟩) (xb5 V c ⟨n + 1, h⟩) (xb6 V c ⟨n + 1, h⟩)

theorem accAt_zero (c : Dev nD) (h : 0 < cfg0.N) :
    accAt V c 0 h = accB (zeroB (F := F)) (xb0 V c ⟨0, h⟩) (xb1 V c ⟨0, h⟩) (xb2 V c ⟨0, h⟩) (xb3 V c ⟨0, h⟩) (xb4 V c ⟨0, h⟩) (xb5 V c ⟨0, h⟩) (xb6 V c ⟨0, h⟩) := rfl
theorem accAt_succ (c : Dev nD) (n : ℕ) (h : n + 1 < cfg0.N) :
    accAt V c (n + 1) h = accB (accAt V c n (Nat.lt_of_succ_lt h)) (xb0 V c ⟨n + 1, h⟩) (xb1 V c ⟨n + 1, h⟩) (xb2 V c ⟨n + 1, h⟩) (xb3 V c ⟨n + 1, h⟩) (xb4 V c ⟨n + 1, h⟩) (xb5 V c ⟨n + 1, h⟩) (xb6 V c ⟨n + 1, h⟩) := rfl

/-- The branch conditions over the grid, in closed form. -/
theorem hcondFirst : ∀ t : Fin cfg0.N, condFirst (grid0.coords t) ↔ t.val % 128 = 0 :=
  (by decide +kernel : ∀ t : Fin grid0.N, condFirst (grid0.coords t) ↔ t.val % 128 = 0)
theorem hcondLast : ∀ t : Fin cfg0.N, condLast (grid0.coords t) ↔ t.val % 128 = 127 :=
  (by decide +kernel : ∀ t : Fin grid0.N, condLast (grid0.coords t) ↔ t.val % 128 = 127)

/-- Where the windows are idle: the second output at every point but the last, no other window ever. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬condLast (grid0.coords t) → cfg0.idle 8 (grid0.coords t) = true := by decide +kernel
theorem noFlush0_8 : ∀ t : Fin cfg0.N, ¬condLast (grid0.coords t) → (cfg0.win 8).flush t = false := by decide +kernel
theorem liveAt0_8 : ∀ t : Fin cfg0.N, condLast (grid0.coords t) → cfg0.idle 8 (grid0.coords t) = false := by decide +kernel

/-- The scratch table as a memref. -/
abbrev scM0 : Memref sig .tc .vmem S256x128 .f32 := Memref.whole cc0_scratch0

/-- The core's other scoped buffers that region 0 does not stage (region 1's staging buffers), at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant, with the scratch table as a memref owned at some contents. -/
theorem PhiA0_eq (c : Dev nD) :
    (Pipeline.ΦA spec0 c : sProp 𝕄)
      = iprop(((∃ d, owns (c : Thread nD τ) scM0 fullShare d) ∗ restS (F := F) c) ∗ (∃ r, prngReg c r)) := by
  unfold Pipeline.ΦA restS; rw [scopedRest0_eq]; simp only [scM0, owns_whole]; try rfl

/-- The region invariant before position n: before the first point the class's (the scratch at anything);
    afterwards the scratch table at the running table the point before left. -/
def PhiS (c : Dev nD) : (n : ℕ) → n ≤ cfg0.N → sProp 𝕄
  | 0, _ => Pipeline.ΦA spec0 c
  | n + 1, hn => iprop((owns (c : Thread nD τ) scM0 fullShare (accAt V c n hn) ∗ restS (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM0 fullShare (accAt V c n hn) ∗ restS (F := F) c) ∗ (∃ r, prngReg c r)) := rfl
theorem PhiS_pos (c : Dev nD) (n : ℕ) (h : n ≤ cfg0.N) (hz : n ≠ 0) :
    PhiS V c n h = iprop((owns (c : Thread nD τ) scM0 fullShare (accAt V c (n - 1) (by omega)) ∗ restS (F := F) c) ∗ (∃ r, prngReg c r)) := by
  cases n with
  | zero => exact absurd rfl hz
  | succ n => rfl

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => cnewB (xb0 V c t) (xb1 V c t) (xb2 V c t) (xb3 V c t) (xb4 V c t) (xb5 V c t) (xb6 V c t)
    | ⟨8, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = cnewB (xb0 V c t) (xb1 V c t) (xb2 V c t) (xb3 V c t) (xb4 V c t) (xb5 V c t) (xb6 V c t) := by dsimp only [dat0]
theorem after0_8 (c : Dev nD) (t : Fin cfg0.N) : (dat0 V c).after 8 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4000000 in
/-- The body at any point: the inputs' memrefs hold their blocks; the closed forms say which of the three control
    cases the point is in; the invariant hands the body the scratch table at what the point before left (at anything at the
    first point) and takes it back at this point's running table. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (st0_0 t) fullShare ((dat0 V c).after 0 t) from by
    unfold Dat.leavesExact; rw [liveAt0_0 t]]
  rw [show (dat0 V c).leavesExact 1 t = owns (c : Thread nD τ) (st0_1 t) fullShare ((dat0 V c).after 1 t) from by
    unfold Dat.leavesExact; rw [liveAt0_1 t]]
  rw [show (dat0 V c).leavesExact 2 t = owns (c : Thread nD τ) (st0_2 t) fullShare ((dat0 V c).after 2 t) from by
    unfold Dat.leavesExact; rw [liveAt0_2 t]]
  rw [show (dat0 V c).leavesExact 3 t = owns (c : Thread nD τ) (st0_3 t) fullShare ((dat0 V c).after 3 t) from by
    unfold Dat.leavesExact; rw [liveAt0_3 t]]
  rw [show (dat0 V c).leavesExact 4 t = owns (c : Thread nD τ) (st0_4 t) fullShare ((dat0 V c).after 4 t) from by
    unfold Dat.leavesExact; rw [liveAt0_4 t]]
  rw [show (dat0 V c).leavesExact 5 t = owns (c : Thread nD τ) (st0_5 t) fullShare ((dat0 V c).after 5 t) from by
    unfold Dat.leavesExact; rw [liveAt0_5 t]]
  rw [show (dat0 V c).leavesExact 6 t = owns (c : Thread nD τ) (st0_6 t) fullShare ((dat0 V c).after 6 t) from by
    unfold Dat.leavesExact; rw [liveAt0_6 t]]
  rw [show (dat0 V c).leavesExact 7 t = owns (c : Thread nD τ) (st0_7 t) fullShare ((dat0 V c).after 7 t) from by
    unfold Dat.leavesExact; rw [liveAt0_7 t]]
  rw [after0_0, after0_1, after0_2, after0_3, after0_4, after0_5, after0_6, after0_7]
  by_cases hl : t.val % 128 = 127
  · -- the last point: not the first
    have hf : ¬ t.val % 128 = 0 := by omega
    have hz : t.val ≠ 0 := by omega
    rw [show (dat0 V c).leavesExact 8 t = owns (c : Thread nD τ) (st0_8 t) fullShare ((dat0 V c).after 8 t) from by
      unfold Dat.leavesExact; rw [liveAt0_8 t ((hcondLast t).mpr hl)], after0_8]
    rw [PhiS_castSucc V c t, PhiS_pos V c _ _ hz]
    obtain ⟨n, hn⟩ : ∃ n, t.val = n + 1 := ⟨t.val - 1, by omega⟩
    have hacc : accAt V c t.val t.isLt = accB (accAt V c (t.val - 1) (by omega)) (xb0 V c t) (xb1 V c t) (xb2 V c t) (xb3 V c t) (xb4 V c t) (xb5 V c t) (xb6 V c t) := by
      obtain ⟨tv, ht⟩ := t
      cases tv with
      | zero => exact absurd rfl hz
      | succ k => rfl
    rw [hacc]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_C c Set.univ (grid0.coords t) _ _ _ _ _ _ _ _ _ _ _ _ _ _ _ _ _ _ _ _ (fun h => hf ((hcondFirst t).mp h)) ((hcondLast t).mpr hl) (xb0 V c t) (xb1 V c t) (xb2 V c t) (xb3 V c t) (xb4 V c t) (xb5 V c t) (xb6 V c t) (accAt V c (t.val - 1) (by omega)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat0 V c) 8 t (idleAt0_8 t (fun h => hl ((hcondLast t).mp h))) (noFlush0_8 t (fun h => hl ((hcondLast t).mp h)))]
    by_cases hf : t.val % 128 = 0
    · -- the first point
      have hz : t.val = 0 := by omega
      rw [PhiS_castSucc V c t, PhiS_zero V c _ _ hz, PhiA0_eq]
      have hacc : accAt V c t.val t.isLt = accB (zeroB (F := F)) (xb0 V c t) (xb1 V c t) (xb2 V c t) (xb3 V c t) (xb4 V c t) (xb5 V c t) (xb6 V c t) := by
        obtain ⟨tv, ht⟩ := t
        cases tv with
        | zero => rfl
        | succ k => exact absurd hz (by simp)
      rw [hacc]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_A c Set.univ (grid0.coords t) _ _ _ _ _ _ _ _ _ _ _ _ _ _ _ _ _ _ _ _ ((hcondFirst t).mpr hf) (fun h => hl ((hcondLast t).mp h)) (xb0 V c t) (xb1 V c t) (xb2 V c t) (xb3 V c t) (xb4 V c t) (xb5 V c t) (xb6 V c t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · -- a middle point
      have hz : t.val ≠ 0 := by omega
      rw [PhiS_castSucc V c t, PhiS_pos V c _ _ hz]
      have hacc : accAt V c t.val t.isLt = accB (accAt V c (t.val - 1) (by omega)) (xb0 V c t) (xb1 V c t) (xb2 V c t) (xb3 V c t) (xb4 V c t) (xb5 V c t) (xb6 V c t) := by
        obtain ⟨tv, ht⟩ := t
        cases tv with
        | zero => exact absurd rfl hz
        | succ k => rfl
      rw [hacc]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_B c Set.univ (grid0.coords t) _ _ _ _ _ _ _ _ _ _ _ _ _ _ _ _ _ _ _ _ (fun h => hf ((hcondFirst t).mp h)) (fun h => hl ((hcondLast t).mp h)) (xb0 V c t) (xb1 V c t) (xb2 V c t) (xb3 V c t) (xb4 V c t) (xb5 V c t) (xb6 V c t) (accAt V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the table's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS, HR⟩, Hg⟩
  isplitl [HS HR]
  · isplitl [HS]; · iexists _; iexact HS
    iexact HR
  iexact Hg

/-! # Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev yb0 (c : Dev nD) (t : Fin cfg1.N) : Vec F S2048x2 .f32 := iblk1 V c 0 t
abbrev yb1 (c : Dev nD) (t : Fin cfg1.N) : Vec F S256x128 .f32 := iblk1 V c 1 t

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => gatherB (yb0 V c t) (yb1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = gatherB (yb0 V c t) (yb1 V c t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (yb0 V c t) (yb1 V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Regions

end Cert.Kernel.Hand

end
-- ==== Proof.K.Run.lean ====
/-
  The run of the whole program, at any float instance: @main is the two kernel regions one after the other. From any
  memory with zero counters every weakly fair execution terminates, and in every final memory each unscoped buffer holds
  what the fold through the two regions leaves: the arguments as launched, the first region's two results at what its
  write-backs leave, the second region's result at what its write-backs leave over the first region's table.
-/
import proofs.«155315_j68058051772553_1_alg».proof.Proof.K.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary -/

/-- Core c's buffers at launch (region 0's entry: @main has no host operation). -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- At region 0's exit: its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched; the results are what the regions' write-backs leave -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := (W4_arr m ρ c 0).trans (((dat1 (V2 m ρ) c).arrAt_in 0 rfl _).trans (A_eq1 (V2 m ρ) c 0))
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 1).trans (((dat0 (V1 m ρ) c).arrAt_in 1 rfl _).trans (A_eq0 (V1 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 2).trans (((dat0 (V1 m ρ) c).arrAt_in 2 rfl _).trans (A_eq0 (V1 m ρ) c 2))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W0 m ρ c (Proc.devRef .tc main_arg3) := (W2_arr m ρ c 3).trans (((dat0 (V1 m ρ) c).arrAt_in 3 rfl _).trans (A_eq0 (V1 m ρ) c 3))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := W4_of_ne m ρ c main_arg4 (by decide)
    _ = W0 m ρ c (Proc.devRef .tc main_arg4) := (W2_arr m ρ c 4).trans (((dat0 (V1 m ρ) c).arrAt_in 4 rfl _).trans (A_eq0 (V1 m ρ) c 4))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := W4_of_ne m ρ c main_arg5 (by decide)
    _ = W0 m ρ c (Proc.devRef .tc main_arg5) := (W2_arr m ρ c 5).trans (((dat0 (V1 m ρ) c).arrAt_in 5 rfl _).trans (A_eq0 (V1 m ρ) c 5))
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W2 m ρ c (Proc.devRef .tc main_arg6) := W4_of_ne m ρ c main_arg6 (by decide)
    _ = W0 m ρ c (Proc.devRef .tc main_arg6) := (W2_arr m ρ c 6).trans (((dat0 (V1 m ρ) c).arrAt_in 6 rfl _).trans (A_eq0 (V1 m ρ) c 6))
    _ = m ((c : Thread nD τ).loc main_arg6) := rfl

/-- The second region's result. -/
theorem W4_main_v1 (c : Dev nD) : W4 m ρ c (Proc.devRef .tc main_v1) = (dat1 (V2 m ρ) c).arrAt 2 cfg1.N := W4_arr m ρ c 2
/-- The first region's first result (the second region does not touch it). -/
theorem W4_main_v0_0 (c : Dev nD) : W4 m ρ c (Proc.devRef .tc main_v0_0) = (dat0 (V1 m ρ) c).arrAt 7 cfg0.N :=
  (W4_of_ne m ρ c main_v0_0 (by decide)).trans (W2_arr m ρ c 7)
/-- What the second region finds: the coordinates as launched, and the first region's table. -/
theorem V2_main_arg0 (c : Dev nD) : V2 m ρ c main_arg0 = m ((c : Thread nD τ).loc main_arg0) :=
  (W2_arr m ρ c 0).trans (((dat0 (V1 m ρ) c).arrAt_in 0 rfl _).trans (A_eq0 (V1 m ρ) c 0))
theorem V2_main_v0_1 (c : Dev nD) : V2 m ρ c main_v0_1 = (dat0 (V1 m ρ) c).arrAt 8 cfg0.N := W2_arr m ρ c 8

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at its entry contents, left at its exit contents.
    Its arrays are split out of the unscoped buffers and put back at what the pipeline leaves; the generator register and the
    scoped rest enter the region's invariant and come back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    rw [Pipeline.ownSems0_none]
    have h := hout0 (V1 m ρ) c
    unfold Pipeline.ΦA at h
    rw [show (pdats m ρ 0 c).Φ (Fin.last _) = (dat0 (V1 m ρ) c).Φ (Fin.last cfg0.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit contents.
    Its arrays are split out of the unscoped buffers and put back at what the pipeline leaves; the generator register and the
    scoped rest enter the region's invariant and come back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: every weakly fair execution of @main terminates, and every final memory holds every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run, read at the program's results and arguments. -/
theorem run_main : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_v0_0) = (dat0 (V1 m ρ) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v1 (by decide))).trans (W4_main_v1 m ρ c),
     (h c _ (mem_uc main_v0_0 (by decide))).trans (W4_main_v0_0 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.Kernel.Hand

end
-- ==== Proof.KI.Body.lean ====
/-
  The two kernel bodies as separation-logic triples over their staging memrefs, at any float instance.

  The first kernel (one block of 2048 rows per grid point) writes the new cell state of its rows into its
  first output block, and adds to a scratch table of 256 bins × 128 lanes the one-hot-weighted sum of its rows'
  new hidden states: at the first grid point the table is first reset to zero, at the last the table is also
  copied to the second output block. Three control cases: first point, middle points, last point.
  The second kernel selects, for each of its 2048 rows, the row's bin of the table, again as a one-hot product.
-/
import proofs.«155315_j68058051772553_1_alg».proof.Proof.Gen.KernelIdeal.Launch
import proofs.«155315_j68058051772553_1_alg».proof.Proof.Gen.KernelIdeal.Skeleton
import proofs.«155315_j68058051772553_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first kernel's branch "this is grid point 0", as its scalar chain computes it. -/
abbrev condFirst (i : grid0.Coords) : Prop :=
  (Scalar.cmpi .ne (Scalar.extui (Scalar.cmpi .eq (BitVec.ofNat 32 (i 0).val) 0#32)) 0#32) = 1#1
/-- The first kernel's branch "this is the last grid point". -/
abbrev condLast (i : grid0.Coords) : Prop := k0_cond2 i = 1#1

/-- The new cell state of a block of rows, from the block's inputs and the weights. -/
abbrev cnewB (x0 : Vec F S2048x2 .f32) (x1 x2 : Vec F S2048x128 .f32) (x3 : Vec F S512x2 .f32) (x4 : Vec F S512x128 .f32) (x5 x6 : Vec F S512 .f32) : Vec F S2048x128 .f32 :=
  k0_pay4 x0 x1 x2 x3 x4 x5 x6
/-- The bin table after a block: the table before plus the block's one-hot-weighted new hidden states. -/
abbrev accB (a : Vec F S256x128 .f32) (x0 : Vec F S2048x2 .f32) (x1 x2 : Vec F S2048x128 .f32) (x3 : Vec F S512x2 .f32) (x4 : Vec F S512x128 .f32) (x5 x6 : Vec F S512 .f32) : Vec F S256x128 .f32 :=
  k0_pay1 (k0_pay5 x0 x1 x2 x3 x4 x5 x6) (k0_pay6 x0) a
/-- The zero table the first point starts from. -/
abbrev zeroB : Vec F S256x128 .f32 := k0_pay2 (F := F)
/-- The second kernel's output block: each row's own bin of the table. -/
abbrev gatherB (x0 : Vec F S2048x2 .f32) (b : Vec F S256x128 .f32) : Vec F S2048x128 .f32 :=
  k1_pay1 (iota .tc S2048x256 32 [1] iota_S2048x256_d1_w32) (k1_pay2 x0) b

/-- The zero offset of a rank-1 whole-buffer access, as the constant function. -/
private theorem hz1 : (![0] : Fin 1 → Nat) = fun _ => 0 := funext fun a => by fin_cases a; rfl

/-- The same at rank 2. -/
private theorem hz2 : (![0, 0] : Fin 2 → Nat) = fun _ => 0 := funext fun a => by fin_cases a <;> rfl

set_option maxHeartbeats 4000000 in
/-- First grid point: the table is reset, then the block is added; the second output block is untouched. -/
theorem sound_kernel0_A (c : Dev nD) (E : Set ℕ) (i : grid0.Coords) (arg1 : Memref sig .tc .vmem S2048x2 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S512x2 .f32) (harg4 : arg4.IsWhole) (arg5 : Memref sig .tc .vmem S512x128 .f32) (harg5 : arg5.IsWhole) (arg6 : Memref sig .tc .vmem S512 .f32) (harg6 : arg6.IsWhole) (arg7 : Memref sig .tc .vmem S512 .f32) (harg7 : arg7.IsWhole) (arg8 : Memref sig .tc .vmem S2048x128 .f32) (harg8 : arg8.IsWhole) (arg9 : Memref sig .tc .vmem S256x128 .f32) (harg9 : arg9.IsWhole) (arg10 : Memref sig .tc .vmem S256x128 .f32) (harg10 : arg10.IsWhole)
    (hc1 : condFirst i) (hc2 : ¬condLast i) (x0 : Vec F S2048x2 .f32) (x1 x2 : Vec F S2048x128 .f32) (x3 : Vec F S512x2 .f32) (x4 : Vec F S512x128 .f32) (x5 x6 : Vec F S512 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (cnewB x0 x1 x2 x3 x4 x5 x6) ∗ owns (c : Thread nD τ) arg10 fullShare (accB (zeroB (F := F)) x0 x1 x2 x3 x4 x5 x6)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d10, %f10, -, H10⟩, Hk⟩
  subst hf1; subst hf2; subst hf3; subst hf4; subst hf5; subst hf6; subst hf7
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (fun y => ⟨_, List.mem_singleton_self _, View.mem_set_unit_zero hz2 inb_S2048x128_S2048x128_0_0 y⟩), View.canon_unit_zero hz2]
    simp only [View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]
  iexists _; isplitr
  swap; · iexact H10
  ipureintro
  sl_unfold_words
  rw [View.read_writes_eq_canon _ _ _ (fun y => ⟨_, List.Mem.head _, View.mem_set_unit_zero hz2 inb_S256x128_S256x128_0_0 y⟩), View.canon_cons_unit_zero (S := S256x128) hz2]
  simp only [View.readCov_unit_zero (S := S256x128) _ hz2, View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]

set_option maxHeartbeats 4000000 in
/-- A middle grid point: the block is added to the table the point before left. -/
theorem sound_kernel0_B (c : Dev nD) (E : Set ℕ) (i : grid0.Coords) (arg1 : Memref sig .tc .vmem S2048x2 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S512x2 .f32) (harg4 : arg4.IsWhole) (arg5 : Memref sig .tc .vmem S512x128 .f32) (harg5 : arg5.IsWhole) (arg6 : Memref sig .tc .vmem S512 .f32) (harg6 : arg6.IsWhole) (arg7 : Memref sig .tc .vmem S512 .f32) (harg7 : arg7.IsWhole) (arg8 : Memref sig .tc .vmem S2048x128 .f32) (harg8 : arg8.IsWhole) (arg9 : Memref sig .tc .vmem S256x128 .f32) (harg9 : arg9.IsWhole) (arg10 : Memref sig .tc .vmem S256x128 .f32) (harg10 : arg10.IsWhole)
    (hc1 : ¬condFirst i) (hc2 : ¬condLast i) (x0 : Vec F S2048x2 .f32) (x1 x2 : Vec F S2048x128 .f32) (x3 : Vec F S512x2 .f32) (x4 : Vec F S512x128 .f32) (x5 x6 : Vec F S512 .f32) (a : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ owns (c : Thread nD τ) arg10 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (cnewB x0 x1 x2 x3 x4 x5 x6) ∗ owns (c : Thread nD τ) arg10 fullShare (accB a x0 x1 x2 x3 x4 x5 x6)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%f10, %hf10, H10⟩, Hk⟩
  subst hf1; subst hf2; subst hf3; subst hf4; subst hf5; subst hf6; subst hf7; subst hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (fun y => ⟨_, List.mem_singleton_self _, View.mem_set_unit_zero hz2 inb_S2048x128_S2048x128_0_0 y⟩), View.canon_unit_zero hz2]
    simp only [View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]
  iexists _; isplitr
  swap; · iexact H10
  ipureintro
  rw [View.read_writes_eq_canon _ _ _ (fun y => ⟨_, List.mem_singleton_self _, View.mem_set_unit_zero hz2 inb_S256x128_S256x128_0_0 y⟩), View.canon_unit_zero hz2]
  sl_unfold_words
  simp only [View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]

set_option maxHeartbeats 4000000 in
/-- The last grid point: the block is added, and the finished table is copied to the second output block. -/
theorem sound_kernel0_C (c : Dev nD) (E : Set ℕ) (i : grid0.Coords) (arg1 : Memref sig .tc .vmem S2048x2 .f32) (harg1 : arg1.IsWhole) (arg2 : Memref sig .tc .vmem S2048x128 .f32) (harg2 : arg2.IsWhole) (arg3 : Memref sig .tc .vmem S2048x128 .f32) (harg3 : arg3.IsWhole) (arg4 : Memref sig .tc .vmem S512x2 .f32) (harg4 : arg4.IsWhole) (arg5 : Memref sig .tc .vmem S512x128 .f32) (harg5 : arg5.IsWhole) (arg6 : Memref sig .tc .vmem S512 .f32) (harg6 : arg6.IsWhole) (arg7 : Memref sig .tc .vmem S512 .f32) (harg7 : arg7.IsWhole) (arg8 : Memref sig .tc .vmem S2048x128 .f32) (harg8 : arg8.IsWhole) (arg9 : Memref sig .tc .vmem S256x128 .f32) (harg9 : arg9.IsWhole) (arg10 : Memref sig .tc .vmem S256x128 .f32) (harg10 : arg10.IsWhole)
    (hc1 : ¬condFirst i) (hc2 : condLast i) (x0 : Vec F S2048x2 .f32) (x1 x2 : Vec F S2048x128 .f32) (x3 : Vec F S512x2 .f32) (x4 : Vec F S512x128 .f32) (x5 x6 : Vec F S512 .f32) (a : Vec F S256x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ owns (c : Thread nD τ) arg10 fullShare a
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (cnewB x0 x1 x2 x3 x4 x5 x6) ∗ owns (c : Thread nD τ) arg9 fullShare (accB a x0 x1 x2 x3 x4 x5 x6) ∗ owns (c : Thread nD τ) arg10 fullShare (accB a x0 x1 x2 x3 x4 x5 x6)) -∗ K ⟨⟩))
      ⊢ wp frame (wpE (defs₀ (F := F)) Variants.none c none) E (cc0__lstm_kernel i arg1 harg1 arg2 harg2 arg3 harg3 arg4 harg4 arg5 harg5 arg6 harg6 arg7 harg7 arg8 harg8 arg9 harg9 arg10 harg10) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%f10, %hf10, H10⟩, Hk⟩
  subst hf1; subst hf2; subst hf3; subst hf4; subst hf5; subst hf6; subst hf7; subst hf10
  sl_exec (disch := first | exact hc1 | exact hc2)
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists _; isplitr
    swap; · iexact H8
    ipureintro
    rw [View.read_writes_eq_canon _ _ _ (fun y => ⟨_, List.mem_singleton_self _, View.mem_set_unit_zero hz2 inb_S2048x128_S2048x128_0_0 y⟩), View.canon_unit_zero hz2]
    simp only [View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]
  isplitl [H9]
  · iexists _; isplitr
    swap; · iexact H9
    ipureintro
    sl_unfold_words
    rw [View.read_writes_eq_canon _ _ _ (fun y => ⟨_, List.mem_singleton_self _, View.mem_set_unit_zero hz2 inb_S256x128_S256x128_0_0 y⟩), View.canon_unit_zero hz2]
    simp only [View.readCov_unit_zero (S := S256x128) _ hz2, View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]
  iexists _; isplitr
  swap; · iexact H10
  ipureintro
  sl_unfold_words
  rw [View.read_writes_eq_canon _ _ _ (fun y => ⟨_, List.mem_singleton_self _, View.mem_set_unit_zero hz2 inb_S256x128_S256x128_0_0 y⟩), View.canon_unit_zero hz2]
  simp only [View.readAt_eq_ld, View.ld_unit_zero (S := S2048x2) hz2, View.ld_unit_zero (S := S2048x128) hz2, View.ld_unit_zero (S := S512x2) hz2, View.ld_unit_zero (S := S512x128) hz2, View.ld_unit_zero (S := S512) hz1, View.ld_unit_zero (S := S256x128) hz2]

set_option maxHeartbeats 4000000 in
/-- The second kernel at any grid point. -/
theorem sound_kernel1 (c : Dev nD) (E : Set ℕ) (i : grid1.Coords) (arg1 : Memref sig .tc .vmem S2048x2 .f32) (harg1 : arg1.IsWhole) (arg2 : Memref sig .tc .vmem S256x128 .f32) (harg2 : arg2.IsWhole) (arg3 : Memref sig .tc .vmem S2048x128 .f32) (harg3 : arg3.IsWhole)
    (x0 : Vec F S2048x2 .f32) (b : Vec F S256x128 .f32) (K : PUnit → sProp 𝕄) :
    iprop(owns (c : Thread nD τ) arg1 fullShare x0 ∗ owns (c : Thread nD τ) arg2 fullShare b ∗ (∃ d, owns (c : Thread nD τ) arg3 fullShare d)
        ∗ (iprop(owns (c : Thread nD τ) arg1 fullShare x0 ∗ owns (c : Thread nD τ) arg2 fullShare b ∗ owns (c : Thread nD τ) arg3 fullShare (gatherB x0 b)) -∗ K ⟨⟩))
      ⊢ wp frame (wpE (defs₀ (F := F)) Variants.none c none) E (cc1__gather_kernel i arg1 harg1 arg2 harg2 arg3 harg3) K := by
  simp only [cc1__gather_kernel_eq_skeleton]; unfold cc1__gather_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  rw [View.read_writes_eq_canon _ _ _ (fun y => ⟨_, List.mem_singleton_self _, View.mem_set_unit_zero hz2 inb_S2048x128_S2048x128_0_0 y⟩),
    View.canon_unit_zero hz2]
  sl_unfold_words
  simp only [View.readAt_eq_ld, View.ld_unit_zero (S := S256x128) hz2, View.ld_unit_zero (S := S2048x2) hz2]

end Cert.KernelIdeal.Hand

end
-- ==== Proof.KI.Data.lean ====
/-
  The proof data of the two kernel regions, at any float instance, over the buffer contents V a region is entered from.

  Region 0 (one block of 2048 rows per grid point, 128 points): the seven inputs keep their blocks; the first output's
  staging buffer holds the block's new cell state; the scratch table holds, after point n, the running bin table
  accAt n (the zero table plus the blocks 0 … n added one after the other); the second output's buffer, written back
  after the last point only, holds the table then. The region's invariant names the scratch table from the first
  point on. Region 1 (the same grid): the output block is each row's own bin of the table it is handed.
-/
import proofs.«155315_j68058051772553_1_alg».proof.Proof.KI.Body
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Regions
-- the TensorCore's buffer contents when a region is entered
variable (V : (c : Dev nD) → (b : Ref sig .tc) → Buf (Elt F) ((c : Thread nD τ).loc b))

/-! # Region 0 -/

/-- Window w's block at point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-- The inputs' blocks at their literal types. -/
abbrev xb0 (c : Dev nD) (t : Fin cfg0.N) : Vec F S2048x2 .f32 := iblk0 V c 0 t
abbrev xb1 (c : Dev nD) (t : Fin cfg0.N) : Vec F S2048x128 .f32 := iblk0 V c 1 t
abbrev xb2 (c : Dev nD) (t : Fin cfg0.N) : Vec F S2048x128 .f32 := iblk0 V c 2 t
abbrev xb3 (c : Dev nD) (t : Fin cfg0.N) : Vec F S512x2 .f32 := iblk0 V c 3 t
abbrev xb4 (c : Dev nD) (t : Fin cfg0.N) : Vec F S512x128 .f32 := iblk0 V c 4 t
abbrev xb5 (c : Dev nD) (t : Fin cfg0.N) : Vec F S512 .f32 := iblk0 V c 5 t
abbrev xb6 (c : Dev nD) (t : Fin cfg0.N) : Vec F S512 .f32 := iblk0 V c 6 t

/-- The running bin table after point n: the zero table plus blocks 0 … n, added in point order. -/
def accAt (c : Dev nD) : (n : ℕ) → n < cfg0.N → Vec F S256x128 .f32
  | 0, h => accB (zeroB (F := F)) (xb0 V c ⟨0, h⟩) (xb1 V c ⟨0, h⟩) (xb2 V c ⟨0, h⟩) (xb3 V c ⟨0, h⟩) (xb4 V c ⟨0, h⟩) (xb5 V c ⟨0, h⟩) (xb6 V c ⟨0, h⟩)
  | n + 1, h => accB (accAt c n (Nat.lt_of_succ_lt h)) (xb0 V c ⟨n + 1, h⟩) (xb1 V c ⟨n + 1, h⟩) (xb2 V c ⟨n + 1, h⟩) (xb3 V c ⟨n + 1, h⟩) (xb4 V c ⟨n + 1, h⟩) (xb5 V c ⟨n + 1, h⟩) (xb6 V c ⟨n + 1, h⟩)

theorem accAt_zero (c : Dev nD) (h : 0 < cfg0.N) :
    accAt V c 0 h = accB (zeroB (F := F)) (xb0 V c ⟨0, h⟩) (xb1 V c ⟨0, h⟩) (xb2 V c ⟨0, h⟩) (xb3 V c ⟨0, h⟩) (xb4 V c ⟨0, h⟩) (xb5 V c ⟨0, h⟩) (xb6 V c ⟨0, h⟩) := rfl
theorem accAt_succ (c : Dev nD) (n : ℕ) (h : n + 1 < cfg0.N) :
    accAt V c (n + 1) h = accB (accAt V c n (Nat.lt_of_succ_lt h)) (xb0 V c ⟨n + 1, h⟩) (xb1 V c ⟨n + 1, h⟩) (xb2 V c ⟨n + 1, h⟩) (xb3 V c ⟨n + 1, h⟩) (xb4 V c ⟨n + 1, h⟩) (xb5 V c ⟨n + 1, h⟩) (xb6 V c ⟨n + 1, h⟩) := rfl

/-- The branch conditions over the grid, in closed form. -/
theorem hcondFirst : ∀ t : Fin cfg0.N, condFirst (grid0.coords t) ↔ t.val % 128 = 0 :=
  (by decide +kernel : ∀ t : Fin grid0.N, condFirst (grid0.coords t) ↔ t.val % 128 = 0)
theorem hcondLast : ∀ t : Fin cfg0.N, condLast (grid0.coords t) ↔ t.val % 128 = 127 :=
  (by decide +kernel : ∀ t : Fin grid0.N, condLast (grid0.coords t) ↔ t.val % 128 = 127)

/-- Where the windows are idle: the second output at every point but the last, no other window ever. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
theorem liveAt0_6 : ∀ t : Fin cfg0.N, cfg0.idle 6 (grid0.coords t) = false := by decide +kernel
theorem liveAt0_7 : ∀ t : Fin cfg0.N, cfg0.idle 7 (grid0.coords t) = false := by decide +kernel
theorem idleAt0_8 : ∀ t : Fin cfg0.N, ¬condLast (grid0.coords t) → cfg0.idle 8 (grid0.coords t) = true := by decide +kernel
theorem noFlush0_8 : ∀ t : Fin cfg0.N, ¬condLast (grid0.coords t) → (cfg0.win 8).flush t = false := by decide +kernel
theorem liveAt0_8 : ∀ t : Fin cfg0.N, condLast (grid0.coords t) → cfg0.idle 8 (grid0.coords t) = false := by decide +kernel

/-- The scratch table as a memref. -/
abbrev scM0 : Memref sig .tc .vmem S256x128 .f32 := Memref.whole cc0_scratch0

/-- The core's other scoped buffers that region 0 does not stage (region 1's staging buffers), at some contents. -/
def restS (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class's invariant, with the scratch table as a memref owned at some contents. -/
theorem PhiA0_eq (c : Dev nD) :
    (Pipeline.ΦA spec0 c : sProp 𝕄)
      = iprop(((∃ d, owns (c : Thread nD τ) scM0 fullShare d) ∗ restS (F := F) c) ∗ (∃ r, prngReg c r)) := by
  unfold Pipeline.ΦA restS; rw [scopedRest0_eq]; simp only [scM0, owns_whole]; try rfl

/-- The region invariant before position n: before the first point the class's (the scratch at anything);
    afterwards the scratch table at the running table the point before left. -/
def PhiS (c : Dev nD) : (n : ℕ) → n ≤ cfg0.N → sProp 𝕄
  | 0, _ => Pipeline.ΦA spec0 c
  | n + 1, hn => iprop((owns (c : Thread nD τ) scM0 fullShare (accAt V c n hn) ∗ restS (F := F) c) ∗ (∃ r, prngReg c r))

theorem PhiS_zero (c : Dev nD) (n : ℕ) (h : n ≤ cfg0.N) (hz : n = 0) : PhiS V c n h = Pipeline.ΦA spec0 c := by
  subst hz; rfl
theorem PhiS_succ (c : Dev nD) (n : ℕ) (hn : n < cfg0.N) :
    PhiS V c (n + 1) hn = iprop((owns (c : Thread nD τ) scM0 fullShare (accAt V c n hn) ∗ restS (F := F) c) ∗ (∃ r, prngReg c r)) := rfl
theorem PhiS_pos (c : Dev nD) (n : ℕ) (h : n ≤ cfg0.N) (hz : n ≠ 0) :
    PhiS V c n h = iprop((owns (c : Thread nD τ) scM0 fullShare (accAt V c (n - 1) (by omega)) ∗ restS (F := F) c) ∗ (∃ r, prngReg c r)) := by
  cases n with
  | zero => exact absurd rfl hz
  | succ n => rfl

/-- The proof data of pipeline 0 on core c. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => cnewB (xb0 V c t) (xb1 V c t) (xb2 V c t) (xb3 V c t) (xb4 V c t) (xb5 V c t) (xb6 V c t)
    | ⟨8, _⟩ => accAt V c t.val t.isLt
  Φ t := PhiS V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem PhiS_castSucc (c : Dev nD) (t : Fin cfg0.N) :
    (dat0 V c).Φ t.castSucc = PhiS V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = cnewB (xb0 V c t) (xb1 V c t) (xb2 V c t) (xb3 V c t) (xb4 V c t) (xb5 V c t) (xb6 V c t) := by dsimp only [dat0]
theorem after0_8 (c : Dev nD) (t : Fin cfg0.N) : (dat0 V c).after 8 t = accAt V c t.val t.isLt := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-- What the body is called with at point t, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t
    ∗ (dat0 V c).leavesExact 4 t
    ∗ (dat0 V c).leavesExact 5 t
    ∗ (dat0 V c).leavesExact 6 t
    ∗ (dat0 V c).leavesExact 7 t
    ∗ (dat0 V c).leavesExact 8 t)

set_option maxHeartbeats 4000000 in
/-- The body at any point: the inputs' memrefs hold their blocks; the closed forms say which of the three control
    cases the point is in; the invariant hands the body the scratch table at what the point before left (at anything at the
    first point) and takes it back at this point's running table. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).owesAt () t.succ = (dat0 V c).owesAt () t.castSucc from rfl]
  rw [show (dat0 V c).Φ t.succ = PhiS V c (t.val + 1) t.isLt from rfl, PhiS_succ]
  have hN : t.val < 128 := lt_of_lt_of_eq t.isLt (show cfg0.N = 128 from N_0)
  rw [show (dat0 V c).leavesExact 0 t = owns (c : Thread nD τ) (st0_0 t) fullShare ((dat0 V c).after 0 t) from by
    unfold Dat.leavesExact; rw [liveAt0_0 t]]
  rw [show (dat0 V c).leavesExact 1 t = owns (c : Thread nD τ) (st0_1 t) fullShare ((dat0 V c).after 1 t) from by
    unfold Dat.leavesExact; rw [liveAt0_1 t]]
  rw [show (dat0 V c).leavesExact 2 t = owns (c : Thread nD τ) (st0_2 t) fullShare ((dat0 V c).after 2 t) from by
    unfold Dat.leavesExact; rw [liveAt0_2 t]]
  rw [show (dat0 V c).leavesExact 3 t = owns (c : Thread nD τ) (st0_3 t) fullShare ((dat0 V c).after 3 t) from by
    unfold Dat.leavesExact; rw [liveAt0_3 t]]
  rw [show (dat0 V c).leavesExact 4 t = owns (c : Thread nD τ) (st0_4 t) fullShare ((dat0 V c).after 4 t) from by
    unfold Dat.leavesExact; rw [liveAt0_4 t]]
  rw [show (dat0 V c).leavesExact 5 t = owns (c : Thread nD τ) (st0_5 t) fullShare ((dat0 V c).after 5 t) from by
    unfold Dat.leavesExact; rw [liveAt0_5 t]]
  rw [show (dat0 V c).leavesExact 6 t = owns (c : Thread nD τ) (st0_6 t) fullShare ((dat0 V c).after 6 t) from by
    unfold Dat.leavesExact; rw [liveAt0_6 t]]
  rw [show (dat0 V c).leavesExact 7 t = owns (c : Thread nD τ) (st0_7 t) fullShare ((dat0 V c).after 7 t) from by
    unfold Dat.leavesExact; rw [liveAt0_7 t]]
  rw [after0_0, after0_1, after0_2, after0_3, after0_4, after0_5, after0_6, after0_7]
  by_cases hl : t.val % 128 = 127
  · -- the last point: not the first
    have hf : ¬ t.val % 128 = 0 := by omega
    have hz : t.val ≠ 0 := by omega
    rw [show (dat0 V c).leavesExact 8 t = owns (c : Thread nD τ) (st0_8 t) fullShare ((dat0 V c).after 8 t) from by
      unfold Dat.leavesExact; rw [liveAt0_8 t ((hcondLast t).mpr hl)], after0_8]
    rw [PhiS_castSucc V c t, PhiS_pos V c _ _ hz]
    obtain ⟨n, hn⟩ : ∃ n, t.val = n + 1 := ⟨t.val - 1, by omega⟩
    have hacc : accAt V c t.val t.isLt = accB (accAt V c (t.val - 1) (by omega)) (xb0 V c t) (xb1 V c t) (xb2 V c t) (xb3 V c t) (xb4 V c t) (xb5 V c t) (xb6 V c t) := by
      obtain ⟨tv, ht⟩ := t
      cases tv with
      | zero => exact absurd rfl hz
      | succ k => rfl
    rw [hacc]
    iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply (sound_kernel0_C c Set.univ (grid0.coords t) _ _ _ _ _ _ _ _ _ _ _ _ _ _ _ _ _ _ _ _ (fun h => hf ((hcondFirst t).mp h)) ((hcondLast t).mpr hl) (xb0 V c t) (xb1 V c t) (xb2 V c t) (xb3 V c t) (xb4 V c t) (xb5 V c t) (xb6 V c t) (accAt V c (t.val - 1) (by omega)) _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [HS]; · iexact HS
    iintro ⟨H0, H1, H2, H3, H4, H5, H6, H7, H8, HS⟩
    isplitl [HS HR Hg]
    · isplitl [HS HR]
      · isplitl [HS]; · iexact HS
        iexact HR
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8
  · rw [Dat.leavesExact_idle (dat0 V c) 8 t (idleAt0_8 t (fun h => hl ((hcondLast t).mp h))) (noFlush0_8 t (fun h => hl ((hcondLast t).mp h)))]
    by_cases hf : t.val % 128 = 0
    · -- the first point
      have hz : t.val = 0 := by omega
      rw [PhiS_castSucc V c t, PhiS_zero V c _ _ hz, PhiA0_eq]
      have hacc : accAt V c t.val t.isLt = accB (zeroB (F := F)) (xb0 V c t) (xb1 V c t) (xb2 V c t) (xb3 V c t) (xb4 V c t) (xb5 V c t) (xb6 V c t) := by
        obtain ⟨tv, ht⟩ := t
        cases tv with
        | zero => rfl
        | succ k => exact absurd hz (by simp)
      rw [hacc]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_A c Set.univ (grid0.coords t) _ _ _ _ _ _ _ _ _ _ _ _ _ _ _ _ _ _ _ _ ((hcondFirst t).mpr hf) (fun h => hl ((hcondLast t).mp h)) (xb0 V c t) (xb1 V c t) (xb2 V c t) (xb3 V c t) (xb4 V c t) (xb5 V c t) (xb6 V c t) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8
    · -- a middle point
      have hz : t.val ≠ 0 := by omega
      rw [PhiS_castSucc V c t, PhiS_pos V c _ _ hz]
      have hacc : accAt V c t.val t.isLt = accB (accAt V c (t.val - 1) (by omega)) (xb0 V c t) (xb1 V c t) (xb2 V c t) (xb3 V c t) (xb4 V c t) (xb5 V c t) (xb6 V c t) := by
        obtain ⟨tv, ht⟩ := t
        cases tv with
        | zero => exact absurd rfl hz
        | succ k => rfl
      rw [hacc]
      iintro ⟨⟨⟨HS, HR⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply (sound_kernel0_B c Set.univ (grid0.coords t) _ _ _ _ _ _ _ _ _ _ _ _ _ _ _ _ _ _ _ _ (fun h => hf ((hcondFirst t).mp h)) (fun h => hl ((hcondLast t).mp h)) (xb0 V c t) (xb1 V c t) (xb2 V c t) (xb3 V c t) (xb4 V c t) (xb5 V c t) (xb6 V c t) (accAt V c (t.val - 1) (by omega)) _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexists _; iexact H7
      isplitl [HS]; · iexact HS
      iintro ⟨H0, H1, H2, H3, H4, H5, H6, H7, HS⟩
      isplitl [HS HR Hg]
      · isplitl [HS HR]
        · isplitl [HS]; · iexact HS
          iexact HR
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexists _; iexact H8

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point. -/
theorem hin0 (c : Dev nD) : Pipeline.ΦA spec0 c ⊢ (dat0 V c).Φ 0 := by
  rw [show (dat0 V c).Φ 0 = PhiS V c 0 (Nat.zero_le _) from rfl, PhiS_zero V c 0 _ rfl]
  try exact Idealize.SL.BI.Entails.refl _

/-- After the last point the invariant gives the class's back: the table's named contents are forgotten. -/
theorem hout0 (c : Dev nD) : (dat0 V c).Φ (Fin.last cfg0.N) ⊢ Pipeline.ΦA spec0 c := by
  have ht : (Fin.last cfg0.N).val ≠ 0 := by rw [Fin.val_last]; have : cfg0.N = 128 := N_0; omega
  rw [show (dat0 V c).Φ (Fin.last cfg0.N) = PhiS V c (Fin.last cfg0.N).val (Nat.le_of_lt_succ (Fin.last cfg0.N).isLt) from rfl,
    PhiS_pos V c _ _ ht, PhiA0_eq]
  iintro ⟨⟨HS, HR⟩, Hg⟩
  isplitl [HS HR]
  · isplitl [HS]; · iexists _; iexact HS
    iexact HR
  iexact Hg

/-! # Region 1 -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

abbrev yb0 (c : Dev nD) (t : Fin cfg1.N) : Vec F S2048x2 .f32 := iblk1 V c 0 t
abbrev yb1 (c : Dev nD) (t : Fin cfg1.N) : Vec F S256x128 .f32 := iblk1 V c 1 t

/-- The proof data of pipeline 1 on core c. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => gatherB (yb0 V c t) (yb1 V c t)
  Φ _ := Pipeline.ΦA spec1 c
  q _ := fullShare
  owed _ := 0

theorem A_eq1 (c : Dev nD) (w : Fin cfg1.W) : (dat1 V c).A w = V c (Pipeline.arrRef spec1 w) := by
  dsimp only [dat1]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = gatherB (yb0 V c t) (yb1 V c t) := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (yb0 V c t) (yb1 V c t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation1 (c : Dev nD) : BodyObligation (dat1 (F := F) V c) (defs₀ (F := F)) Variants.none () Set.univ := fun t => by
  rw [bigSep_W1, bigSep_W1]
  exact sound_body1 V c t

end Regions

end Cert.KernelIdeal.Hand

end
-- ==== Proof.KI.Run.lean ====
/-
  The run of the whole program, at any float instance: @main is the two kernel regions one after the other. From any
  memory with zero counters every weakly fair execution terminates, and in every final memory each unscoped buffer holds
  what the fold through the two regions leaves: the arguments as launched, the first region's two results at what its
  write-backs leave, the second region's result at what its write-backs leave over the first region's table.
-/
import proofs.«155315_j68058051772553_1_alg».proof.Proof.KI.Data
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each region boundary -/

/-- Core c's buffers at launch (region 0's entry: @main has no host operation). -/
abbrev W0 : Dev nD → Valuation τ sig (Elt F) := fun c b => (s₀ m ρ).mem ((c : Dev nD), b)
abbrev V1 : (c : Dev nD) → (b : Ref sig .tc) → Buf (Elt F) ((c : Thread nD τ).loc b) := fun c b => W0 m ρ c b
/-- At region 0's exit: its arrays at what the pipeline leaves, every other buffer as entered. -/
def W2 (c : Dev nD) : Valuation τ sig (Elt F) :=
  Pipeline.withArrays spec0 c (W0 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W0 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit. -/
def W4 (c : Dev nD) : Valuation τ sig (Elt F) :=
  Pipeline.withArrays spec1 c (W2 m ρ c) fun w => (dat1 (V2 m ρ) c).arrAt w cfg1.N
theorem W4_arr (c : Dev nD) (w : Fin cfg1.W) :
    W4 m ρ c (Proc.devRef .tc (Pipeline.arrRef spec1 w)) = (dat1 (V2 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W2 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V2 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V2 m ρ c b :=
  fun b hb => W4_of_ne m ρ c b fun w e => hb (Finset.mem_image.mpr ⟨w, Finset.mem_univ _, e⟩)

/-! ### The arguments end as launched; the results are what the regions' write-backs leave -/

theorem W4_main_arg0 (c : Dev nD) : W4 m ρ c (Proc.devRef .tc main_arg0) = m ((c : Thread nD τ).loc main_arg0) :=
  calc W4 m ρ c (Proc.devRef .tc main_arg0)
    _ = W2 m ρ c (Proc.devRef .tc main_arg0) := (W4_arr m ρ c 0).trans (((dat1 (V2 m ρ) c).arrAt_in 0 rfl _).trans (A_eq1 (V2 m ρ) c 0))
    _ = W0 m ρ c (Proc.devRef .tc main_arg0) := (W2_arr m ρ c 0).trans (((dat0 (V1 m ρ) c).arrAt_in 0 rfl _).trans (A_eq0 (V1 m ρ) c 0))
    _ = m ((c : Thread nD τ).loc main_arg0) := rfl
theorem W4_main_arg1 (c : Dev nD) : W4 m ρ c (Proc.devRef .tc main_arg1) = m ((c : Thread nD τ).loc main_arg1) :=
  calc W4 m ρ c (Proc.devRef .tc main_arg1)
    _ = W2 m ρ c (Proc.devRef .tc main_arg1) := W4_of_ne m ρ c main_arg1 (by decide)
    _ = W0 m ρ c (Proc.devRef .tc main_arg1) := (W2_arr m ρ c 1).trans (((dat0 (V1 m ρ) c).arrAt_in 1 rfl _).trans (A_eq0 (V1 m ρ) c 1))
    _ = m ((c : Thread nD τ).loc main_arg1) := rfl
theorem W4_main_arg2 (c : Dev nD) : W4 m ρ c (Proc.devRef .tc main_arg2) = m ((c : Thread nD τ).loc main_arg2) :=
  calc W4 m ρ c (Proc.devRef .tc main_arg2)
    _ = W2 m ρ c (Proc.devRef .tc main_arg2) := W4_of_ne m ρ c main_arg2 (by decide)
    _ = W0 m ρ c (Proc.devRef .tc main_arg2) := (W2_arr m ρ c 2).trans (((dat0 (V1 m ρ) c).arrAt_in 2 rfl _).trans (A_eq0 (V1 m ρ) c 2))
    _ = m ((c : Thread nD τ).loc main_arg2) := rfl
theorem W4_main_arg3 (c : Dev nD) : W4 m ρ c (Proc.devRef .tc main_arg3) = m ((c : Thread nD τ).loc main_arg3) :=
  calc W4 m ρ c (Proc.devRef .tc main_arg3)
    _ = W2 m ρ c (Proc.devRef .tc main_arg3) := W4_of_ne m ρ c main_arg3 (by decide)
    _ = W0 m ρ c (Proc.devRef .tc main_arg3) := (W2_arr m ρ c 3).trans (((dat0 (V1 m ρ) c).arrAt_in 3 rfl _).trans (A_eq0 (V1 m ρ) c 3))
    _ = m ((c : Thread nD τ).loc main_arg3) := rfl
theorem W4_main_arg4 (c : Dev nD) : W4 m ρ c (Proc.devRef .tc main_arg4) = m ((c : Thread nD τ).loc main_arg4) :=
  calc W4 m ρ c (Proc.devRef .tc main_arg4)
    _ = W2 m ρ c (Proc.devRef .tc main_arg4) := W4_of_ne m ρ c main_arg4 (by decide)
    _ = W0 m ρ c (Proc.devRef .tc main_arg4) := (W2_arr m ρ c 4).trans (((dat0 (V1 m ρ) c).arrAt_in 4 rfl _).trans (A_eq0 (V1 m ρ) c 4))
    _ = m ((c : Thread nD τ).loc main_arg4) := rfl
theorem W4_main_arg5 (c : Dev nD) : W4 m ρ c (Proc.devRef .tc main_arg5) = m ((c : Thread nD τ).loc main_arg5) :=
  calc W4 m ρ c (Proc.devRef .tc main_arg5)
    _ = W2 m ρ c (Proc.devRef .tc main_arg5) := W4_of_ne m ρ c main_arg5 (by decide)
    _ = W0 m ρ c (Proc.devRef .tc main_arg5) := (W2_arr m ρ c 5).trans (((dat0 (V1 m ρ) c).arrAt_in 5 rfl _).trans (A_eq0 (V1 m ρ) c 5))
    _ = m ((c : Thread nD τ).loc main_arg5) := rfl
theorem W4_main_arg6 (c : Dev nD) : W4 m ρ c (Proc.devRef .tc main_arg6) = m ((c : Thread nD τ).loc main_arg6) :=
  calc W4 m ρ c (Proc.devRef .tc main_arg6)
    _ = W2 m ρ c (Proc.devRef .tc main_arg6) := W4_of_ne m ρ c main_arg6 (by decide)
    _ = W0 m ρ c (Proc.devRef .tc main_arg6) := (W2_arr m ρ c 6).trans (((dat0 (V1 m ρ) c).arrAt_in 6 rfl _).trans (A_eq0 (V1 m ρ) c 6))
    _ = m ((c : Thread nD τ).loc main_arg6) := rfl

/-- The second region's result. -/
theorem W4_main_v1 (c : Dev nD) : W4 m ρ c (Proc.devRef .tc main_v1) = (dat1 (V2 m ρ) c).arrAt 2 cfg1.N := W4_arr m ρ c 2
/-- The first region's first result (the second region does not touch it). -/
theorem W4_main_v0_0 (c : Dev nD) : W4 m ρ c (Proc.devRef .tc main_v0_0) = (dat0 (V1 m ρ) c).arrAt 7 cfg0.N :=
  (W4_of_ne m ρ c main_v0_0 (by decide)).trans (W2_arr m ρ c 7)
/-- What the second region finds: the coordinates as launched, and the first region's table. -/
theorem V2_main_arg0 (c : Dev nD) : V2 m ρ c main_arg0 = m ((c : Thread nD τ).loc main_arg0) :=
  (W2_arr m ρ c 0).trans (((dat0 (V1 m ρ) c).arrAt_in 0 rfl _).trans (A_eq0 (V1 m ρ) c 0))
theorem V2_main_v0_1 (c : Dev nD) : V2 m ρ c main_v0_1 = (dat0 (V1 m ρ) c).arrAt 8 cfg0.N := W2_arr m ρ c 8

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
abbrev 𝒱₀ : Variants := Variants.none
abbrev L : GSem nD τ sig → Finset Unit := fun _ => ∅
abbrev lv : GSem nD τ sig → Unit → ℕ := fun _ _ => 0
/-- What rides beside the buffers: the generator register at some state and the core's dues, at nothing. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at its entry contents, left at its exit contents.
    Its arrays are split out of the unscoped buffers and put back at what the pipeline leaves; the generator register and the
    scoped rest enter the region's invariant and come back; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have h := hin0 (V1 m ρ) c
    unfold Pipeline.ΦA at h
    rw [show (pdats m ρ 0 c).Φ 0 = (dat0 (V1 m ρ) c).Φ 0 from rfl]
    iintro ⟨Hp, -, Hr⟩
    iapply h
    isplitl [Hr]; · iexact Hr
    iexact Hp
  hout c := by
    rw [Pipeline.ownSems0_none]
    have h := hout0 (V1 m ρ) c
    unfold Pipeline.ΦA at h
    rw [show (pdats m ρ 0 c).Φ (Fin.last _) = (dat0 (V1 m ρ) c).Φ (Fin.last cfg0.N) from rfl]
    iintro Hphi
    ihave H := h $$ Hphi
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at its entry contents, left at its exit contents.
    Its arrays are split out of the unscoped buffers and put back at what the pipeline leaves; the generator register and the
    scoped rest enter the region's invariant and come back; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V2 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: every weakly fair execution of @main terminates, and every final memory holds every unscoped buffer at the
    last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- The run, read at the program's results and arguments. -/
theorem run_main : θ_run defs (onTc (τ := τ) (main (F := F))) ⟨m, fun _ => 0, ρ⟩ (fun r => ∀ c : Dev nD,
      r.2.mem ((c.tc : Thread nD τ).loc main_v1) = (dat1 (V2 m ρ) c).arrAt 2 cfg1.N
      ∧ r.2.mem ((c.tc : Thread nD τ).loc main_v0_0) = (dat0 (V1 m ρ) c).arrAt 7 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c _ (mem_uc main_v1 (by decide))).trans (W4_main_v1 m ρ c),
     (h c _ (mem_uc main_v0_0 (by decide))).trans (W4_main_v0_0 m ρ c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c),
     (h c _ (mem_uc main_arg4 (by decide))).trans (W4_main_arg4 m ρ c),
     (h c _ (mem_uc main_arg5 (by decide))).trans (W4_main_arg5 m ρ c),
     (h c _ (mem_uc main_arg6 (by decide))).trans (W4_main_arg6 m ρ c)⟩) (run_all m ρ)

end Cert.KernelIdeal.Hand

end
-- ==== Proof.Spec.lean ====
/-
  The mathematics both programs compute, index by index over the extended reals.

  A row r of the n agents (n = 262144 for the whole arrays, 2048 for one block of rows) has coordinates X(r,·), hidden state H(r,·) and cell state C(r,·).
  gate r j   = ((Σ_k X(r,k)·Wi(j,k) + Σ_k H(r,k)·Wh(j,k)) + bi(j)) + bh(j)          (j < 512: the four gates side by side)
  cnew r k   = σ(gate r (128+k))·C(r,k) + σ(gate r k)·tanh(gate r (256+k))
  hnew r k   = σ(gate r (384+k))·tanh(cnew r k)
  cellOf x   = clamp to [0,15] of the integer part of floor((clamp(x,-10,10) + 10)/20·16)
  seg r      = 16·cellOf X(r,0) + cellOf X(r,1)                                      (a 32-bit word)
  binsum b k = Σ_r [seg r = b]·hnew r k                                              (b < 256)
  hsoc r k   = Σ_b [seg r = b]·binsum b k   (the one summand with b = seg r)
-/
import Idealize.ShloMosaic.PureOps.Ideal
import Idealize.ShloMosaic.Lib.ValueIdx

noncomputable section

namespace Cert.Spec

open Idealize.ShloMosaic Idealize.ShloMosaic.ValueIdx

/-- `n` rows of coordinates, and of hidden or cell state. -/
abbrev SX (n : Nat) : Shape := ⟨2, ![n, 2]⟩
abbrev SH (n : Nat) : Shape := ⟨2, ![n, 128]⟩
abbrev SWi : Shape := ⟨2, ![512, 2]⟩
abbrev SWh : Shape := ⟨2, ![512, 128]⟩
abbrev SB : Shape := ⟨1, ![512]⟩

/-- The three literals of the binning, as extended reals: -10, 20, 16 (and +10). -/
abbrev lo : EReal := Ideal.ofBits .f32 0xC1200000#32
abbrev hi : EReal := Ideal.ofBits .f32 0x41200000#32
abbrev width : EReal := Ideal.ofBits .f32 0x41A00000#32
abbrev cells : EReal := Ideal.ofBits .f32 0x41800000#32

/-- One coordinate's grid cell, a word in [0, 15]. -/
def cellOf (x : EReal) : BitVec 32 :=
  IntOp.minsi 15#32 (IntOp.maxsi 0#32 (Ideal.fptosi 32 (Ideal.liftRound Int.floor (Ideal.div (min hi (max lo x) - lo) width * cells))))

section
variable {n : Nat} (X : (SX n).Idx → EReal) (H C : (SH n).Idx → EReal) (Wi : SWi.Idx → EReal) (Wh : SWh.Idx → EReal) (bi bh : SB.Idx → EReal)

/-- The four gates' pre-activations, side by side along j. -/
def gate (r : Fin n) (j : Fin 512) : EReal :=
  (((∑ k : Fin 2, X (ix2 r k) * Wi (ix2 j k)) + (∑ k : Fin 128, H (ix2 r k) * Wh (ix2 j k))) + bi (ix1 j)) + bh (ix1 j)

/-- The new cell state. -/
def cnew (r : Fin n) (k : Fin 128) : EReal :=
  Ideal.logistic (gate X H Wi Wh bi bh r ⟨128 + k.val, by omega⟩) * C (ix2 r k)
    + Ideal.logistic (gate X H Wi Wh bi bh r ⟨k.val, by omega⟩) * Ideal.tanh (gate X H Wi Wh bi bh r ⟨256 + k.val, by omega⟩)

/-- The new hidden state. -/
def hnew (r : Fin n) (k : Fin 128) : EReal :=
  Ideal.logistic (gate X H Wi Wh bi bh r ⟨384 + k.val, by omega⟩) * Ideal.tanh (cnew X H C Wi Wh bi bh r k)

/-- Row r's flat grid cell. -/
def seg (r : Fin n) : BitVec 32 :=
  IntOp.addi (IntOp.muli (cellOf (X (ix2 r 0))) 16#32) (cellOf (X (ix2 r 1)))

/-- The sum of the new hidden states of the rows in cell b. -/
def binsum (b : Fin 256) (k : Fin 128) : EReal :=
  ∑ r : Fin n, if seg X r = BitVec.ofNat 32 b.val then hnew X H C Wi Wh bi bh r k else 0

/-- Each row receives its own cell's sum. -/
def hsoc (r : Fin n) (k : Fin 128) : EReal :=
  ∑ b : Fin 256, if seg X r = BitVec.ofNat 32 b.val then binsum X H C Wi Wh bi bh b k else 0

/-- The two results as whole arrays. -/
def outC : (SH n).Idx → EReal := fun i => cnew X H C Wi Wh bi bh (i 0) (i 1)
def outH : (SH n).Idx → EReal := fun i => hsoc X H C Wi Wh bi bh (i 0) (i 1)
end

end Cert.Spec

end
-- ==== Proof.SpecLemmas.lean ====
/-
  Facts about the index-level specification: the grid cell is a word below 256; a row's gates, states and cell
  depend on that row's inputs only; the bin sums of the whole array are the sums over its 128 blocks of 2048 rows.
-/
import proofs.«155315_j68058051772553_1_alg».proof.Proof.Spec
import Mathlib.Algebra.BigOperators.Fin
import Mathlib.Algebra.BigOperators.Group.Finset.Basic

noncomputable section

namespace Cert.Spec

open Idealize.ShloMosaic Idealize.ShloMosaic.ValueIdx

/-- Clamping a signed word to [0, 15] leaves a value below 16: the result is 15, 0, or a word that is
neither negative nor above 15. -/
private theorem clamp_lt (w : BitVec 32) : (IntOp.minsi 15#32 (IntOp.maxsi 0#32 w)).toNat < 16 := by
  unfold IntOp.minsi IntOp.maxsi
  by_cases h1 : w.slt 0#32
  · rw [if_pos h1]
    decide
  · rw [if_neg h1]
    by_cases h2 : (15#32).slt w
    · rw [if_pos h2]
      decide
    · rw [if_neg h2]
      simp only [BitVec.slt, decide_eq_true_eq, BitVec.toInt_eq_toNat_cond] at h1 h2
      have := w.isLt
      simp at h1 h2
      omega

/-- One coordinate's cell is one of 0 … 15. -/
theorem cellOf_lt (x : EReal) : (cellOf x).toNat < 16 := by
  unfold cellOf
  exact clamp_lt _

/-- A row's flat cell is one of 0 … 255. -/
theorem seg_lt {n : Nat} (X : (SX n).Idx → EReal) (r : Fin n) : (seg X r).toNat < 256 := by
  have ha := cellOf_lt (X (ix2 r 0))
  have hb := cellOf_lt (X (ix2 r 1))
  unfold seg IntOp.addi IntOp.muli
  rw [BitVec.toNat_add, BitVec.toNat_mul]
  simp only [BitVec.toNat_ofNat]
  omega

/-- A flat cell equals the word of b exactly when its value is b. -/
theorem seg_eq_ofNat_iff {n : Nat} (X : (SX n).Idx → EReal) (r : Fin n) (b : Fin 256) :
    seg X r = BitVec.ofNat 32 b.val ↔ (seg X r).toNat = b.val := by
  have hb : b.val % 2 ^ 32 = b.val := Nat.mod_eq_of_lt (by omega)
  constructor
  · intro h
    rw [h, BitVec.toNat_ofNat, hb]
  · intro h
    apply BitVec.eq_of_toNat_eq
    rw [h, BitVec.toNat_ofNat, hb]

section Local
variable {n n' : Nat} (X : (SX n).Idx → EReal) (H C : (SH n).Idx → EReal) (X' : (SX n').Idx → EReal) (H' C' : (SH n').Idx → EReal)
  (Wi : SWi.Idx → EReal) (Wh : SWh.Idx → EReal) (bi bh : SB.Idx → EReal) (r : Fin n) (p : Fin n')

/-- Row p of one family of arrays and row r of another, holding the same inputs, have the same cell … -/
theorem seg_local (hX : ∀ k : Fin 2, X' (ix2 p k) = X (ix2 r k)) : seg X' p = seg X r := by
  simp only [seg, hX]

/-- … the same gates … -/
private theorem gate_local (hX : ∀ k : Fin 2, X' (ix2 p k) = X (ix2 r k)) (hH : ∀ k : Fin 128, H' (ix2 p k) = H (ix2 r k))
    (j : Fin 512) : gate X' H' Wi Wh bi bh p j = gate X H Wi Wh bi bh r j := by
  simp only [gate, hX, hH]

/-- … the same new cell state … -/
theorem cnew_local (hX : ∀ k : Fin 2, X' (ix2 p k) = X (ix2 r k)) (hH : ∀ k : Fin 128, H' (ix2 p k) = H (ix2 r k))
    (hC : ∀ k : Fin 128, C' (ix2 p k) = C (ix2 r k)) (k : Fin 128) :
    cnew X' H' C' Wi Wh bi bh p k = cnew X H C Wi Wh bi bh r k := by
  simp only [cnew, gate_local X H X' H' Wi Wh bi bh r p hX hH, hC]

/-- … and the same new hidden state. -/
theorem hnew_local (hX : ∀ k : Fin 2, X' (ix2 p k) = X (ix2 r k)) (hH : ∀ k : Fin 128, H' (ix2 p k) = H (ix2 r k))
    (hC : ∀ k : Fin 128, C' (ix2 p k) = C (ix2 r k)) (k : Fin 128) :
    hnew X' H' C' Wi Wh bi bh p k = hnew X H C Wi Wh bi bh r k := by
  simp only [hnew, gate_local X H X' H' Wi Wh bi bh r p hX hH, cnew_local X H C X' H' C' Wi Wh bi bh r p hX hH hC]
end Local

/-- Row p of block t, as a row of the whole array. -/
abbrev rowOf (t : Fin 128) (p : Fin 2048) : Fin 262144 := ⟨2048 * t.val + p.val, by omega⟩

/-- Block t of a [262144, w] array: its rows 2048·t … 2048·t + 2047. -/
def blk {w : Nat} (A : (⟨2, ![262144, w]⟩ : Shape).Idx → EReal) (t : Fin 128) : (⟨2, ![2048, w]⟩ : Shape).Idx → EReal :=
  fun i => A (ix2 (rowOf t (i 0)) (i 1))

/-- An entry of a block is the whole array's entry at the block's row. -/
private theorem blk_ix2 {w : Nat} (A : (⟨2, ![262144, w]⟩ : Shape).Idx → EReal) (t : Fin 128) (p : Fin 2048) (k : Fin w) :
    blk A t (ix2 p k) = A (ix2 (rowOf t p) k) := rfl

/-- Every row of the whole array is row p of block t for exactly one pair (t, p): t = r / 2048, p = r % 2048. -/
private def rowEquiv : Fin 128 × Fin 2048 ≃ Fin 262144 where
  toFun tp := rowOf tp.1 tp.2
  invFun r := (⟨r.val / 2048, by have := r.isLt; omega⟩, ⟨r.val % 2048, Nat.mod_lt _ (by norm_num)⟩)
  left_inv := by
    rintro ⟨t, p⟩
    have ht := t.isLt
    have hp := p.isLt
    apply Prod.ext
    · apply Fin.ext
      show (2048 * t.val + p.val) / 2048 = t.val
      omega
    · apply Fin.ext
      show (2048 * t.val + p.val) % 2048 = p.val
      omega
  right_inv := by
    intro r
    apply Fin.ext
    show 2048 * (r.val / 2048) + r.val % 2048 = r.val
    omega

/-- A sum over the rows of the whole array is the double sum over blocks and rows of a block. -/
private theorem sum_rows (f : Fin 262144 → EReal) : ∑ r, f r = ∑ t : Fin 128, ∑ p : Fin 2048, f (rowOf t p) := by
  rw [← Fintype.sum_equiv rowEquiv (fun tp => f (rowOf tp.1 tp.2)) f (fun _ => rfl), Fintype.sum_prod_type]

/-- A block row's cell is the whole array's at that row. -/
theorem seg_blk (X : (SX 262144).Idx → EReal) (t : Fin 128) (p : Fin 2048) : seg (blk X t) p = seg X (rowOf t p) :=
  seg_local X (blk X t) (rowOf t p) p (fun k => blk_ix2 X t p k)

/-- The whole array's bin sums are the blocks' bin sums added up. -/
theorem binsum_blocks (X : (SX 262144).Idx → EReal) (H C : (SH 262144).Idx → EReal)
    (Wi : SWi.Idx → EReal) (Wh : SWh.Idx → EReal) (bi bh : SB.Idx → EReal) (b : Fin 256) (k : Fin 128) :
    binsum X H C Wi Wh bi bh b k = ∑ t : Fin 128, binsum (blk X t) (blk H t) (blk C t) Wi Wh bi bh b k := by
  unfold binsum
  rw [sum_rows]
  refine Finset.sum_congr rfl fun t _ => Finset.sum_congr rfl fun p _ => ?_
  rw [seg_blk, hnew_local X H C (blk X t) (blk H t) (blk C t) Wi Wh bi bh (rowOf t p) p
    (fun j => blk_ix2 X t p j) (fun j => blk_ix2 H t p j) (fun j => blk_ix2 C t p j) k]

/-- A block's new cell state is the whole array's at the block's rows. -/
theorem outC_blk (X : (SX 262144).Idx → EReal) (H C : (SH 262144).Idx → EReal)
    (Wi : SWi.Idx → EReal) (Wh : SWh.Idx → EReal) (bi bh : SB.Idx → EReal) (t : Fin 128) (p : Fin 2048) (k : Fin 128) :
    outC (blk X t) (blk H t) (blk C t) Wi Wh bi bh (ix2 p k) = outC X H C Wi Wh bi bh (ix2 (rowOf t p) k) := by
  show cnew (blk X t) (blk H t) (blk C t) Wi Wh bi bh p k = cnew X H C Wi Wh bi bh (rowOf t p) k
  exact cnew_local X H C (blk X t) (blk H t) (blk C t) Wi Wh bi bh (rowOf t p) p
    (fun j => blk_ix2 X t p j) (fun j => blk_ix2 H t p j) (fun j => blk_ix2 C t p j) k

/-- A running sum started from 0 + first term: after the term s it is the sum of the terms up to s. -/
theorem chain_eq_sum (P : ℕ → EReal) (acc : ℕ → EReal) (h0 : acc 0 = 0 + P 0) (hs : ∀ s, acc (s + 1) = acc s + P (s + 1)) (s : ℕ) :
    acc s = ∑ j ∈ Finset.range (s + 1), P j := by
  induction s with
  | zero => rw [h0, zero_add, Finset.sum_range_one]
  | succ s ih => rw [hs s, ih, Finset.sum_range_succ _ (s + 1)]

end Cert.Spec

end
-- ==== Proof.KI.PayValue.lean ====
/-
  The kernels' payloads at the ideal instance, index by index: a block's new cell state, the table's update
  (the table plus the block's bin sums: a one-hot product is a masked sum), the zero table, and the selection
  of each row's bin (again a one-hot product).
-/
import proofs.«155315_j68058051772553_1_alg».proof.Proof.KI.Body
import proofs.«155315_j68058051772553_1_alg».proof.Proof.SpecLemmas
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayValue

open Cert.KernelIdeal Cert.KernelIdeal.Gen Cert.KernelIdeal.Hand
open Idealize.ShloMosaic Idealize.ShloMosaic.TcCoe Idealize.ShloMosaic.ValueIdx

/-! ## The four contractions, each read at an index as the sum over its one contracted axis -/

private theorem lhsX_0 (i : S2048x512.Idx) (q : dot_S2048x2_S2x512_S2048x512_1_0_0_1_n_n.contr.Idx) :
    (dot_S2048x2_S2x512_S2048x512_1_0_0_1_n_n.lhsIdx i q 0).val = (i 0).val := by
  unfold DotDims.lhsIdx
  rw [dif_neg (show ¬(0 : Fin S2048x2.rank) ∈ dot_S2048x2_S2x512_S2048x512_1_0_0_1_n_n.lhsBatch by decide), dif_pos (show (0 : Fin S2048x2.rank) ∈ dot_S2048x2_S2x512_S2048x512_1_0_0_1_n_n.lhsNonContracting by decide)]
  rfl
private theorem lhsX_1 (i : S2048x512.Idx) (q : dot_S2048x2_S2x512_S2048x512_1_0_0_1_n_n.contr.Idx) :
    (dot_S2048x2_S2x512_S2048x512_1_0_0_1_n_n.lhsIdx i q 1).val = (q ⟨0, by decide⟩).val :=
  dot_S2048x2_S2x512_S2048x512_1_0_0_1_n_n.lhsIdx_val_of_single rfl i q
private theorem rhsX_0 (i : S2048x512.Idx) (q : dot_S2048x2_S2x512_S2048x512_1_0_0_1_n_n.contr.Idx) :
    (dot_S2048x2_S2x512_S2048x512_1_0_0_1_n_n.rhsIdx i q 0).val = (q ⟨0, by decide⟩).val :=
  dot_S2048x2_S2x512_S2048x512_1_0_0_1_n_n.rhsIdx_val_of_single rfl i q
private theorem rhsX_1 (i : S2048x512.Idx) (q : dot_S2048x2_S2x512_S2048x512_1_0_0_1_n_n.contr.Idx) :
    (dot_S2048x2_S2x512_S2048x512_1_0_0_1_n_n.rhsIdx i q 1).val = (i 1).val := by
  unfold DotDims.rhsIdx
  rw [dif_neg (show ¬(1 : Fin S2x512.rank) ∈ dot_S2048x2_S2x512_S2048x512_1_0_0_1_n_n.rhsBatch by decide), dif_pos (show (1 : Fin S2x512.rank) ∈ dot_S2048x2_S2x512_S2048x512_1_0_0_1_n_n.rhsNonContracting by decide)]
  rfl

/-- The coordinates against the transposed input weights: row p of the left operand times column j of the right. -/
private theorem mmX_apply (a : FVec Ideal S2048x2 .bf16) (w : FVec Ideal S2x512 .bf16) (p : Fin 2048) (j : Fin 512) :
    matmul dot_S2048x2_S2x512_S2048x512_1_0_0_1_n_n none a w (constant (F := Ideal) S2048x512 .f32 0x00000000#32) (ix2 p j)
      = ∑ k : Fin 2, a (ix2 p k) * w (ix2 k j) := by
  show FloatOps.matmul _ _ _ _ _ _ = _
  rw [Ideal.matmul_constant_zero_apply, ← Equiv.sum_comp (ValueIdx.contrEquiv1 dot_S2048x2_S2x512_S2048x512_1_0_0_1_n_n 2 rfl rfl).symm]
  refine Finset.sum_congr rfl fun k _ => ?_
  have hk := ValueIdx.contrEquiv1_symm_val dot_S2048x2_S2x512_S2048x512_1_0_0_1_n_n 2 rfl rfl k
  have el : dot_S2048x2_S2x512_S2048x512_1_0_0_1_n_n.lhsIdx (ix2 p j) ((ValueIdx.contrEquiv1 dot_S2048x2_S2x512_S2048x512_1_0_0_1_n_n 2 rfl rfl).symm k) = ix2 p k := funext fun a => Fin.ext (by
    match a with
    | ⟨0, _⟩ => exact lhsX_0 _ _
    | ⟨1, _⟩ => exact (lhsX_1 _ _).trans hk)
  have er : dot_S2048x2_S2x512_S2048x512_1_0_0_1_n_n.rhsIdx (ix2 p j) ((ValueIdx.contrEquiv1 dot_S2048x2_S2x512_S2048x512_1_0_0_1_n_n 2 rfl rfl).symm k) = ix2 k j := funext fun a => Fin.ext (by
    match a with
    | ⟨0, _⟩ => exact (rhsX_0 _ _).trans hk
    | ⟨1, _⟩ => exact rhsX_1 _ _)
  rw [el, er]

private theorem lhsH_0 (i : S2048x512.Idx) (q : dot_S2048x128_S128x512_S2048x512_1_0_0_1_n_n.contr.Idx) :
    (dot_S2048x128_S128x512_S2048x512_1_0_0_1_n_n.lhsIdx i q 0).val = (i 0).val := by
  unfold DotDims.lhsIdx
  rw [dif_neg (show ¬(0 : Fin S2048x128.rank) ∈ dot_S2048x128_S128x512_S2048x512_1_0_0_1_n_n.lhsBatch by decide), dif_pos (show (0 : Fin S2048x128.rank) ∈ dot_S2048x128_S128x512_S2048x512_1_0_0_1_n_n.lhsNonContracting by decide)]
  rfl
private theorem lhsH_1 (i : S2048x512.Idx) (q : dot_S2048x128_S128x512_S2048x512_1_0_0_1_n_n.contr.Idx) :
    (dot_S2048x128_S128x512_S2048x512_1_0_0_1_n_n.lhsIdx i q 1).val = (q ⟨0, by decide⟩).val :=
  dot_S2048x128_S128x512_S2048x512_1_0_0_1_n_n.lhsIdx_val_of_single rfl i q
private theorem rhsH_0 (i : S2048x512.Idx) (q : dot_S2048x128_S128x512_S2048x512_1_0_0_1_n_n.contr.Idx) :
    (dot_S2048x128_S128x512_S2048x512_1_0_0_1_n_n.rhsIdx i q 0).val = (q ⟨0, by decide⟩).val :=
  dot_S2048x128_S128x512_S2048x512_1_0_0_1_n_n.rhsIdx_val_of_single rfl i q
private theorem rhsH_1 (i : S2048x512.Idx) (q : dot_S2048x128_S128x512_S2048x512_1_0_0_1_n_n.contr.Idx) :
    (dot_S2048x128_S128x512_S2048x512_1_0_0_1_n_n.rhsIdx i q 1).val = (i 1).val := by
  unfold DotDims.rhsIdx
  rw [dif_neg (show ¬(1 : Fin S128x512.rank) ∈ dot_S2048x128_S128x512_S2048x512_1_0_0_1_n_n.rhsBatch by decide), dif_pos (show (1 : Fin S128x512.rank) ∈ dot_S2048x128_S128x512_S2048x512_1_0_0_1_n_n.rhsNonContracting by decide)]
  rfl

/-- The hidden state against the transposed recurrent weights. -/
private theorem mmH_apply (a : FVec Ideal S2048x128 .bf16) (w : FVec Ideal S128x512 .bf16) (p : Fin 2048) (j : Fin 512) :
    matmul dot_S2048x128_S128x512_S2048x512_1_0_0_1_n_n none a w (constant (F := Ideal) S2048x512 .f32 0x00000000#32) (ix2 p j)
      = ∑ k : Fin 128, a (ix2 p k) * w (ix2 k j) := by
  show FloatOps.matmul _ _ _ _ _ _ = _
  rw [Ideal.matmul_constant_zero_apply, ← Equiv.sum_comp (ValueIdx.contrEquiv1 dot_S2048x128_S128x512_S2048x512_1_0_0_1_n_n 128 rfl rfl).symm]
  refine Finset.sum_congr rfl fun k _ => ?_
  have hk := ValueIdx.contrEquiv1_symm_val dot_S2048x128_S128x512_S2048x512_1_0_0_1_n_n 128 rfl rfl k
  have el : dot_S2048x128_S128x512_S2048x512_1_0_0_1_n_n.lhsIdx (ix2 p j) ((ValueIdx.contrEquiv1 dot_S2048x128_S128x512_S2048x512_1_0_0_1_n_n 128 rfl rfl).symm k) = ix2 p k := funext fun a => Fin.ext (by
    match a with
    | ⟨0, _⟩ => exact lhsH_0 _ _
    | ⟨1, _⟩ => exact (lhsH_1 _ _).trans hk)
  have er : dot_S2048x128_S128x512_S2048x512_1_0_0_1_n_n.rhsIdx (ix2 p j) ((ValueIdx.contrEquiv1 dot_S2048x128_S128x512_S2048x512_1_0_0_1_n_n 128 rfl rfl).symm k) = ix2 k j := funext fun a => Fin.ext (by
    match a with
    | ⟨0, _⟩ => exact (rhsH_0 _ _).trans hk
    | ⟨1, _⟩ => exact rhsH_1 _ _)
  rw [el, er]

private theorem lhsT_0 (i : S256x128.Idx) (q : dot_S2048x256_S2048x128_S256x128_0_0_1_1_n_n.contr.Idx) :
    (dot_S2048x256_S2048x128_S256x128_0_0_1_1_n_n.lhsIdx i q 0).val = (q ⟨0, by decide⟩).val :=
  dot_S2048x256_S2048x128_S256x128_0_0_1_1_n_n.lhsIdx_val_of_single rfl i q
private theorem lhsT_1 (i : S256x128.Idx) (q : dot_S2048x256_S2048x128_S256x128_0_0_1_1_n_n.contr.Idx) :
    (dot_S2048x256_S2048x128_S256x128_0_0_1_1_n_n.lhsIdx i q 1).val = (i 0).val := by
  unfold DotDims.lhsIdx
  rw [dif_neg (show ¬(1 : Fin S2048x256.rank) ∈ dot_S2048x256_S2048x128_S256x128_0_0_1_1_n_n.lhsBatch by decide), dif_pos (show (1 : Fin S2048x256.rank) ∈ dot_S2048x256_S2048x128_S256x128_0_0_1_1_n_n.lhsNonContracting by decide)]
  rfl
private theorem rhsT_0 (i : S256x128.Idx) (q : dot_S2048x256_S2048x128_S256x128_0_0_1_1_n_n.contr.Idx) :
    (dot_S2048x256_S2048x128_S256x128_0_0_1_1_n_n.rhsIdx i q 0).val = (q ⟨0, by decide⟩).val :=
  dot_S2048x256_S2048x128_S256x128_0_0_1_1_n_n.rhsIdx_val_of_single rfl i q
private theorem rhsT_1 (i : S256x128.Idx) (q : dot_S2048x256_S2048x128_S256x128_0_0_1_1_n_n.contr.Idx) :
    (dot_S2048x256_S2048x128_S256x128_0_0_1_1_n_n.rhsIdx i q 1).val = (i 1).val := by
  unfold DotDims.rhsIdx
  rw [dif_neg (show ¬(1 : Fin S2048x128.rank) ∈ dot_S2048x256_S2048x128_S256x128_0_0_1_1_n_n.rhsBatch by decide), dif_pos (show (1 : Fin S2048x128.rank) ∈ dot_S2048x256_S2048x128_S256x128_0_0_1_1_n_n.rhsNonContracting by decide)]
  rfl

/-- The table's update contracts the ROW axis of both operands: column p of the left operand against column j of the right, summed over the 2048 rows. -/
private theorem mmT_apply (a : FVec Ideal S2048x256 .f32) (w : FVec Ideal S2048x128 .f32) (p : Fin 256) (j : Fin 128) :
    matmul dot_S2048x256_S2048x128_S256x128_0_0_1_1_n_n (some .fp32) a w (constant (F := Ideal) S256x128 .f32 0x00000000#32) (ix2 p j)
      = ∑ k : Fin 2048, a (ix2 k p) * w (ix2 k j) := by
  show FloatOps.matmul _ _ _ _ _ _ = _
  rw [Ideal.matmul_constant_zero_apply, ← Equiv.sum_comp (ValueIdx.contrEquiv1 dot_S2048x256_S2048x128_S256x128_0_0_1_1_n_n 2048 rfl rfl).symm]
  refine Finset.sum_congr rfl fun k _ => ?_
  have hk := ValueIdx.contrEquiv1_symm_val dot_S2048x256_S2048x128_S256x128_0_0_1_1_n_n 2048 rfl rfl k
  have el : dot_S2048x256_S2048x128_S256x128_0_0_1_1_n_n.lhsIdx (ix2 p j) ((ValueIdx.contrEquiv1 dot_S2048x256_S2048x128_S256x128_0_0_1_1_n_n 2048 rfl rfl).symm k) = ix2 k p := funext fun a => Fin.ext (by
    match a with
    | ⟨0, _⟩ => exact (lhsT_0 _ _).trans hk
    | ⟨1, _⟩ => exact lhsT_1 _ _)
  have er : dot_S2048x256_S2048x128_S256x128_0_0_1_1_n_n.rhsIdx (ix2 p j) ((ValueIdx.contrEquiv1 dot_S2048x256_S2048x128_S256x128_0_0_1_1_n_n 2048 rfl rfl).symm k) = ix2 k j := funext fun a => Fin.ext (by
    match a with
    | ⟨0, _⟩ => exact (rhsT_0 _ _).trans hk
    | ⟨1, _⟩ => exact rhsT_1 _ _)
  rw [el, er]

private theorem lhsG_0 (i : S2048x128.Idx) (q : dot_S2048x256_S256x128_S2048x128_1_0_0_1_n_n.contr.Idx) :
    (dot_S2048x256_S256x128_S2048x128_1_0_0_1_n_n.lhsIdx i q 0).val = (i 0).val := by
  unfold DotDims.lhsIdx
  rw [dif_neg (show ¬(0 : Fin S2048x256.rank) ∈ dot_S2048x256_S256x128_S2048x128_1_0_0_1_n_n.lhsBatch by decide), dif_pos (show (0 : Fin S2048x256.rank) ∈ dot_S2048x256_S256x128_S2048x128_1_0_0_1_n_n.lhsNonContracting by decide)]
  rfl
private theorem lhsG_1 (i : S2048x128.Idx) (q : dot_S2048x256_S256x128_S2048x128_1_0_0_1_n_n.contr.Idx) :
    (dot_S2048x256_S256x128_S2048x128_1_0_0_1_n_n.lhsIdx i q 1).val = (q ⟨0, by decide⟩).val :=
  dot_S2048x256_S256x128_S2048x128_1_0_0_1_n_n.lhsIdx_val_of_single rfl i q
private theorem rhsG_0 (i : S2048x128.Idx) (q : dot_S2048x256_S256x128_S2048x128_1_0_0_1_n_n.contr.Idx) :
    (dot_S2048x256_S256x128_S2048x128_1_0_0_1_n_n.rhsIdx i q 0).val = (q ⟨0, by decide⟩).val :=
  dot_S2048x256_S256x128_S2048x128_1_0_0_1_n_n.rhsIdx_val_of_single rfl i q
private theorem rhsG_1 (i : S2048x128.Idx) (q : dot_S2048x256_S256x128_S2048x128_1_0_0_1_n_n.contr.Idx) :
    (dot_S2048x256_S256x128_S2048x128_1_0_0_1_n_n.rhsIdx i q 1).val = (i 1).val := by
  unfold DotDims.rhsIdx
  rw [dif_neg (show ¬(1 : Fin S256x128.rank) ∈ dot_S2048x256_S256x128_S2048x128_1_0_0_1_n_n.rhsBatch by decide), dif_pos (show (1 : Fin S256x128.rank) ∈ dot_S2048x256_S256x128_S2048x128_1_0_0_1_n_n.rhsNonContracting by decide)]
  rfl

/-- The selection: row p of the left operand against column j of the table, summed over the 256 bins. -/
private theorem mmG_apply (a : FVec Ideal S2048x256 .f32) (w : FVec Ideal S256x128 .f32) (p : Fin 2048) (j : Fin 128) :
    matmul dot_S2048x256_S256x128_S2048x128_1_0_0_1_n_n (some .fp32) a w (constant (F := Ideal) S2048x128 .f32 0x00000000#32) (ix2 p j)
      = ∑ k : Fin 256, a (ix2 p k) * w (ix2 k j) := by
  show FloatOps.matmul _ _ _ _ _ _ = _
  rw [Ideal.matmul_constant_zero_apply, ← Equiv.sum_comp (ValueIdx.contrEquiv1 dot_S2048x256_S256x128_S2048x128_1_0_0_1_n_n 256 rfl rfl).symm]
  refine Finset.sum_congr rfl fun k _ => ?_
  have hk := ValueIdx.contrEquiv1_symm_val dot_S2048x256_S256x128_S2048x128_1_0_0_1_n_n 256 rfl rfl k
  have el : dot_S2048x256_S256x128_S2048x128_1_0_0_1_n_n.lhsIdx (ix2 p j) ((ValueIdx.contrEquiv1 dot_S2048x256_S256x128_S2048x128_1_0_0_1_n_n 256 rfl rfl).symm k) = ix2 p k := funext fun a => Fin.ext (by
    match a with
    | ⟨0, _⟩ => exact lhsG_0 _ _
    | ⟨1, _⟩ => exact (lhsG_1 _ _).trans hk)
  have er : dot_S2048x256_S256x128_S2048x128_1_0_0_1_n_n.rhsIdx (ix2 p j) ((ValueIdx.contrEquiv1 dot_S2048x256_S256x128_S2048x128_1_0_0_1_n_n 256 rfl rfl).symm k) = ix2 k j := funext fun a => Fin.ext (by
    match a with
    | ⟨0, _⟩ => exact (rhsG_0 _ _).trans hk
    | ⟨1, _⟩ => exact rhsG_1 _ _)
  rw [el, er]

/-! ## Three column forms of the layout operations -/

/-- An `[a, 1]` column cast to `[a]` reads, at `i`, the operand at `(i, 0)`. -/
private theorem shapeCast_a1_a_apply {α : Type} {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a]` array cast to the column `[a, 1]` reads, at `(i, u)`, the operand at `i`, whatever the unit coordinate `u`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

variable (x0 : Vec Ideal S2048x2 .f32) (x1 x2 : Vec Ideal S2048x128 .f32) (x3 : Vec Ideal S512x2 .f32) (x4 : Vec Ideal S512x128 .f32) (x5 x6 : Vec Ideal S512 .f32)

/-! ## The gates, the new cell state and the new hidden state -/

/-- The four gates' pre-activations: the two products, then the two biases, each broadcast along the rows. -/
private theorem gate_apply (p : Fin 2048) (j : Fin 512) :
    k0_pay3 (F := Ideal) x0 x1 x3 x4 x5 x6 (ix2 p j) = Cert.Spec.gate x0 x1 x3 x4 x5 x6 p j := by
  simp only [k0_pay3]
  rw [addf_apply, addf_apply, addf_apply, mmX_apply, mmH_apply]
  rw [broadcastTo_1b_ab_apply, broadcastTo_1b_ab_apply, shapeCast_a_1a_apply, shapeCast_a_1a_apply]
  have eX : ∀ k : Fin 2, (transpose S2x512 [1, 0] (truncf FTy.bf16 x3 bitsLt_bf16_f32 : FVec Ideal S512x2 .bf16) transposes_S512x2_p1_0_S2x512 (ix2 k j) : EReal) = x3 (ix2 j k) :=
    by intro k; exact transpose_ix2_apply (truncf FTy.bf16 x3 bitsLt_bf16_f32 : FVec Ideal S512x2 .bf16) transposes_S512x2_p1_0_S2x512 k j
  have eH : ∀ k : Fin 128, (transpose S128x512 [1, 0] (truncf FTy.bf16 x4 bitsLt_bf16_f32 : FVec Ideal S512x128 .bf16) transposes_S512x128_p1_0_S128x512 (ix2 k j) : EReal) = x4 (ix2 j k) :=
    by intro k; exact transpose_ix2_apply (truncf FTy.bf16 x4 bitsLt_bf16_f32 : FVec Ideal S512x128 .bf16) transposes_S512x128_p1_0_S128x512 k j
  simp only [eX, eH, truncf_apply]
  rfl

private theorem logistic_apply {s : Shape} {φ : FTy} (a : FVec Ideal s φ) (i : s.Idx) : logistic a i = Ideal.logistic (a i) := rfl
private theorem tanh_apply {s : Shape} {φ : FTy} (a : FVec Ideal s φ) (i : s.Idx) : tanh a i = Ideal.tanh (a i) := rfl

/-- A block's new cell state at an index: the forget gate on the old cell state plus the input gate on the candidate. -/
private theorem cnew_apply (p : Fin 2048) (q : Fin 128) :
    k0_pay4 (F := Ideal) x0 x1 x2 x3 x4 x5 x6 (ix2 p q) = Cert.Spec.cnew x0 x1 x2 x3 x4 x5 x6 p q := by
  simp only [k0_pay4]
  rw [addf_apply, mulf_apply, mulf_apply, logistic_apply, logistic_apply, tanh_apply,
    slice2_axis1_apply 128 _ slices_S2048x512_o0_128_S2048x128 p q ⟨128 + q.val, by omega⟩ rfl,
    slice2_axis1_apply 0 _ slices_S2048x512_o0_0_S2048x128 p q ⟨q.val, by omega⟩ (Nat.zero_add _).symm,
    slice2_axis1_apply 256 _ slices_S2048x512_o0_256_S2048x128 p q ⟨256 + q.val, by omega⟩ rfl,
    gate_apply, gate_apply, gate_apply]
  rfl

/-- A block's new hidden state at an index: the output gate on the squashed new cell state. -/
private theorem hnew_apply (p : Fin 2048) (q : Fin 128) :
    k0_pay5 (F := Ideal) x0 x1 x2 x3 x4 x5 x6 (ix2 p q) = Cert.Spec.hnew x0 x1 x2 x3 x4 x5 x6 p q := by
  simp only [k0_pay5]
  rw [mulf_apply, logistic_apply, tanh_apply,
    slice2_axis1_apply 384 _ slices_S2048x512_o0_384_S2048x128 p q ⟨384 + q.val, by omega⟩ rfl,
    gate_apply, cnew_apply]
  rfl

/-! ## A row's cell and the one-hot entries -/

/-- Coordinate 0 of the rows, as a vector over the rows. -/
private theorem col0_apply (p : Fin 2048) :
    shapeCast S2048 (extractStridedSlice S2048x1 ![0, 0] x0 slices_S2048x2_o0_0_S2048x1) shapeCasts_S2048x1_S2048 (ix1 p) = x0 (ix2 p 0) := by
  rw [shapeCast_a1_a_apply, slice2_axis1_apply 0 _ slices_S2048x2_o0_0_S2048x1 p 0 0 rfl]
/-- Coordinate 1 of the rows. -/
private theorem col1_apply (p : Fin 2048) :
    shapeCast S2048 (extractStridedSlice S2048x1 ![0, 1] x0 slices_S2048x2_o0_1_S2048x1) shapeCasts_S2048x1_S2048 (ix1 p) = x0 (ix2 p 1) := by
  rw [shapeCast_a1_a_apply, slice2_axis1_apply 1 _ slices_S2048x2_o0_1_S2048x1 p 0 1 rfl]

private theorem addi_apply {s : Shape} {w : Nat} (a b : IVec s w) (i : s.Idx) : addi a b i = IntOp.addi (a i) (b i) := rfl
private theorem muli_apply {s : Shape} {w : Nat} (a b : IVec s w) (i : s.Idx) : muli a b i = IntOp.muli (a i) (b i) := rfl
private theorem cmpi_apply {s : Shape} {w : Nat} (c : CmpIPredicate) (a b : IVec s w) (i : s.Idx) : cmpi c a b i = IntOp.cmpi c (a i) (b i) := rfl

/-- One coordinate's cell, as the kernels compute it over a vector of coordinates: clamp, shift, scale, floor, to a word, clamp. -/
private theorem cell_apply (v : FVec Ideal S2048 .f32) (i : S2048.Idx) :
    minsi (broadcast S2048 15#32) (maxsi (broadcast S2048 0#32) (fptosi 32 (floor (mulf (divf (subf
      (minimumf (broadcast S2048 (Scalar.ofBits (F := Ideal) .f32 0x41200000#32)) (maximumf (broadcast S2048 (Scalar.ofBits (F := Ideal) .f32 0xC1200000#32)) v))
      (broadcast S2048 (Scalar.ofBits (F := Ideal) .f32 0xC1200000#32))) (broadcast S2048 (Scalar.ofBits (F := Ideal) .f32 0x41A00000#32)))
      (broadcast S2048 (Scalar.ofBits (F := Ideal) .f32 0x41800000#32)))))) i = Cert.Spec.cellOf (v i) := rfl

/-- The entry of a one-hot row: the comparison of two words, widened and read as a number, is 1 where they agree and 0 elsewhere. -/
private theorem onehot_val (s t : BitVec 32) :
    (FloatOps.sitofp (F := Ideal) .f32 ((IntOp.cmpi .eq s t).setWidth 32) : EReal) = if s = t then 1 else 0 := by
  by_cases h : s = t
  · have e : IntOp.cmpi .eq s t = 1#1 := by
      show BitVec.ofBool (s == t) = 1#1
      rw [beq_iff_eq.mpr h]; rfl
    rw [if_pos h, e]
    show (((((1#1 : BitVec 1).setWidth 32).toInt : ℤ) : ℝ) : EReal) = 1
    have e1 : ((1#1 : BitVec 1).setWidth 32).toInt = 1 := by decide
    rw [e1]; simp
  · have e : IntOp.cmpi .eq s t = 0#1 := by
      show BitVec.ofBool (s == t) = 0#1
      rw [beq_eq_false_iff_ne.mpr h]; rfl
    rw [if_neg h, e]
    show (((((0#1 : BitVec 1).setWidth 32).toInt : ℤ) : ℝ) : EReal) = 0
    have e0 : ((0#1 : BitVec 1).setWidth 32).toInt = 0 := by decide
    rw [e0]; simp

/-- The first kernel's one-hot matrix: entry (p, b) says whether row p lies in cell b. -/
private theorem onehot_apply (p : Fin 2048) (b : Fin 256) :
    k0_pay6 (F := Ideal) x0 (ix2 p b) = if Cert.Spec.seg x0 p = BitVec.ofNat 32 b.val then 1 else 0 := by
  rw [← onehot_val]
  simp only [k0_pay6]
  rw [sitofp_apply, extui_apply, cmpi_apply, broadcastTo_a1_ab_apply, shapeCast_a_a1_apply, iota_single_apply,
    addi_apply, muli_apply, broadcast_apply, cell_apply, cell_apply, col0_apply, col1_apply]
  rfl

/-- The second kernel's column of cells: entry (p, ·) is row p's cell. -/
private theorem seg1_apply (p : Fin 2048) (u : Fin 1) : k1_pay2 (F := Ideal) x0 (ix2 p u) = Cert.Spec.seg x0 p := by
  simp only [k1_pay2]
  rw [shapeCast_a_a1_apply, addi_apply, muli_apply, broadcast_apply, cell_apply, cell_apply, col0_apply, col1_apply]
  rfl

/-! ## The four payloads -/

private theorem cnew_pay : k0_pay4 (F := Ideal) x0 x1 x2 x3 x4 x5 x6 = Cert.Spec.outC x0 x1 x2 x3 x4 x5 x6 := by
  funext i
  obtain ⟨p, q, rfl⟩ : ∃ (p : Fin 2048) (q : Fin 128), i = ix2 p q := ⟨i 0, i 1, eq_ix2 i⟩
  exact cnew_apply x0 x1 x2 x3 x4 x5 x6 p q

private theorem zero_pay : k0_pay2 (F := Ideal) = fun _ => (0 : EReal) := by
  funext i
  simp only [k0_pay2]
  rw [shapeCast_self, broadcast_apply]
  exact Ideal.ofBits_zero_f32

private theorem acc_pay (a : Vec Ideal S256x128 .f32) :
    k0_pay1 (F := Ideal) (k0_pay5 x0 x1 x2 x3 x4 x5 x6) (k0_pay6 x0) a
      = fun i => a i + Cert.Spec.binsum x0 x1 x2 x3 x4 x5 x6 (i 0) (i 1) := by
  funext i
  obtain ⟨b, k, rfl⟩ : ∃ (b : Fin 256) (k : Fin 128), i = ix2 b k := ⟨i 0, i 1, eq_ix2 i⟩
  simp only [k0_pay1]
  rw [shapeCast_self, addf_apply, mmT_apply]
  show a (ix2 b k) + _ = a (ix2 b k) + Cert.Spec.binsum x0 x1 x2 x3 x4 x5 x6 b k
  congr 1
  unfold Cert.Spec.binsum
  refine Finset.sum_congr rfl fun r _ => ?_
  rw [onehot_apply, hnew_apply]
  split_ifs
  · exact one_mul _
  · exact zero_mul _

private theorem gather_pay (bs : Vec Ideal S256x128 .f32) :
    k1_pay1 (F := Ideal) (iota .tc S2048x256 32 [1] iota_S2048x256_d1_w32) (k1_pay2 x0) bs
      = fun i => ∑ b : Fin 256, if Cert.Spec.seg x0 (i 0) = BitVec.ofNat 32 b.val then bs (ix2 b (i 1)) else 0 := by
  funext i
  obtain ⟨p, k, rfl⟩ : ∃ (p : Fin 2048) (k : Fin 128), i = ix2 p k := ⟨i 0, i 1, eq_ix2 i⟩
  simp only [k1_pay1]
  rw [mmG_apply]
  show _ = ∑ b : Fin 256, if Cert.Spec.seg x0 p = BitVec.ofNat 32 b.val then bs (ix2 b k) else 0
  refine Finset.sum_congr rfl fun b _ => ?_
  rw [shapeCast_self, sitofp_apply, extui_apply, cmpi_apply, broadcastTo_a1_ab_apply, iota_single_apply, seg1_apply, onehot_val]
  show (if Cert.Spec.seg x0 p = BitVec.ofNat 32 b.val then (1 : EReal) else 0) * bs (ix2 b k) = _
  split_ifs
  · exact one_mul _
  · exact zero_mul _

/-- A block's new cell state. -/
theorem cnewB_eq : cnewB (F := Ideal) x0 x1 x2 x3 x4 x5 x6 = Cert.Spec.outC x0 x1 x2 x3 x4 x5 x6 := by
  exact cnew_pay x0 x1 x2 x3 x4 x5 x6

/-- The zero table. -/
theorem zeroB_eq : zeroB (F := Ideal) = fun _ => (0 : EReal) := by
  exact zero_pay

/-- The table after a block: the table before plus the block's bin sums. -/
theorem accB_eq (a : Vec Ideal S256x128 .f32) :
    accB (F := Ideal) a x0 x1 x2 x3 x4 x5 x6 = fun i => a i + Cert.Spec.binsum x0 x1 x2 x3 x4 x5 x6 (i 0) (i 1) := by
  exact acc_pay x0 x1 x2 x3 x4 x5 x6 a

/-- The second kernel's block: each row's own bin of the table. -/
theorem gatherB_eq (bs : Vec Ideal S256x128 .f32) :
    gatherB (F := Ideal) x0 bs = fun i => ∑ b : Fin 256, if Cert.Spec.seg x0 (i 0) = BitVec.ofNat 32 b.val then bs (ix2 b (i 1)) else 0 := by
  exact gather_pay x0 bs

end Cert.KernelIdeal.PayValue

end
-- ==== Proof.KI.Value.lean ====
/-
  The idealized kernel's results, read off its run as whole-array functions of the arguments: the first region's
  write-backs tile the new cell state; its scratch table after the last block is the whole array's bin sums (the zero
  table plus the 128 blocks' bin sums, added in block order, is the sum over all rows); the second region's write-backs
  tile each row's own bin of that table.
-/
import proofs.«155315_j68058051772553_1_alg».proof.Proof.KI.Run
import proofs.«155315_j68058051772553_1_alg».proof.Proof.KI.PayValue
import proofs.«155315_j68058051772553_1_alg».proof.Proof.SpecLemmas
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-! # The regions' result arrays over any entry contents -/

section Blocks
variable (V : (c : Dev nD) → (b : Ref sig .tc) → Buf (Elt Ideal) ((c : Thread nD τ).loc b))

/-- A grid point as a block number. -/
abbrev blkNo (t : Fin cfg0.N) : Fin 128 := ⟨t.val, lt_of_lt_of_eq t.isLt N_0⟩
abbrev blkNo1 (t : Fin cfg1.N) : Fin 128 := ⟨t.val, lt_of_lt_of_eq t.isLt N_1⟩

/-- The first region's index maps over the grid: the row windows sit at block (t, 0), the others at block 0. -/
theorem idx0_facts : ∀ t : Fin cfg0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ win0_5.index t (0 : Fin 1) = 0
    ∧ win0_6.index t (0 : Fin 1) = 0
    ∧ (win0_7.index t (0 : Fin 2) = t.val ∧ win0_7.index t (1 : Fin 2) = 0)
    ∧ (win0_8.index t (0 : Fin 2) = 0 ∧ win0_8.index t (1 : Fin 2) = 0) :=
  (by decide +kernel : ∀ t : Fin grid0.N, _)

/-- The coordinates' block at point t is block t of the coordinates. -/
theorem xb0_eq (c : Dev nD) (t : Fin cfg0.N) : xb0 V c t = Cert.Spec.blk (V c main_arg0) (blkNo t) := by
  obtain ⟨⟨e0, e1⟩, -⟩ := idx0_facts t
  funext j
  show ((cfg0.win 0).blk t).view.read (Elt Ideal) (V c main_arg0) j = _
  rw [View.read_apply]
  show V c main_arg0 _ = V c main_arg0 _
  refine congrArg (V c main_arg0) ?_
  funext a
  apply Fin.ext
  match a with
  | ⟨0, _⟩ => show win0_0.index t (0 : Fin 2) * 2048 + 1 * (j 0).val = 2048 * t.val + (j 0).val; rw [e0]; omega
  | ⟨1, _⟩ => show win0_0.index t (1 : Fin 2) * 2 + 1 * (j 1).val = (j 1).val; rw [e1]; omega

/-- The hidden state's block at point t is block t of the hidden state. -/
theorem xb1_eq (c : Dev nD) (t : Fin cfg0.N) : xb1 V c t = Cert.Spec.blk (V c main_arg1) (blkNo t) := by
  obtain ⟨-, ⟨e0, e1⟩, -⟩ := idx0_facts t
  funext j
  show ((cfg0.win 1).blk t).view.read (Elt Ideal) (V c main_arg1) j = _
  rw [View.read_apply]
  show V c main_arg1 _ = V c main_arg1 _
  refine congrArg (V c main_arg1) ?_
  funext a
  apply Fin.ext
  match a with
  | ⟨0, _⟩ => show win0_1.index t (0 : Fin 2) * 2048 + 1 * (j 0).val = 2048 * t.val + (j 0).val; rw [e0]; omega
  | ⟨1, _⟩ => show win0_1.index t (1 : Fin 2) * 128 + 1 * (j 1).val = (j 1).val; rw [e1]; omega

/-- The cell state's block at point t is block t of the cell state. -/
theorem xb2_eq (c : Dev nD) (t : Fin cfg0.N) : xb2 V c t = Cert.Spec.blk (V c main_arg2) (blkNo t) := by
  obtain ⟨-, -, ⟨e0, e1⟩, -⟩ := idx0_facts t
  funext j
  show ((cfg0.win 2).blk t).view.read (Elt Ideal) (V c main_arg2) j = _
  rw [View.read_apply]
  show V c main_arg2 _ = V c main_arg2 _
  refine congrArg (V c main_arg2) ?_
  funext a
  apply Fin.ext
  match a with
  | ⟨0, _⟩ => show win0_2.index t (0 : Fin 2) * 2048 + 1 * (j 0).val = 2048 * t.val + (j 0).val; rw [e0]; omega
  | ⟨1, _⟩ => show win0_2.index t (1 : Fin 2) * 128 + 1 * (j 1).val = (j 1).val; rw [e1]; omega

/-- The weights and biases are read whole at every point. -/
theorem xb3_eq (c : Dev nD) (t : Fin cfg0.N) : xb3 V c t = V c main_arg3 := by
  obtain ⟨-, -, -, ⟨e0, e1⟩, -⟩ := idx0_facts t
  funext j
  show ((cfg0.win 3).blk t).view.read (Elt Ideal) (V c main_arg3) j = _
  rw [View.read_apply]
  show V c main_arg3 _ = V c main_arg3 _
  refine congrArg (V c main_arg3) ?_
  funext a
  apply Fin.ext
  match a with
  | ⟨0, _⟩ => show win0_3.index t (0 : Fin 2) * 512 + 1 * (j 0).val = (j 0).val; rw [e0]; omega
  | ⟨1, _⟩ => show win0_3.index t (1 : Fin 2) * 2 + 1 * (j 1).val = (j 1).val; rw [e1]; omega

theorem xb4_eq (c : Dev nD) (t : Fin cfg0.N) : xb4 V c t = V c main_arg4 := by
  obtain ⟨-, -, -, -, ⟨e0, e1⟩, -⟩ := idx0_facts t
  funext j
  show ((cfg0.win 4).blk t).view.read (Elt Ideal) (V c main_arg4) j = _
  rw [View.read_apply]
  show V c main_arg4 _ = V c main_arg4 _
  refine congrArg (V c main_arg4) ?_
  funext a
  apply Fin.ext
  match a with
  | ⟨0, _⟩ => show win0_4.index t (0 : Fin 2) * 512 + 1 * (j 0).val = (j 0).val; rw [e0]; omega
  | ⟨1, _⟩ => show win0_4.index t (1 : Fin 2) * 128 + 1 * (j 1).val = (j 1).val; rw [e1]; omega

theorem xb5_eq (c : Dev nD) (t : Fin cfg0.N) : xb5 V c t = V c main_arg5 := by
  obtain ⟨-, -, -, -, -, e0, -⟩ := idx0_facts t
  funext j
  show ((cfg0.win 5).blk t).view.read (Elt Ideal) (V c main_arg5) j = _
  rw [View.read_apply]
  show V c main_arg5 _ = V c main_arg5 _
  refine congrArg (V c main_arg5) ?_
  funext a
  apply Fin.ext
  match a with
  | ⟨0, _⟩ => show win0_5.index t (0 : Fin 1) * 512 + 1 * (j 0).val = (j 0).val; rw [e0]; omega

theorem xb6_eq (c : Dev nD) (t : Fin cfg0.N) : xb6 V c t = V c main_arg6 := by
  obtain ⟨-, -, -, -, -, -, e0, -⟩ := idx0_facts t
  funext j
  show ((cfg0.win 6).blk t).view.read (Elt Ideal) (V c main_arg6) j = _
  rw [View.read_apply]
  show V c main_arg6 _ = V c main_arg6 _
  refine congrArg (V c main_arg6) ?_
  funext a
  apply Fin.ext
  match a with
  | ⟨0, _⟩ => show win0_6.index t (0 : Fin 1) * 512 + 1 * (j 0).val = (j 0).val; rw [e0]; omega

section Whole
variable (A0 : (Cert.Spec.SX 262144).Idx → EReal) (A1 A2 : (Cert.Spec.SH 262144).Idx → EReal)
  (A3 : Cert.Spec.SWi.Idx → EReal) (A4 : Cert.Spec.SWh.Idx → EReal) (A5 A6 : Cert.Spec.SB.Idx → EReal)

/-- A block's new cell state, when the blocks are those of whole arrays, is the whole arrays' at the block's rows. -/
theorem cnewB_of_blocks (t : Fin 128) (x0 : Vec Ideal S2048x2 .f32) (x1 x2 : Vec Ideal S2048x128 .f32) (x3 : Vec Ideal S512x2 .f32)
    (x4 : Vec Ideal S512x128 .f32) (x5 x6 : Vec Ideal S512 .f32)
    (h0 : x0 = Cert.Spec.blk A0 t) (h1 : x1 = Cert.Spec.blk A1 t) (h2 : x2 = Cert.Spec.blk A2 t)
    (h3 : x3 = A3) (h4 : x4 = A4) (h5 : x5 = A5) (h6 : x6 = A6) (p : Fin 2048) (k : Fin 128) :
    cnewB (F := Ideal) x0 x1 x2 x3 x4 x5 x6 (ix2 p k) = Cert.Spec.outC A0 A1 A2 A3 A4 A5 A6 (ix2 (Cert.Spec.rowOf t p) k) := by
  subst h0 h1 h2 h3 h4 h5 h6
  rw [PayValue.cnewB_eq]
  exact Cert.Spec.outC_blk _ _ _ _ _ _ _ t p k

/-- The table after a block of whole arrays: the table before plus that block's bin sums. -/
theorem accB_of_blocks (t : Fin 128) (a : Vec Ideal S256x128 .f32) (x0 : Vec Ideal S2048x2 .f32) (x1 x2 : Vec Ideal S2048x128 .f32)
    (x3 : Vec Ideal S512x2 .f32) (x4 : Vec Ideal S512x128 .f32) (x5 x6 : Vec Ideal S512 .f32)
    (h0 : x0 = Cert.Spec.blk A0 t) (h1 : x1 = Cert.Spec.blk A1 t) (h2 : x2 = Cert.Spec.blk A2 t)
    (h3 : x3 = A3) (h4 : x4 = A4) (h5 : x5 = A5) (h6 : x6 = A6) :
    accB (F := Ideal) a x0 x1 x2 x3 x4 x5 x6
      = fun i => a i + Cert.Spec.binsum (Cert.Spec.blk A0 t) (Cert.Spec.blk A1 t) (Cert.Spec.blk A2 t) A3 A4 A5 A6 (i 0) (i 1) := by
  subst h0 h1 h2 h3 h4 h5 h6
  exact PayValue.accB_eq _ _ _ _ _ _ _ a

/-- Each row's own bin of a table of bin sums, for a block of the coordinates: the whole array's at the block's rows. -/
theorem gatherB_of_blocks (t : Fin 128) (y0 : Vec Ideal S2048x2 .f32) (bs : Vec Ideal S256x128 .f32)
    (h0 : y0 = Cert.Spec.blk A0 t) (hb : bs = fun i => Cert.Spec.binsum A0 A1 A2 A3 A4 A5 A6 (i 0) (i 1)) (p : Fin 2048) (k : Fin 128) :
    gatherB (F := Ideal) y0 bs (ix2 p k) = Cert.Spec.outH A0 A1 A2 A3 A4 A5 A6 (ix2 (Cert.Spec.rowOf t p) k) := by
  subst h0 hb
  rw [PayValue.gatherB_eq]
  show (∑ b : Fin 256, if Cert.Spec.seg (Cert.Spec.blk A0 t) p = BitVec.ofNat 32 b.val then Cert.Spec.binsum A0 A1 A2 A3 A4 A5 A6 b k else 0)
    = ∑ b : Fin 256, if Cert.Spec.seg A0 (Cert.Spec.rowOf t p) = BitVec.ofNat 32 b.val then Cert.Spec.binsum A0 A1 A2 A3 A4 A5 A6 b k else 0
  rw [Cert.Spec.seg_blk]

end Whole

/-! ## The first result: the new cell state -/

/-- An index of the array is in point t's block iff each coordinate is in the block's range on its axis. -/
theorem mem_blk0_7 (t : Fin cfg0.N) (i : S262144x128.Idx) :
    i ∈ ((cfg0.win 7).blk t).view.set ↔ ∀ a : Fin 2, win0_7.index t a * S2048x128.size a ≤ (i a).val ∧ (i a).val < win0_7.index t a * S2048x128.size a + S2048x128.size a := by
  show i ∈ ((View.whole main_v0_0).slice (win0_7.rect t)).set ↔ _
  rw [View.set_slice_whole, Rect.mem_set_unit]
  exact Iff.rfl

/-- What point t writes back is block t of the whole arrays' new cell state. -/
theorem flushed0_7_eq (c : Dev nD) (t : Fin cfg0.N) :
    (dat0 V c).flushed 7 t = ((cfg0.win 7).blk t).view.read (Elt Ideal)
      (Cert.Spec.outC (V c main_arg0) (V c main_arg1) (V c main_arg2) (V c main_arg3) (V c main_arg4) (V c main_arg5) (V c main_arg6)) := by
  show (cfg0.win 7).cut (grid0.coords t) ((dat0 V c).after 7 t) = _
  rw [after0_7]
  obtain ⟨-, -, -, -, -, -, -, ⟨e0, e1⟩, -⟩ := idx0_facts t
  funext j
  obtain ⟨p, k, rfl⟩ : ∃ (p : Fin 2048) (k : Fin 128), j = ix2 p k := ⟨j 0, j 1, eq_ix2 j⟩
  show cnewB (xb0 V c t) (xb1 V c t) (xb2 V c t) (xb3 V c t) (xb4 V c t) (xb5 V c t) (xb6 V c t) (ix2 p k)
    = Cert.Spec.outC (V c main_arg0) (V c main_arg1) (V c main_arg2) (V c main_arg3) (V c main_arg4) (V c main_arg5) (V c main_arg6) (((cfg0.win 7).blk t).view.emb (ix2 p k))
  refine (cnewB_of_blocks (V c main_arg0) (V c main_arg1) (V c main_arg2) (V c main_arg3) (V c main_arg4) (V c main_arg5) (V c main_arg6) (blkNo t)
    (xb0 V c t) (xb1 V c t) (xb2 V c t) (xb3 V c t) (xb4 V c t) (xb5 V c t) (xb6 V c t)
    (xb0_eq V c t) (xb1_eq V c t) (xb2_eq V c t) (xb3_eq V c t) (xb4_eq V c t) (xb5_eq V c t) (xb6_eq V c t) p k).trans ?_
  refine congrArg (Cert.Spec.outC (V c main_arg0) (V c main_arg1) (V c main_arg2) (V c main_arg3) (V c main_arg4) (V c main_arg5) (V c main_arg6)) ?_
  funext a
  apply Fin.ext
  match a with
  | ⟨0, _⟩ => show 2048 * t.val + p.val = win0_7.index t (0 : Fin 2) * 2048 + 1 * p.val; rw [e0]; omega
  | ⟨1, _⟩ => show k.val = win0_7.index t (1 : Fin 2) * 128 + 1 * k.val; rw [e1]; omega

/-- Every row is in the block of the point r / 2048. -/
theorem cover0_7 (i : S262144x128.Idx) : ∃ t : Fin cfg0.N, (cfg0.win 7).flush t = true ∧ i ∈ ((cfg0.win 7).blk t).view.set := by
  have hi0 : (i 0).val < 262144 := (i 0).isLt
  have hi1 : (i 1).val < 128 := (i 1).isLt
  have hN : cfg0.N = 128 := N_0
  refine ⟨⟨(i 0).val / 2048, by omega⟩, flush0_7 _, ?_⟩
  rw [mem_blk0_7]
  obtain ⟨-, -, -, -, -, -, -, ⟨e0, e1⟩, -⟩ := idx0_facts ⟨(i 0).val / 2048, by omega⟩
  intro a
  match a with
  | ⟨0, _⟩ =>
    show win0_7.index ⟨(i 0).val / 2048, _⟩ (0 : Fin 2) * 2048 ≤ (i 0).val ∧ (i 0).val < win0_7.index ⟨(i 0).val / 2048, _⟩ (0 : Fin 2) * 2048 + 2048
    rw [e0]; dsimp only; omega
  | ⟨1, _⟩ =>
    show win0_7.index ⟨(i 0).val / 2048, _⟩ (1 : Fin 2) * 128 ≤ (i 1).val ∧ (i 1).val < win0_7.index ⟨(i 0).val / 2048, _⟩ (1 : Fin 2) * 128 + 128
    rw [e1]; omega

/-- The first result array ends at the new cell state of every row. -/
theorem final_c_of (c : Dev nD) :
    (dat0 V c).arrAt 7 cfg0.N = Cert.Spec.outC (V c main_arg0) (V c main_arg1) (V c main_arg2) (V c main_arg3) (V c main_arg4) (V c main_arg5) (V c main_arg6) :=
  (dat0 V c).arrAt_eq_of_cover 7 _ (fun t _ => flushed0_7_eq V c t) cover0_7

/-! ## The second result: the bin sums over all rows -/

/-- Block s's bin sums at one entry of the table (zero past the last block). -/
def blockSum (c : Dev nD) (i : S256x128.Idx) (s : ℕ) : EReal :=
  if h : s < 128 then
    Cert.Spec.binsum (Cert.Spec.blk (V c main_arg0) ⟨s, h⟩) (Cert.Spec.blk (V c main_arg1) ⟨s, h⟩) (Cert.Spec.blk (V c main_arg2) ⟨s, h⟩)
      (V c main_arg3) (V c main_arg4) (V c main_arg5) (V c main_arg6) (i 0) (i 1)
  else 0

theorem blockSum_of_lt (c : Dev nD) (i : S256x128.Idx) (s : ℕ) (h : s < 128) :
    blockSum V c i s = Cert.Spec.binsum (Cert.Spec.blk (V c main_arg0) ⟨s, h⟩) (Cert.Spec.blk (V c main_arg1) ⟨s, h⟩) (Cert.Spec.blk (V c main_arg2) ⟨s, h⟩)
      (V c main_arg3) (V c main_arg4) (V c main_arg5) (V c main_arg6) (i 0) (i 1) := by
  unfold blockSum; rw [dif_pos h]

/-- The running table after point n is the sum of the bin sums of the blocks 0 … n. -/
theorem accAt_eq (c : Dev nD) : ∀ (n : ℕ) (h : n < cfg0.N), accAt V c n h = fun i => ∑ s ∈ Finset.range (n + 1), blockSum V c i s
  | 0, h => by
    refine (accAt_zero V c h).trans ((accB_of_blocks (V c main_arg0) (V c main_arg1) (V c main_arg2) (V c main_arg3) (V c main_arg4) (V c main_arg5) (V c main_arg6) (blkNo ⟨0, h⟩) (zeroB (F := Ideal))
      (xb0 V c ⟨0, h⟩) (xb1 V c ⟨0, h⟩) (xb2 V c ⟨0, h⟩) (xb3 V c ⟨0, h⟩) (xb4 V c ⟨0, h⟩) (xb5 V c ⟨0, h⟩) (xb6 V c ⟨0, h⟩) (xb0_eq V c ⟨0, h⟩) (xb1_eq V c ⟨0, h⟩) (xb2_eq V c ⟨0, h⟩) (xb3_eq V c ⟨0, h⟩) (xb4_eq V c ⟨0, h⟩) (xb5_eq V c ⟨0, h⟩) (xb6_eq V c ⟨0, h⟩)).trans ?_)
    funext i
    rw [PayValue.zeroB_eq, zero_add, Finset.sum_range_one, blockSum_of_lt V c i 0 (by norm_num)]
  | n + 1, h => by
    have hN : cfg0.N = 128 := N_0
    refine (accAt_succ V c n h).trans ((accB_of_blocks (V c main_arg0) (V c main_arg1) (V c main_arg2) (V c main_arg3) (V c main_arg4) (V c main_arg5) (V c main_arg6) (blkNo ⟨n + 1, h⟩) (accAt V c n (Nat.lt_of_succ_lt h))
      (xb0 V c ⟨n + 1, h⟩) (xb1 V c ⟨n + 1, h⟩) (xb2 V c ⟨n + 1, h⟩) (xb3 V c ⟨n + 1, h⟩) (xb4 V c ⟨n + 1, h⟩) (xb5 V c ⟨n + 1, h⟩) (xb6 V c ⟨n + 1, h⟩) (xb0_eq V c ⟨n + 1, h⟩) (xb1_eq V c ⟨n + 1, h⟩) (xb2_eq V c ⟨n + 1, h⟩) (xb3_eq V c ⟨n + 1, h⟩) (xb4_eq V c ⟨n + 1, h⟩) (xb5_eq V c ⟨n + 1, h⟩) (xb6_eq V c ⟨n + 1, h⟩)).trans ?_)
    funext i
    rw [accAt_eq c n, Finset.sum_range_succ _ (n + 1), blockSum_of_lt V c i (n + 1) (by omega)]

/-- All 128 blocks' bin sums added up are the whole arrays' bin sums. -/
theorem sum_blockSum (c : Dev nD) (b : Fin 256) (k : Fin 128) :
    ∑ s ∈ Finset.range 128, blockSum V c (ix2 b k) s = Cert.Spec.binsum (V c main_arg0) (V c main_arg1) (V c main_arg2) (V c main_arg3) (V c main_arg4) (V c main_arg5) (V c main_arg6) b k := by
  rw [Finset.sum_range, Cert.Spec.binsum_blocks]
  refine Finset.sum_congr rfl fun s _ => ?_
  rw [blockSum_of_lt V c (ix2 b k) s.val s.isLt]

theorem mem_blk0_8 (t : Fin cfg0.N) (i : S256x128.Idx) :
    i ∈ ((cfg0.win 8).blk t).view.set ↔ ∀ a : Fin 2, win0_8.index t a * S256x128.size a ≤ (i a).val ∧ (i a).val < win0_8.index t a * S256x128.size a + S256x128.size a := by
  show i ∈ ((View.whole main_v0_1).slice (win0_8.rect t)).set ↔ _
  rw [View.set_slice_whole, Rect.mem_set_unit]
  exact Iff.rfl

/-- The one write-back of the table, after the last point, writes the whole arrays' bin sums. -/
theorem flushed0_8_eq (c : Dev nD) (t : Fin cfg0.N) (hf : (cfg0.win 8).flush t = true) :
    (dat0 V c).flushed 8 t = ((cfg0.win 8).blk t).view.read (Elt Ideal)
      (fun i => Cert.Spec.binsum (V c main_arg0) (V c main_arg1) (V c main_arg2) (V c main_arg3) (V c main_arg4) (V c main_arg5) (V c main_arg6) (i 0) (i 1)) := by
  have hN : cfg0.N = 128 := N_0
  have h127 : t.val + 1 = 128 := by have := (flush0_8 t).mp hf; have := t.isLt; omega
  show (cfg0.win 8).cut (grid0.coords t) ((dat0 V c).after 8 t) = _
  rw [after0_8]
  obtain ⟨-, -, -, -, -, -, -, -, ⟨e0, e1⟩⟩ := idx0_facts t
  funext j
  obtain ⟨b, k, rfl⟩ : ∃ (b : Fin 256) (k : Fin 128), j = ix2 b k := ⟨j 0, j 1, eq_ix2 j⟩
  have hx : (cfg0.win 8).xinj (grid0.coords t) (ix2 b k) = ix2 b k := by
    funext a
    apply Fin.ext
    match a with
    | ⟨0, _⟩ => rfl
    | ⟨1, _⟩ => rfl
  have hemb : ((cfg0.win 8).blk t).view.emb (ix2 b k) = ix2 b k := by
    funext a
    apply Fin.ext
    match a with
    | ⟨0, _⟩ => show win0_8.index t (0 : Fin 2) * 256 + 1 * b.val = b.val; rw [e0]; omega
    | ⟨1, _⟩ => show win0_8.index t (1 : Fin 2) * 128 + 1 * k.val = k.val; rw [e1]; omega
  have hl : ∀ X : S256x128.Idx → EReal, (cfg0.win 8).cut (grid0.coords t) X (ix2 b k) = X (ix2 b k) := fun X => congrArg X hx
  have hr : ∀ G : S256x128.Idx → EReal, ((cfg0.win 8).blk t).view.read (Elt Ideal) G (ix2 b k) = G (ix2 b k) := fun G => by
    rw [View.read_apply, hemb]; rfl
  refine (hl _).trans (Eq.trans ?_ (hr _).symm)
  rw [accAt_eq V c t.val t.isLt]
  beta_reduce
  rw [h127]
  exact sum_blockSum V c b k

/-- The last point's block is the whole table. -/
theorem cover0_8 (i : S256x128.Idx) : ∃ t : Fin cfg0.N, (cfg0.win 8).flush t = true ∧ i ∈ ((cfg0.win 8).blk t).view.set := by
  have hi0 : (i 0).val < 256 := (i 0).isLt
  have hi1 : (i 1).val < 128 := (i 1).isLt
  have hN : cfg0.N = 128 := N_0
  refine ⟨⟨127, by omega⟩, (flush0_8 _).mpr rfl, ?_⟩
  rw [mem_blk0_8]
  obtain ⟨-, -, -, -, -, -, -, -, ⟨e0, e1⟩⟩ := idx0_facts ⟨127, by omega⟩
  intro a
  match a with
  | ⟨0, _⟩ =>
    show win0_8.index ⟨127, _⟩ (0 : Fin 2) * 256 ≤ (i 0).val ∧ (i 0).val < win0_8.index ⟨127, _⟩ (0 : Fin 2) * 256 + 256
    rw [e0]; omega
  | ⟨1, _⟩ =>
    show win0_8.index ⟨127, _⟩ (1 : Fin 2) * 128 ≤ (i 1).val ∧ (i 1).val < win0_8.index ⟨127, _⟩ (1 : Fin 2) * 128 + 128
    rw [e1]; omega

/-- The second result array ends at the bin sums over all rows. -/
theorem final_table_of (c : Dev nD) :
    (dat0 V c).arrAt 8 cfg0.N = fun i => Cert.Spec.binsum (V c main_arg0) (V c main_arg1) (V c main_arg2) (V c main_arg3) (V c main_arg4) (V c main_arg5) (V c main_arg6) (i 0) (i 1) :=
  (dat0 V c).arrAt_eq_of_cover 8 _ (fun t hf => flushed0_8_eq V c t hf) cover0_8

/-! ## The second region: each row's own bin sum -/

/-- The second region's index maps over the grid. -/
theorem idx1_facts : ∀ t : Fin cfg1.N, (win1_0.index t (0 : Fin 2) = t.val ∧ win1_0.index t (1 : Fin 2) = 0)
    ∧ (win1_1.index t (0 : Fin 2) = 0 ∧ win1_1.index t (1 : Fin 2) = 0)
    ∧ (win1_2.index t (0 : Fin 2) = t.val ∧ win1_2.index t (1 : Fin 2) = 0) :=
  (by decide +kernel : ∀ t : Fin grid1.N, _)

theorem yb0_eq (c : Dev nD) (t : Fin cfg1.N) : yb0 V c t = Cert.Spec.blk (V c main_arg0) (blkNo1 t) := by
  obtain ⟨⟨e0, e1⟩, -⟩ := idx1_facts t
  funext j
  show ((cfg1.win 0).blk t).view.read (Elt Ideal) (V c main_arg0) j = _
  rw [View.read_apply]
  show V c main_arg0 _ = V c main_arg0 _
  refine congrArg (V c main_arg0) ?_
  funext a
  apply Fin.ext
  match a with
  | ⟨0, _⟩ => show win1_0.index t (0 : Fin 2) * 2048 + 1 * (j 0).val = 2048 * t.val + (j 0).val; rw [e0]; omega
  | ⟨1, _⟩ => show win1_0.index t (1 : Fin 2) * 2 + 1 * (j 1).val = (j 1).val; rw [e1]; omega

theorem yb1_eq (c : Dev nD) (t : Fin cfg1.N) : yb1 V c t = V c main_v0_1 := by
  obtain ⟨-, ⟨e0, e1⟩, -⟩ := idx1_facts t
  funext j
  show ((cfg1.win 1).blk t).view.read (Elt Ideal) (V c main_v0_1) j = _
  rw [View.read_apply]
  show V c main_v0_1 _ = V c main_v0_1 _
  refine congrArg (V c main_v0_1) ?_
  funext a
  apply Fin.ext
  match a with
  | ⟨0, _⟩ => show win1_1.index t (0 : Fin 2) * 256 + 1 * (j 0).val = (j 0).val; rw [e0]; omega
  | ⟨1, _⟩ => show win1_1.index t (1 : Fin 2) * 128 + 1 * (j 1).val = (j 1).val; rw [e1]; omega

theorem mem_blk1_2 (t : Fin cfg1.N) (i : S262144x128.Idx) :
    i ∈ ((cfg1.win 2).blk t).view.set ↔ ∀ a : Fin 2, win1_2.index t a * S2048x128.size a ≤ (i a).val ∧ (i a).val < win1_2.index t a * S2048x128.size a + S2048x128.size a := by
  show i ∈ ((View.whole main_v1).slice (win1_2.rect t)).set ↔ _
  rw [View.set_slice_whole, Rect.mem_set_unit]
  exact Iff.rfl

section Gather
variable (A1 A2 : (Cert.Spec.SH 262144).Idx → EReal)
  (A3 : Cert.Spec.SWi.Idx → EReal) (A4 : Cert.Spec.SWh.Idx → EReal) (A5 A6 : Cert.Spec.SB.Idx → EReal)

/-- What point t writes back, when the table the region is handed holds the bin sums: block t of each row's own bin sum. -/
theorem flushed1_2_eq (c : Dev nD)
    (hT : V c main_v0_1 = fun i => Cert.Spec.binsum (V c main_arg0) A1 A2 A3 A4 A5 A6 (i 0) (i 1)) (t : Fin cfg1.N) :
    (dat1 V c).flushed 2 t = ((cfg1.win 2).blk t).view.read (Elt Ideal) (Cert.Spec.outH (V c main_arg0) A1 A2 A3 A4 A5 A6) := by
  show (cfg1.win 2).cut (grid1.coords t) ((dat1 V c).after 2 t) = _
  rw [after1_2]
  obtain ⟨-, -, ⟨e0, e1⟩⟩ := idx1_facts t
  funext j
  obtain ⟨p, k, rfl⟩ : ∃ (p : Fin 2048) (k : Fin 128), j = ix2 p k := ⟨j 0, j 1, eq_ix2 j⟩
  show gatherB (yb0 V c t) (yb1 V c t) (ix2 p k)
    = Cert.Spec.outH (V c main_arg0) A1 A2 A3 A4 A5 A6 (((cfg1.win 2).blk t).view.emb (ix2 p k))
  refine (gatherB_of_blocks (V c main_arg0) A1 A2 A3 A4 A5 A6 (blkNo1 t) (yb0 V c t) (yb1 V c t) (yb0_eq V c t)
    ((yb1_eq V c t).trans hT) p k).trans ?_
  refine congrArg (Cert.Spec.outH (V c main_arg0) A1 A2 A3 A4 A5 A6) ?_
  funext a
  apply Fin.ext
  match a with
  | ⟨0, _⟩ => show 2048 * t.val + p.val = win1_2.index t (0 : Fin 2) * 2048 + 1 * p.val; rw [e0]; omega
  | ⟨1, _⟩ => show k.val = win1_2.index t (1 : Fin 2) * 128 + 1 * k.val; rw [e1]; omega

theorem cover1_2 (i : S262144x128.Idx) : ∃ t : Fin cfg1.N, (cfg1.win 2).flush t = true ∧ i ∈ ((cfg1.win 2).blk t).view.set := by
  have hi0 : (i 0).val < 262144 := (i 0).isLt
  have hi1 : (i 1).val < 128 := (i 1).isLt
  have hN : cfg1.N = 128 := N_1
  refine ⟨⟨(i 0).val / 2048, by omega⟩, flush1_2 _, ?_⟩
  rw [mem_blk1_2]
  obtain ⟨-, -, ⟨e0, e1⟩⟩ := idx1_facts ⟨(i 0).val / 2048, by omega⟩
  intro a
  match a with
  | ⟨0, _⟩ =>
    show win1_2.index ⟨(i 0).val / 2048, _⟩ (0 : Fin 2) * 2048 ≤ (i 0).val ∧ (i 0).val < win1_2.index ⟨(i 0).val / 2048, _⟩ (0 : Fin 2) * 2048 + 2048
    rw [e0]; dsimp only; omega
  | ⟨1, _⟩ =>
    show win1_2.index ⟨(i 0).val / 2048, _⟩ (1 : Fin 2) * 128 ≤ (i 1).val ∧ (i 1).val < win1_2.index ⟨(i 0).val / 2048, _⟩ (1 : Fin 2) * 128 + 128
    rw [e1]; omega

/-- The second region's result array ends at each row's own bin sum. -/
theorem final_h_of (c : Dev nD)
    (hT : V c main_v0_1 = fun i => Cert.Spec.binsum (V c main_arg0) A1 A2 A3 A4 A5 A6 (i 0) (i 1)) :
    (dat1 V c).arrAt 2 cfg1.N = Cert.Spec.outH (V c main_arg0) A1 A2 A3 A4 A5 A6 :=
  (dat1 V c).arrAt_eq_of_cover 2 _ (fun t _ => flushed1_2_eq V A1 A2 A3 A4 A5 A6 c hT t) cover1_2

end Gather

end Blocks

/-! # The program's results -/

variable (m : (ℓ : Loc nD τ sig) → Buf (Elt Ideal) ℓ) (ρ : Dev nD → PrngReg)

/-- The first region's first result array: the new cell state of every row. -/
theorem final_c (c : Dev nD) :
    (dat0 (V1 m ρ) c).arrAt 7 cfg0.N = Cert.Spec.outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) :=
  final_c_of (V1 m ρ) c

/-- The first region's second result array: the bin sums over all rows. -/
theorem final_table (c : Dev nD) :
    (dat0 (V1 m ρ) c).arrAt 8 cfg0.N = fun i => Cert.Spec.binsum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) :=
  final_table_of (V1 m ρ) c

/-- The second region's result array: each row's own bin sum. -/
theorem final_h (c : Dev nD) :
    (dat1 (V2 m ρ) c).arrAt 2 cfg1.N = Cert.Spec.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  have hT : V2 m ρ c main_v0_1 = fun i => Cert.Spec.binsum (V2 m ρ c main_arg0) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (i 0) (i 1) := by
    rw [V2_main_v0_1, final_table m ρ c, V2_main_arg0]
  have h := final_h_of (V2 m ρ) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) c hT
  rw [V2_main_arg0] at h
  exact h

/-- The run of the idealized kernel, with its two results named. -/
theorem run_value : θ_run defs (onTc (τ := τ) (main (F := Ideal))) ⟨m, fun _ => 0, ρ⟩ (fun r => ∀ c : Dev nD,
      r.2.mem ((c.tc : Thread nD τ).loc main_v1) = Cert.Spec.outH (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_v0_0) = Cert.Spec.outC (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c =>
    ⟨(h c).1.trans (final_h m ρ c), (h c).2.1.trans (final_c m ρ c), (h c).2.2⟩) (run_main m ρ)

end Cert.KernelIdeal.Hand

end
-- ==== Proof.RefValue.lean ====
/-
  The reference program's two results, read one operation at a time, are the index-level specification:
  the new cell state, and each row's bin sum of the new hidden states (a scatter-add then a gather by the row's cell).
-/
import proofs.«155315_j68058051772553_1_alg».proof.Proof.Gen.ReferenceIdeal.Read
import proofs.«155315_j68058051772553_1_alg».proof.Proof.SpecLemmas
import Idealize.ShloMosaic.Lib.ValueIdx
import Idealize.ShloMosaic.Lib.Pipeline.Value
import Idealize.ShloMosaic.PureOps.Ideal.Laws
import Idealize.ShloMosaic.Lib.IdealHost

noncomputable section

namespace Cert.ReferenceIdeal.RefValue

open Cert.ReferenceIdeal Cert.ReferenceIdeal.Gen Cert.ReferenceIdeal.Read
open Idealize.ShloMosaic Idealize.ShloMosaic.TcCoe Idealize.ShloMosaic.ValueIdx

variable (x0 : (⟨S262144x2, .f32⟩ : BufTy).Contents (Elt Ideal)) (x1 x2 : (⟨S262144x128, .f32⟩ : BufTy).Contents (Elt Ideal))
  (x3 : (⟨S512x2, .f32⟩ : BufTy).Contents (Elt Ideal)) (x4 : (⟨S512x128, .f32⟩ : BufTy).Contents (Elt Ideal))
  (x5 x6 : (⟨S512, .f32⟩ : BufTy).Contents (Elt Ideal))

/-- The pre-activation array at row r, column j is the specification's gate: the reference adds the four terms in the
order ((x·Wi + b_ih) + h·Wh) + b_hh, the specification in the order ((x·Wi + h·Wh) + b_ih) + b_hh. -/
private theorem v10_eq (r : Fin 262144) (j : Fin 512) :
    val_main_v10 (F := Ideal) x0 x1 x3 x4 x5 x6 (ix2 r j) = Cert.Spec.gate x0 x1 x3 x4 x5 x6 r j := by
  rw [val_main_v10_apply, val_main_v7_apply, val_main_v4_apply, val_main_v1_apply, val_main_v6_apply,
    val_main_v3_apply, val_main_v2_apply, val_main_v9_apply, val_main_v8_apply]
  simp only [val_main_v0_apply, val_main_v5_apply]
  have e1 : ∀ k : Fin 2, lidx_main_v1 (ix2 r j) k = ix2 r k := fun k =>
    funext fun a => Fin.ext (by match a with | ⟨0, _⟩ => rfl | ⟨1, _⟩ => rfl)
  have e2 : ∀ k : Fin 2, idx_main_v0 (ridx_main_v1 (ix2 r j) k) = ix2 j k := fun k =>
    funext fun a => Fin.ext (by match a with | ⟨0, _⟩ => rfl | ⟨1, _⟩ => rfl)
  have e3 : ∀ k : Fin 128, lidx_main_v6 (ix2 r j) k = ix2 r k := fun k =>
    funext fun a => Fin.ext (by match a with | ⟨0, _⟩ => rfl | ⟨1, _⟩ => rfl)
  have e4 : ∀ k : Fin 128, idx_main_v5 (ridx_main_v6 (ix2 r j) k) = ix2 j k := fun k =>
    funext fun a => Fin.ext (by match a with | ⟨0, _⟩ => rfl | ⟨1, _⟩ => rfl)
  have e5 : idx_main_v2 (idx_main_v3 (ix2 r j)) = ix1 j :=
    funext fun a => Fin.ext (by match a with | ⟨0, _⟩ => rfl)
  have e6 : idx_main_v8 (idx_main_v9 (ix2 r j)) = ix1 j :=
    funext fun a => Fin.ext (by match a with | ⟨0, _⟩ => rfl)
  simp only [e1, e2, e3, e4, e5, e6, Ideal.addf_def]
  unfold Cert.Spec.gate
  rw [add_right_comm (∑ k : Fin 2, x0 (ix2 r k) * x3 (ix2 j k)) (x5 (ix1 j))]

/-- The sigmoid spelt out as 1 / (1 + exp(−g)), the constant 1 read from its bit pattern, is the logistic function. -/
private theorem sigmoid_eq (g : EReal) :
    FloatOps.hostDivf (F := Ideal) (φ := .f32) (FloatOps.ofBits .f32 0x3F800000#32)
      (FloatOps.addf (FloatOps.ofBits .f32 0x3F800000#32) (FloatOps.hostUnary .exp (FloatOps.hostNegf g))) = Ideal.logistic g := by
  rw [Ideal.ofBits_def, Ideal.ofBits_one_f32]
  rfl

/-- The reference's second result (the new cell state) is the specification's. -/
theorem ref_outC : val_main_v30 (F := Ideal) x0 x1 x2 x3 x4 x5 x6 = Cert.Spec.outC x0 x1 x2 x3 x4 x5 x6 := by
  funext i
  obtain ⟨r, k, rfl⟩ : ∃ r k, i = ix2 r k := ⟨i 0, i 1, eq_ix2 i⟩
  rw [val_main_v30_apply, val_main_v21_apply, val_main_v29_apply, val_main_v20_apply, val_main_v27_apply,
    val_main_v28_apply, val_main_v19_apply, val_main_v26_apply, val_main_v18_apply, val_main_v25_apply,
    val_main_v17_apply, val_main_v24_apply, val_main_v16_apply, val_main_v23_apply, val_main_v15_apply,
    val_main_v22_apply, val_main_v12_apply, val_main_v11_apply, val_main_v13_apply,
    val_main_cst_apply, val_main_cst_0_apply, val_main_cst_1_apply, val_main_cst_2_apply]
  have i11 : idx_main_v11 (ix2 r k) = ix2 r (⟨k.val, by omega⟩ : Fin 512) :=
    funext fun a => Fin.ext (by match a with | ⟨0, _⟩ => rfl | ⟨1, _⟩ => rfl)
  have i12 : idx_main_v12 (ix2 r k) = ix2 r (⟨128 + k.val, by omega⟩ : Fin 512) :=
    funext fun a => Fin.ext (by match a with | ⟨0, _⟩ => rfl | ⟨1, _⟩ => rfl)
  have i13 : idx_main_v13 (ix2 r k) = ix2 r (⟨256 + k.val, by omega⟩ : Fin 512) :=
    funext fun a => Fin.ext (by match a with | ⟨0, _⟩ => rfl | ⟨1, _⟩ => rfl)
  rw [i11, i12, i13, v10_eq, v10_eq, v10_eq, sigmoid_eq, sigmoid_eq]
  rfl

/-! ## The rows' cells, and the scatter-add and the gather read at an index -/

/-- The reference's flat cell of row r (two clamps, a floor, a conversion, two integer clamps, 16·a + b) is the specification's. -/
private theorem v65_eq (r : Fin 262144) : val_main_v65 (F := Ideal) x0 (ix1 r) = Cert.Spec.seg x0 r := by
  have e0 : idx_main_v39 (idx_main_v40 (ix1 r)) = ix2 r 0 :=
    funext fun a => Fin.ext (by match a with | ⟨0, _⟩ => exact Nat.div_one _ | ⟨1, _⟩ => rfl)
  have e1 : idx_main_v42 (idx_main_v43 (ix1 r)) = ix2 r 1 :=
    funext fun a => Fin.ext (by match a with | ⟨0, _⟩ => exact Nat.div_one _ | ⟨1, _⟩ => rfl)
  rw [val_main_v65_apply, val_main_v64_apply, val_main_v62_apply, val_main_v53_apply, val_main_v63_apply,
    val_main_call2_v4_apply, val_main_call2_v2_apply, val_main_call2_v1_apply, val_main_call3_v4_apply,
    val_main_call3_v2_apply, val_main_call3_v1_apply, val_main_v52_apply, val_main_v61_apply, val_main_v51_apply,
    val_main_v60_apply, val_main_v50_apply, val_main_v59_apply, val_main_v48_apply, val_main_v57_apply,
    val_main_v49_apply, val_main_v58_apply, val_main_v47_apply, val_main_v56_apply, val_main_v46_apply,
    val_main_v55_apply, val_main_v45_apply, val_main_v54_apply, val_main_v41_apply, val_main_v44_apply,
    val_main_call0_v4_apply, val_main_call1_v4_apply, val_main_call0_v2_apply, val_main_call1_v2_apply,
    val_main_call0_v1_apply, val_main_call1_v1_apply, val_main_v40_apply, val_main_v43_apply,
    val_main_v39_apply, val_main_v42_apply, e0, e1]
  rfl

/-- An update index lands on operand index i exactly when, on every axis, its start plus its window coordinate is i's coordinate. -/
private theorem resultIdx?_eq_some_iff {s si u : Shape} (d : ScatterDims s si u) {w : Nat} (j : u.Idx) (idx : IVec si w) (i : s.Idx) :
    d.resultIdx? j idx = some i ↔ ∀ a, d.start j idx a + (d.window j a : Int) = ((i a).val : Int) := by
  unfold ScatterDims.resultIdx?
  split
  · rename_i h
    constructor
    · intro he a
      have h1 := congrFun (Option.some.inj he) a
      have h2 := congrArg Fin.val h1
      have h3 := (h a).1
      simp only at h2
      omega
    · intro he
      refine congrArg some (funext fun a => Fin.ext ?_)
      have := he a
      simp only
      omega
  · rename_i h
    constructor
    · intro he; exact absurd he (by simp)
    · intro he
      exact absurd (fun a => by have := he a; have := (i a).isLt; constructor <;> omega) h

/-- The scatter's and the gather's dimension numbers. -/
private abbrev sd : ScatterDims S256x128 S262144x1 S262144x128 := scatter_S256x128_S262144x1_S262144x128_1_0_0_1
private abbrev gd : GatherDims S256x128 S262144x1 S262144x128 := gather_S256x128_S262144x1_S262144x128_1_0_n_n_0_1_1128

/-- Update (r, k') starts, on the table's row axis, at the r-th scatter index read signed … -/
private theorem sd_start0 (idx : IVec S262144x1 32) (r : Fin 262144) (k' : Fin 128) :
    sd.start (ix2 r k') idx 0 = (idx (ix2 r 0)).toInt := by
  unfold ScatterDims.start
  rw [dif_pos (show (0 : Fin S256x128.rank) ∈ sd.scatterDimsToOperandDims by decide)]
  have hsi : sd.siIdx (ix2 r k') ⟨List.idxOf (0 : Fin S256x128.rank) sd.scatterDimsToOperandDims,
      List.idxOf_lt_length_iff.2 (by decide)⟩ = ix2 r 0 := by
    funext b; refine Fin.ext ?_
    match b with
    | ⟨0, _⟩ => rfl
    | ⟨1, _⟩ => rfl
  rw [hsi]

/-- … and, on the column axis, at 0 … -/
private theorem sd_start1 (idx : IVec S262144x1 32) (r : Fin 262144) (k' : Fin 128) :
    sd.start (ix2 r k') idx 1 = 0 := by
  unfold ScatterDims.start
  rw [dif_neg (show ¬(1 : Fin S256x128.rank) ∈ sd.scatterDimsToOperandDims by decide)]

/-- … its window coordinate is 0 on the row axis and k' on the column axis. -/
private theorem sd_window0 (r : Fin 262144) (k' : Fin 128) : sd.window (ix2 r k') 0 = 0 := by
  unfold ScatterDims.window
  rw [dif_neg (show ¬(0 : Fin S256x128.rank) ∈ sd.sKept by decide)]

private theorem sd_window1 (r : Fin 262144) (k' : Fin 128) : sd.window (ix2 r k') 1 = k'.val := by
  unfold ScatterDims.window
  rw [dif_pos (show (1 : Fin S256x128.rank) ∈ sd.sKept by decide)]
  rfl

/-- Update (r, k') lands on table element (b, k) exactly when the r-th scatter index is b and k' = k. -/
private theorem sd_lands (idx : IVec S262144x1 32) (r : Fin 262144) (k' k : Fin 128) (b : Fin 256) :
    sd.resultIdx? (ix2 r k') idx = some (ix2 b k) ↔ (idx (ix2 r 0)).toInt = (b.val : Int) ∧ k' = k := by
  rw [resultIdx?_eq_some_iff]
  constructor
  · intro h
    have h0 := h 0
    have h1 := h 1
    rw [sd_start0, sd_window0] at h0
    rw [sd_start1, sd_window1] at h1
    refine ⟨by simpa using h0, Fin.ext ?_⟩
    have : ((k'.val : Int)) = (k.val : Int) := by simpa using h1
    exact_mod_cast this
  · rintro ⟨h0, rfl⟩ a
    match a with
    | ⟨0, _⟩ => rw [show (⟨0, by decide⟩ : Fin S256x128.rank) = 0 from rfl, sd_start0, sd_window0, h0]; simp
    | ⟨1, _⟩ => rw [show (⟨1, by decide⟩ : Fin S256x128.rank) = 1 from rfl, sd_start1, sd_window1]; simp

/-- Result element (r, k) of the gather reads the table at the r-th start index, read signed and clamped into [0, 255], column k. -/
private theorem gd_operandIdx (idx : IVec S262144x1 32) (r : Fin 262144) (k : Fin 128) :
    gd.operandIdx (ix2 r k) idx = ix2 (⟨min (idx (ix2 r 0)).toInt.toNat 255, by omega⟩ : Fin 256) k := by
  have hsi : gd.siIdx (ix2 r k) ⟨List.idxOf (0 : Fin S256x128.rank) gd.startIndexMap,
      List.idxOf_lt_length_iff.2 (by decide)⟩ = ix2 r 0 := by
    funext b; refine Fin.ext ?_
    match b with
    | ⟨0, _⟩ => rfl
    | ⟨1, _⟩ => rfl
  funext a; refine Fin.ext ?_
  match a with
  | ⟨0, _⟩ =>
    show gd.start (ix2 r k) idx 0 + gd.batchCoord (ix2 r k) 0 + gd.offCoord (ix2 r k) 0 = min (idx (ix2 r 0)).toInt.toNat 255
    rw [GatherDims.batchCoord_eq_zero _ _ _ List.not_mem_nil,
      GatherDims.offCoord_eq_zero _ _ _ (show ¬(0 : Fin S256x128.rank) ∈ gd.sKept by decide)]
    unfold GatherDims.start
    rw [dif_pos (show (0 : Fin S256x128.rank) ∈ gd.startIndexMap by decide), hsi]
    rfl
  | ⟨1, _⟩ =>
    show gd.start (ix2 r k) idx 1 + gd.batchCoord (ix2 r k) 1 + gd.offCoord (ix2 r k) 1 = k.val
    rw [GatherDims.batchCoord_eq_zero _ _ _ List.not_mem_nil]
    unfold GatherDims.start GatherDims.offCoord
    rw [dif_neg (show ¬(1 : Fin S256x128.rank) ∈ gd.startIndexMap by decide),
      dif_pos (show (1 : Fin S256x128.rank) ∈ gd.sKept by decide)]
    show 0 + 0 + k.val = k.val
    omega

/-- A cell's word is below 256, so read signed it is its value. -/
private theorem seg_toInt (r : Fin 262144) : (Cert.Spec.seg x0 r).toInt = ((Cert.Spec.seg x0 r).toNat : Int) :=
  BitVec.toInt_eq_toNat_of_lt (by have := Cert.Spec.seg_lt x0 r; omega)

/-- A word in [0, 256) is not negative, so the wrap-around of negative indices (select(a < 0, a + 256, a)) leaves it alone. -/
private theorem select_nonneg (a : BitVec 32) (ha : a.toNat < 256) :
    Scalar.select (IntOp.cmpi .slt a 0#32) (IntOp.addi a 256#32) a = a := by
  have hnn : a.toInt = (a.toNat : Int) := BitVec.toInt_eq_toNat_of_lt (by omega)
  have hs : a.slt 0#32 = false := by
    unfold BitVec.slt
    rw [hnn]
    exact decide_eq_false (by simp)
  unfold Scalar.select IntOp.cmpi
  simp only [hs]
  exact if_neg (by decide)

/-- The scatter's index array at row r is the row's cell … -/
private theorem v67_eq (r : Fin 262144) : val_main_v67 (F := Ideal) x0 (ix2 r 0) = Cert.Spec.seg x0 r := by
  rw [val_main_v67_apply, show idx_main_v67 (ix2 r (0 : Fin 1)) = ix1 r from
    funext fun a => Fin.ext (by match a with | ⟨0, _⟩ => rfl), v65_eq]

/-- … and so is the gather's. -/
private theorem v74_eq (r : Fin 262144) : val_main_v74 (F := Ideal) x0 (ix2 r 0) = Cert.Spec.seg x0 r := by
  rw [val_main_v74_apply, show idx_main_v74 (ix2 r (0 : Fin 1)) = ix1 r from
    funext fun a => Fin.ext (by match a with | ⟨0, _⟩ => rfl), val_main_v73_apply, val_main_v70_apply,
    val_main_v72_apply, val_main_v69_apply, val_main_v71_apply, val_main_c_20_apply, val_main_c_21_apply, v65_eq]
  exact select_nonneg _ (Cert.Spec.seg_lt x0 r)

/-- The scattered updates are the new hidden state. -/
private theorem v38_eq (r : Fin 262144) (k : Fin 128) :
    val_main_v38 (F := Ideal) x0 x1 x2 x3 x4 x5 x6 (ix2 r k) = Cert.Spec.hnew x0 x1 x2 x3 x4 x5 x6 r k := by
  have i14 : idx_main_v14 (ix2 r k) = ix2 r (⟨384 + k.val, by omega⟩ : Fin 512) :=
    funext fun a => Fin.ext (by match a with | ⟨0, _⟩ => rfl | ⟨1, _⟩ => rfl)
  rw [val_main_v38_apply, val_main_v36_apply, val_main_v37_apply, val_main_v35_apply, val_main_cst_4_apply,
    val_main_v34_apply, val_main_v33_apply, val_main_cst_3_apply, val_main_v32_apply, val_main_v31_apply,
    val_main_v14_apply, i14, v10_eq, sigmoid_eq, ref_outC]
  rfl

/-- The scatter-add over the zero table, read at (b, k): the sum of the new hidden states of the rows whose cell is b. -/
private theorem v68_eq (b : Fin 256) (k : Fin 128) :
    val_main_v68 (F := Ideal) x0 x1 x2 x3 x4 x5 x6 (ix2 b k) = Cert.Spec.binsum x0 x1 x2 x3 x4 x5 x6 b k := by
  show val_main_v66 (F := Ideal) (ix2 b k)
      + ∑ j ∈ Finset.univ.filter (fun j => sd.resultIdx? j (val_main_v67 (F := Ideal) x0) = some (ix2 b k)),
          val_main_v38 (F := Ideal) x0 x1 x2 x3 x4 x5 x6 j = _
  rw [val_main_v66_apply, val_main_cst_19_apply, Ideal.ofBits_def, Ideal.ofBits_zero_f32, zero_add, Finset.sum_filter, sum_idx2]
  unfold Cert.Spec.binsum
  refine Finset.sum_congr rfl fun r _ => ?_
  simp only [sd_lands, v67_eq, seg_toInt]
  by_cases hb : Cert.Spec.seg x0 r = BitVec.ofNat 32 b.val
  · have hb' : ((Cert.Spec.seg x0 r).toNat : Int) = (b.val : Int) := by
      exact_mod_cast (Cert.Spec.seg_eq_ofNat_iff x0 r b).1 hb
    rw [if_pos hb, Finset.sum_eq_single k]
    · rw [if_pos ⟨hb', rfl⟩, v38_eq]
    · intro k' _ hne; exact if_neg fun h => hne h.2
    · intro h; exact absurd (Finset.mem_univ k) h
  · have hb' : ¬((Cert.Spec.seg x0 r).toNat : Int) = (b.val : Int) := fun h =>
      hb ((Cert.Spec.seg_eq_ofNat_iff x0 r b).2 (by exact_mod_cast h))
    rw [if_neg hb]
    exact Finset.sum_eq_zero fun k' _ => if_neg fun h => hb' h.1

/-- The reference's first result (each row's bin sum) is the specification's. -/
theorem ref_outH : val_main_v75 (F := Ideal) x0 x1 x2 x3 x4 x5 x6 = Cert.Spec.outH x0 x1 x2 x3 x4 x5 x6 := by
  funext i
  obtain ⟨r, k, rfl⟩ : ∃ r k, i = ix2 r k := ⟨i 0, i 1, eq_ix2 i⟩
  show val_main_v68 (F := Ideal) x0 x1 x2 x3 x4 x5 x6 (gd.operandIdx (ix2 r k) (val_main_v74 (F := Ideal) x0))
    = Cert.Spec.hsoc x0 x1 x2 x3 x4 x5 x6 r k
  have hlt := Cert.Spec.seg_lt x0 r
  have hrow : (⟨min (val_main_v74 (F := Ideal) x0 (ix2 r 0)).toInt.toNat 255, by omega⟩ : Fin 256)
      = ⟨(Cert.Spec.seg x0 r).toNat, hlt⟩ := by
    refine Fin.ext ?_
    show min (val_main_v74 (F := Ideal) x0 (ix2 r 0)).toInt.toNat 255 = (Cert.Spec.seg x0 r).toNat
    rw [v74_eq, seg_toInt, Int.toNat_natCast]
    omega
  rw [gd_operandIdx, hrow, v68_eq]
  unfold Cert.Spec.hsoc
  rw [Finset.sum_eq_single (⟨(Cert.Spec.seg x0 r).toNat, hlt⟩ : Fin 256)]
  · rw [if_pos ((Cert.Spec.seg_eq_ofNat_iff x0 r _).2 rfl)]
  · intro b _ hne
    exact if_neg fun h => hne (Fin.ext ((Cert.Spec.seg_eq_ofNat_iff x0 r b).1 h).symm)
  · intro h; exact absurd (Finset.mem_univ _) h

end Cert.ReferenceIdeal.RefValue

end
-- ==== Proof.lean ====
/-
  The certificate's five claims.

  Both idealized programs compute, over the extended reals, the same two arrays of the arguments: the new cell state of
  every row (four gates from two small matrix products and two biases, then logistic and tanh), and for every row the sum
  of the new hidden states of the rows that share its grid cell. The kernel gets the second one as two one-hot matrix
  products around a 256-bin table accumulated block by block; the reference as a scatter-add then a gather. A one-hot
  product is a masked sum on every extended real (0·x = 0, 1·x = x), a sum does not depend on its order or grouping,
  and the reference's other association of the gates' four summands is the same sum; no finiteness is used.
  The three frames are the runs with the results dropped; the idealization rewrote nothing.
-/
import proofs.«155315_j68058051772553_1_alg».proof.Defs
import proofs.«155315_j68058051772553_1_alg».proof.Proof.Gen.Kernel
import proofs.«155315_j68058051772553_1_alg».proof.Proof.Gen.KernelIdeal
import proofs.«155315_j68058051772553_1_alg».proof.Proof.Gen.ReferenceIdeal
import proofs.«155315_j68058051772553_1_alg».proof.Proof.Gen.Pre_finite_inputs
import proofs.«155315_j68058051772553_1_alg».proof.Proof.Gen.ReferenceIdeal.Run
import proofs.«155315_j68058051772553_1_alg».proof.Proof.Gen.ReferenceIdeal.Read
import proofs.«155315_j68058051772553_1_alg».proof.Proof.K.Run
import proofs.«155315_j68058051772553_1_alg».proof.Proof.KI.Value
import proofs.«155315_j68058051772553_1_alg».proof.Proof.RefValue
import Idealize.ShloMosaic.Adequacy
import Idealize.ShloMosaic.Init

noncomputable section

namespace Cert.Proof

open Idealize.ShloMosaic Idealize.SL.Sem

section
variable [hKernel : Cert.Kernel.Facts] [hKernelIdeal : Cert.KernelIdeal.Facts] [hReferenceIdeal : Cert.ReferenceIdeal.Facts] [hPre : Cert.Pre_finite_inputs.Facts]

/-- The word-level kernel runs and leaves its arguments as launched. -/
theorem frame_k : Cert.frame_Kernel := fun m ρ _ =>
  (θ_run Cert.Kernel.defs _ _).mono (fun _ h c => (h c).2.2) (Cert.Kernel.Hand.run_main (F := Bits) m ρ)

/-- So does its idealization. -/
theorem frame_ki : Cert.frame_KernelIdeal := fun m ρ _ =>
  (θ_run Cert.KernelIdeal.defs _ _).mono (fun _ h c => (h c).2.2) (Cert.KernelIdeal.Hand.run_main (F := Ideal) m ρ)

/-- And the idealized reference. -/
theorem frame_ri : Cert.frame_ReferenceIdeal := fun m ρ _ =>
  (θ_run Cert.ReferenceIdeal.defs _ _).mono (fun _ h c => (h c).2.2) (Cert.ReferenceIdeal.Value.run (F := Ideal) m ρ)

/-- From memories agreeing on the arguments both idealized programs end at the specification's two arrays. -/
theorem algebraic : Cert.algebraic_KernelIdeal_ReferenceIdeal := by
  intro m ρ m' ρ' _ hagree
  refine ⟨fun c => Cert.Spec.outH (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)), fun c => Cert.Spec.outC (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Hand.run_value m ρ, ?_⟩
  refine (θ_run Cert.ReferenceIdeal.defs _ _).mono (fun _ h c => ⟨?_, ?_, (h c).2.2⟩)
    (Cert.ReferenceIdeal.Value.run (F := Ideal) m' ρ')
  · rw [(h c).1, Cert.ReferenceIdeal.Read.val_main_v75_eq, Cert.ReferenceIdeal.RefValue.ref_outH,
      (hagree c).1, (hagree c).2.1, (hagree c).2.2.1, (hagree c).2.2.2.1, (hagree c).2.2.2.2.1, (hagree c).2.2.2.2.2.1, (hagree c).2.2.2.2.2.2]
  · rw [(h c).2.1, Cert.ReferenceIdeal.Read.val_main_v30_eq, Cert.ReferenceIdeal.RefValue.ref_outC,
      (hagree c).1, (hagree c).2.1, (hagree c).2.2.1, (hagree c).2.2.2.1, (hagree c).2.2.2.2.1, (hagree c).2.2.2.2.2.1, (hagree c).2.2.2.2.2.2]
end

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
